-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x192x192 : Shape := ⟨4, ![16, 64, 192, 192]⟩
abbrev S_ : Shape := ⟨0, ![]⟩

class Facts : Prop where
  bcast_S_S16x64x192x192 : S_.BroadcastsInDim S16x64x192x192 (![] : Fin 0 → Fin S16x64x192x192.rank)
  reducesTo_S16x64x192x192_S_d0_1_2_3 : S16x64x192x192.ReducesTo [0, 1, 2, 3] S_
  h_S_ : 0 < S_.numel

variable [Facts]

def fn {F : FTy → Type} [FloatOps F] (main_arg0 : FVec F S16x64x192x192 .f32) : IVec S_ 1 :=
  let main_v0 : FVec F S16x64x192x192 .f32 := Host.absf main_arg0
  let main_cst : FVec F S_ .f32 := constant S_ .f32 0x7F800000#32
  let main_v1 : FVec F S16x64x192x192 .f32 := broadcastInDim S16x64x192x192 ![] bcast_S_S16x64x192x192 main_cst
  let main_v2 : IVec S16x64x192x192 1 := cmpf .olt main_v0 main_v1
  let main_c : IVec S_ 1 := constantI S_ 1 1#1
  let main_v3 : IVec S_ 1 := (fun x v => Host.reduce IntOp.andi x v reducesTo_S16x64x192x192_S_d0_1_2_3 h_S_) main_v2 main_c
  main_v3
-- ==== Kernel.lean ====
abbrev S16x64x192x192 : Shape := ⟨4, ![16, 64, 192, 192]⟩
abbrev S16x16x192x192 : Shape := ⟨4, ![16, 16, 192, 192]⟩
abbrev S2x16x192x192 : Shape := ⟨4, ![2, 16, 192, 192]⟩
abbrev S2x16x96x2x96x2 : Shape := ⟨6, ![2, 16, 96, 2, 96, 2]⟩
abbrev S2x16x96x2x96 : Shape := ⟨5, ![2, 16, 96, 2, 96]⟩
abbrev S2x16x96x96 : Shape := ⟨4, ![2, 16, 96, 96]⟩
abbrev S2x16x96x1x96x1 : Shape := ⟨6, ![2, 16, 96, 1, 96, 1]⟩
abbrev S2x16x48x4x48x4 : Shape := ⟨6, ![2, 16, 48, 4, 48, 4]⟩
abbrev S2x16x48x4x48 : Shape := ⟨5, ![2, 16, 48, 4, 48]⟩
abbrev S2x16x48x48 : Shape := ⟨4, ![2, 16, 48, 48]⟩
abbrev S2x16x48x1x48x1 : Shape := ⟨6, ![2, 16, 48, 1, 48, 1]⟩
abbrev S16x8x192x192 : Shape := ⟨4, ![16, 8, 192, 192]⟩
abbrev S2x8x192x192 : Shape := ⟨4, ![2, 8, 192, 192]⟩
abbrev S2x8x24x8x24x8 : Shape := ⟨6, ![2, 8, 24, 8, 24, 8]⟩
abbrev S2x8x24x8x24 : Shape := ⟨5, ![2, 8, 24, 8, 24]⟩
abbrev S2x8x24x24 : Shape := ⟨4, ![2, 8, 24, 24]⟩
abbrev S2x8x24x1x24x1 : Shape := ⟨6, ![2, 8, 24, 1, 24, 1]⟩

abbrev nBuf : Space → Nat
  | .hbm => 11
  | .vmem => 16
  | .smem => 0
  | _ => 0

abbrev bufTy : (tb : Table) → Fin (tcTables nBuf tb) → BufTy
  | .hbm, ⟨0, _⟩ => ⟨S16x64x192x192, .f32⟩
  | .hbm, ⟨1, _⟩ => ⟨S16x16x192x192, .f32⟩
  | .hbm, ⟨2, _⟩ => ⟨S16x16x192x192, .f32⟩
  | .hbm, ⟨3, _⟩ => ⟨S16x16x192x192, .f32⟩
  | .hbm, ⟨4, _⟩ => ⟨S16x16x192x192, .f32⟩
  | .hbm, ⟨5, _⟩ => ⟨S16x16x192x192, .f32⟩
  | .hbm, ⟨6, _⟩ => ⟨S16x16x192x192, .f32⟩
  | .hbm, ⟨7, _⟩ => ⟨S16x8x192x192, .f32⟩
  | .hbm, ⟨8, _⟩ => ⟨S16x8x192x192, .f32⟩
  | .hbm, ⟨9, _⟩ => ⟨S16x8x192x192, .f32⟩
  | .hbm, ⟨10, _⟩ => ⟨S16x64x192x192, .f32⟩
  | .local _ .vmem, ⟨0, _⟩ => ⟨S2x16x192x192, .f32⟩
  | .local _ .vmem, ⟨1, _⟩ => ⟨S2x16x192x192, .f32⟩
  | .local _ .vmem, ⟨2, _⟩ => ⟨S2x16x192x192, .f32⟩
  | .local _ .vmem, ⟨3, _⟩ => ⟨S2x16x192x192, .f32⟩
  | .local _ .vmem, ⟨4, _⟩ => ⟨S2x16x192x192, .f32⟩
  | .local _ .vmem, ⟨5, _⟩ => ⟨S2x16x192x192, .f32⟩
  | .local _ .vmem, ⟨6, _⟩ => ⟨S2x16x192x192, .f32⟩
  | .local _ .vmem, ⟨7, _⟩ => ⟨S2x16x192x192, .f32⟩
  | .local _ .vmem, ⟨8, _⟩ => ⟨S2x16x192x192, .f32⟩
  | .local _ .vmem, ⟨9, _⟩ => ⟨S2x16x192x192, .f32⟩
  | .local _ .vmem, ⟨10, _⟩ => ⟨S2x16x192x192, .f32⟩
  | .local _ .vmem, ⟨11, _⟩ => ⟨S2x16x192x192, .f32⟩
  | .local _ .vmem, ⟨12, _⟩ => ⟨S2x8x192x192, .f32⟩
  | .local _ .vmem, ⟨13, _⟩ => ⟨S2x8x192x192, .f32⟩
  | .local _ .vmem, ⟨14, _⟩ => ⟨S2x8x192x192, .f32⟩
  | .local _ .vmem, ⟨15, _⟩ => ⟨S2x8x192x192, .f32⟩
  | _, _ => ⟨S16x64x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x16x192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16x192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S2x16x192x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x16x192x192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S2x16x192x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2x16x192x192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![8], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S2x8x192x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2x8x192x192 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  slices_S16x64x192x192_S16x16x192x192_0_0_0_0 : S16x64x192x192.Slices ![0, 0, 0, 0] S16x16x192x192
  inb_S2x16x192x192_S2x16x192x192_0_0_0_0 : ∀ a, (![0, 0, 0, 0] : Fin 4 → Nat) a + S2x16x192x192.size a ≤ S2x16x192x192.size a
  h_S2x16x192x192 : 0 < S2x16x192x192.numel
  shapeCasts_S2x16x192x192_S2x16x192x192 : S2x16x192x192.ShapeCasts S2x16x192x192
  slices_S16x64x192x192_S16x16x192x192_0_16_0_0 : S16x64x192x192.Slices ![0, 16, 0, 0] S16x16x192x192
  shapeCasts_S2x16x192x192_S2x16x96x2x96x2 : S2x16x192x192.ShapeCasts S2x16x96x2x96x2
  reduces_S2x16x96x2x96x2_S2x16x96x2x96 : S2x16x96x2x96x2.Reduces [5] S2x16x96x2x96
  reduces_S2x16x96x2x96_S2x16x96x96 : S2x16x96x2x96.Reduces [3] S2x16x96x96
  natLt_1_32 : 1 < 32
  shapeCasts_S2x16x96x96_S2x16x96x1x96x1 : S2x16x96x96.ShapeCasts S2x16x96x1x96x1
  shapeCasts_S2x16x96x1x96x1_S2x16x96x1x96x1 : S2x16x96x1x96x1.ShapeCasts S2x16x96x1x96x1
  broadcasts_S2x16x96x1x96x1_S2x16x96x2x96x2 : S2x16x96x1x96x1.Broadcasts S2x16x96x2x96x2
  shapeCasts_S2x16x96x2x96x2_S2x16x192x192 : S2x16x96x2x96x2.ShapeCasts S2x16x192x192
  slices_S16x64x192x192_S16x16x192x192_0_32_0_0 : S16x64x192x192.Slices ![0, 32, 0, 0] S16x16x192x192
  shapeCasts_S2x16x192x192_S2x16x48x4x48x4 : S2x16x192x192.ShapeCasts S2x16x48x4x48x4
  reduces_S2x16x48x4x48x4_S2x16x48x4x48 : S2x16x48x4x48x4.Reduces [5] S2x16x48x4x48
  reduces_S2x16x48x4x48_S2x16x48x48 : S2x16x48x4x48.Reduces [3] S2x16x48x48
  shapeCasts_S2x16x48x48_S2x16x48x1x48x1 : S2x16x48x48.ShapeCasts S2x16x48x1x48x1
  shapeCasts_S2x16x48x1x48x1_S2x16x48x1x48x1 : S2x16x48x1x48x1.ShapeCasts S2x16x48x1x48x1
  broadcasts_S2x16x48x1x48x1_S2x16x48x4x48x4 : S2x16x48x1x48x1.Broadcasts S2x16x48x4x48x4
  shapeCasts_S2x16x48x4x48x4_S2x16x192x192 : S2x16x48x4x48x4.ShapeCasts S2x16x192x192
  slices_S16x64x192x192_S16x8x192x192_0_48_0_0 : S16x64x192x192.Slices ![0, 48, 0, 0] S16x8x192x192
  inb_S2x8x192x192_S2x8x192x192_0_0_0_0 : ∀ a, (![0, 0, 0, 0] : Fin 4 → Nat) a + S2x8x192x192.size a ≤ S2x8x192x192.size a
  h_S2x8x192x192 : 0 < S2x8x192x192.numel
  shapeCasts_S2x8x192x192_S2x8x192x192 : S2x8x192x192.ShapeCasts S2x8x192x192
  shapeCasts_S2x8x192x192_S2x8x24x8x24x8 : S2x8x192x192.ShapeCasts S2x8x24x8x24x8
  reduces_S2x8x24x8x24x8_S2x8x24x8x24 : S2x8x24x8x24x8.Reduces [5] S2x8x24x8x24
  reduces_S2x8x24x8x24_S2x8x24x24 : S2x8x24x8x24.Reduces [3] S2x8x24x24
  shapeCasts_S2x8x24x24_S2x8x24x1x24x1 : S2x8x24x24.ShapeCasts S2x8x24x1x24x1
  shapeCasts_S2x8x24x1x24x1_S2x8x24x1x24x1 : S2x8x24x1x24x1.ShapeCasts S2x8x24x1x24x1
  broadcasts_S2x8x24x1x24x1_S2x8x24x8x24x8 : S2x8x24x1x24x1.Broadcasts S2x8x24x8x24x8
  shapeCasts_S2x8x24x8x24x8_S2x8x192x192 : S2x8x24x8x24x8.ShapeCasts S2x8x192x192
  slices_S16x64x192x192_S16x8x192x192_0_56_0_0 : S16x64x192x192.Slices ![0, 56, 0, 0] S16x8x192x192
  concatenates_S16x16x192x192_S16x16x192x192_S16x16x192x192_S16x8x192x192_S16x8x192x192_S16x64x192x192_d1 : Shape.Concatenates [S16x16x192x192, S16x16x192x192, S16x16x192x192, S16x8x192x192, S16x8x192x192] S16x64x192x192 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x16x192x192.size a ≤ S16x16x192x192.size a
  hwx0_0 : ∀ i : grid0.Coords, EltTy.bits .f32 = 32 ∨ (Rect.block (s := S16x16x192x192) S2x16x192x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x16x192x192.size a ≤ S16x16x192x192.size a
  hwx0_1 : ∀ i : grid0.Coords, EltTy.bits .f32 = 32 ∨ (Rect.block (s := S16x16x192x192) S2x16x192x192.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x16x192x192.size a ≤ S16x16x192x192.size a
  hwx1_0 : ∀ i : grid1.Coords, EltTy.bits .f32 = 32 ∨ (Rect.block (s := S16x16x192x192) S2x16x192x192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x16x192x192.size a ≤ S16x16x192x192.size a
  hwx1_1 : ∀ i : grid1.Coords, EltTy.bits .f32 = 32 ∨ (Rect.block (s := S16x16x192x192) S2x16x192x192.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x16x192x192.size a ≤ S16x16x192x192.size a
  hwx2_0 : ∀ i : grid2.Coords, EltTy.bits .f32 = 32 ∨ (Rect.block (s := S16x16x192x192) S2x16x192x192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2x16x192x192.size a ≤ S16x16x192x192.size a
  hwx2_1 : ∀ i : grid2.Coords, EltTy.bits .f32 = 32 ∨ (Rect.block (s := S16x16x192x192) S2x16x192x192.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2x8x192x192.size a ≤ S16x8x192x192.size a
  hwx3_0 : ∀ i : grid3.Coords, EltTy.bits .f32 = 32 ∨ (Rect.block (s := S16x8x192x192) S2x8x192x192.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2x8x192x192.size a ≤ S16x8x192x192.size a
  hwx3_1 : ∀ i : grid3.Coords, EltTy.bits .f32 = 32 ∨ (Rect.block (s := S16x8x192x192) S2x8x192x192.size (cc3_transform_1 i) (hinb3_1 i)).WholeWords (EltTy.packing .f32)

variable [Facts₀]

abbrev win0_0 : Pipeline.Window sig grid0 :=
  Pipeline.Window.ofSpec (Memref.whole main_v0) S2x16x192x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x16x192x192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S2x16x192x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2x16x192x192.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v4) S2x16x192x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S2x16x192x192.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v6) S2x8x192x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S2x8x192x192.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S16x64x192x192 : Shape := ⟨4, ![16, 64, 192, 192]⟩
abbrev S16x16x192x192 : Shape := ⟨4, ![16, 16, 192, 192]⟩
abbrev S16x16x192x1x192x1 : Shape := ⟨6, ![16, 16, 192, 1, 192, 1]⟩
abbrev S_ : Shape := ⟨0, ![]⟩
abbrev S1 : Shape := ⟨1, ![1]⟩
abbrev S16x16x96x2x96x2 : Shape := ⟨6, ![16, 16, 96, 2, 96, 2]⟩
abbrev S16x16x96x96 : Shape := ⟨4, ![16, 16, 96, 96]⟩
abbrev S16x16x96x1x96x1 : Shape := ⟨6, ![16, 16, 96, 1, 96, 1]⟩
abbrev S16x16x48x4x48x4 : Shape := ⟨6, ![16, 16, 48, 4, 48, 4]⟩
abbrev S16x16x48x48 : Shape := ⟨4, ![16, 16, 48, 48]⟩
abbrev S16x16x48x1x48x1 : Shape := ⟨6, ![16, 16, 48, 1, 48, 1]⟩
abbrev S16x8x192x192 : Shape := ⟨4, ![16, 8, 192, 192]⟩
abbrev S16x8x24x8x24x8 : Shape := ⟨6, ![16, 8, 24, 8, 24, 8]⟩
abbrev S16x8x24x24 : Shape := ⟨4, ![16, 8, 24, 24]⟩
abbrev S16x8x24x1x24x1 : Shape := ⟨6, ![16, 8, 24, 1, 24, 1]⟩

abbrev nBuf : Space → Nat
  | .hbm => 72
  | .vmem => 0
  | .smem => 0
  | _ => 0

abbrev bufTy : (tb : Table) → Fin (tcTables nBuf tb) → BufTy
  | .hbm, ⟨0, _⟩ => ⟨S16x64x192x192, .f32⟩
  | .hbm, ⟨1, _⟩ => ⟨S16x16x192x192, .f32⟩
  | .hbm, ⟨2, _⟩ => ⟨S16x16x192x1x192x1, .f32⟩
  | .hbm, ⟨3, _⟩ => ⟨S_, .f32⟩
  | .hbm, ⟨4, _⟩ => ⟨S16x16x192x192, .f32⟩
  | .hbm, ⟨5, _⟩ => ⟨S16x16x192x1x192x1, .f32⟩
  | .hbm, ⟨6, _⟩ => ⟨S_, .f32⟩
  | .hbm, ⟨7, _⟩ => ⟨S16x16x192x1x192x1, .f32⟩
  | .hbm, ⟨8, _⟩ => ⟨S16x16x192x1x192x1, .f32⟩
  | .hbm, ⟨9, _⟩ => ⟨S_, .f32⟩
  | .hbm, ⟨10, _⟩ => ⟨S16x16x192x1x192x1, .f32⟩
  | .hbm, ⟨11, _⟩ => ⟨S16x16x192x1x192x1, .i1⟩
  | .hbm, ⟨12, _⟩ => ⟨S16x16x192x1x192x1, .f32⟩
  | .hbm, ⟨13, _⟩ => ⟨S16x16x192x1x192x1, .f32⟩
  | .hbm, ⟨14, _⟩ => ⟨S16x16x192x192, .f32⟩
  | .hbm, ⟨15, _⟩ => ⟨S_, .i32⟩
  | .hbm, ⟨16, _⟩ => ⟨S1, .i32⟩
  | .hbm, ⟨17, _⟩ => ⟨S16x64x192x192, .f32⟩
  | .hbm, ⟨18, _⟩ => ⟨S16x16x192x192, .f32⟩
  | .hbm, ⟨19, _⟩ => ⟨S16x16x96x2x96x2, .f32⟩
  | .hbm, ⟨20, _⟩ => ⟨S_, .f32⟩
  | .hbm, ⟨21, _⟩ => ⟨S16x16x96x96, .f32⟩
  | .hbm, ⟨22, _⟩ => ⟨S16x16x96x1x96x1, .f32⟩
  | .hbm, ⟨23, _⟩ => ⟨S_, .f32⟩
  | .hbm, ⟨24, _⟩ => ⟨S16x16x96x1x96x1, .f32⟩
  | .hbm, ⟨25, _⟩ => ⟨S16x16x96x1x96x1, .f32⟩
  | .hbm, ⟨26, _⟩ => ⟨S_, .f32⟩
  | .hbm, ⟨27, _⟩ => ⟨S16x16x96x1x96x1, .f32⟩
  | .hbm, ⟨28, _⟩ => ⟨S16x16x96x1x96x1, .i1⟩
  | .hbm, ⟨29, _⟩ => ⟨S16x16x96x1x96x1, .f32⟩
  | .hbm, ⟨30, _⟩ => ⟨S16x16x96x2x96x2, .f32⟩
  | .hbm, ⟨31, _⟩ => ⟨S16x16x96x2x96x2, .f32⟩
  | .hbm, ⟨32, _⟩ => ⟨S16x16x192x192, .f32⟩
  | .hbm, ⟨33, _⟩ => ⟨S_, .i32⟩
  | .hbm, ⟨34, _⟩ => ⟨S1, .i32⟩
  | .hbm, ⟨35, _⟩ => ⟨S16x64x192x192, .f32⟩
  | .hbm, ⟨36, _⟩ => ⟨S16x16x192x192, .f32⟩
  | .hbm, ⟨37, _⟩ => ⟨S16x16x48x4x48x4, .f32⟩
  | .hbm, ⟨38, _⟩ => ⟨S_, .f32⟩
  | .hbm, ⟨39, _⟩ => ⟨S16x16x48x48, .f32⟩
  | .hbm, ⟨40, _⟩ => ⟨S16x16x48x1x48x1, .f32⟩
  | .hbm, ⟨41, _⟩ => ⟨S_, .f32⟩
  | .hbm, ⟨42, _⟩ => ⟨S16x16x48x1x48x1, .f32⟩
  | .hbm, ⟨43, _⟩ => ⟨S16x16x48x1x48x1, .f32⟩
  | .hbm, ⟨44, _⟩ => ⟨S_, .f32⟩
  | .hbm, ⟨45, _⟩ => ⟨S16x16x48x1x48x1, .f32⟩
  | .hbm, ⟨46, _⟩ => ⟨S16x16x48x1x48x1, .i1⟩
  | .hbm, ⟨47, _⟩ => ⟨S16x16x48x1x48x1, .f32⟩
  | .hbm, ⟨48, _⟩ => ⟨S16x16x48x4x48x4, .f32⟩
  | .hbm, ⟨49, _⟩ => ⟨S16x16x48x4x48x4, .f32⟩
  | .hbm, ⟨50, _⟩ => ⟨S16x16x192x192, .f32⟩
  | .hbm, ⟨51, _⟩ => ⟨S_, .i32⟩
  | .hbm, ⟨52, _⟩ => ⟨S1, .i32⟩
  | .hbm, ⟨53, _⟩ => ⟨S16x64x192x192, .f32⟩
  | .hbm, ⟨54, _⟩ => ⟨S16x8x192x192, .f32⟩
  | .hbm, ⟨55, _⟩ => ⟨S16x8x24x8x24x8, .f32⟩
  | .hbm, ⟨56, _⟩ => ⟨S_, .f32⟩
  | .hbm, ⟨57, _⟩ => ⟨S16x8x24x24, .f32⟩
  | .hbm, ⟨58, _⟩ => ⟨S16x8x24x1x24x1, .f32⟩
  | .hbm, ⟨59, _⟩ => ⟨S_, .f32⟩
  | .hbm, ⟨60, _⟩ => ⟨S16x8x24x1x24x1, .f32⟩
  | .hbm, ⟨61, _⟩ => ⟨S16x8x24x1x24x1, .f32⟩
  | .hbm, ⟨62, _⟩ => ⟨S_, .f32⟩
  | .hbm, ⟨63, _⟩ => ⟨S16x8x24x1x24x1, .f32⟩
  | .hbm, ⟨64, _⟩ => ⟨S16x8x24x1x24x1, .i1⟩
  | .hbm, ⟨65, _⟩ => ⟨S16x8x24x1x24x1, .f32⟩
  | .hbm, ⟨66, _⟩ => ⟨S16x8x24x8x24x8, .f32⟩
  | .hbm, ⟨67, _⟩ => ⟨S16x8x24x8x24x8, .f32⟩
  | .hbm, ⟨68, _⟩ => ⟨S16x8x192x192, .f32⟩
  | .hbm, ⟨69, _⟩ => ⟨S_, .i32⟩
  | .hbm, ⟨70, _⟩ => ⟨S1, .i32⟩
  | .hbm, ⟨71, _⟩ => ⟨S16x64x192x192, .f32⟩
  | _, _ => ⟨S16x64x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_9 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_10 : Ref sig .tc := ⟨.hbm, 56, rfl⟩
abbrev main_v43 : Ref sig .tc := ⟨.hbm, 57, rfl⟩
abbrev main_v44 : Ref sig .tc := ⟨.hbm, 58, rfl⟩
abbrev main_cst_11 : Ref sig .tc := ⟨.hbm, 59, rfl⟩
abbrev main_v45 : Ref sig .tc := ⟨.hbm, 60, rfl⟩
abbrev main_v46 : Ref sig .tc := ⟨.hbm, 61, rfl⟩
abbrev main_cst_12 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_13 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]

class Facts₀ : Prop where
  slices_S16x64x192x192_S16x16x192x192_0_0_0_0 : S16x64x192x192.Slices ![0, 0, 0, 0] S16x16x192x192
  shapeCasts_S16x16x192x192_S16x16x192x1x192x1 : S16x16x192x192.ShapeCasts S16x16x192x1x192x1
  reducesTo_S16x16x192x1x192x1_S16x16x192x192_d3_5 : S16x16x192x1x192x1.ReducesTo [3, 5] S16x16x192x192
  h_S_ : 0 < S_.numel
  bcast_S16x16x192x192_S16x16x192x1x192x1_0_1_2_4 : S16x16x192x192.BroadcastsInDim S16x16x192x1x192x1 (![0, 1, 2, 4] : Fin 4 → Fin S16x16x192x1x192x1.rank)
  bcast_S_S16x16x192x1x192x1 : S_.BroadcastsInDim S16x16x192x1x192x1 (![] : Fin 0 → Fin S16x16x192x1x192x1.rank)
  shapeCasts_S16x16x192x1x192x1_S16x16x192x192 : S16x16x192x1x192x1.ShapeCasts S16x16x192x192
  bcast_S_S1 : S_.BroadcastsInDim S1 (![] : Fin 0 → Fin S1.rank)
  slices_S16x64x192x192_S16x16x192x192_0_16_0_0 : S16x64x192x192.Slices ![0, 16, 0, 0] S16x16x192x192
  shapeCasts_S16x16x192x192_S16x16x96x2x96x2 : S16x16x192x192.ShapeCasts S16x16x96x2x96x2
  reducesTo_S16x16x96x2x96x2_S16x16x96x96_d3_5 : S16x16x96x2x96x2.ReducesTo [3, 5] S16x16x96x96
  bcast_S16x16x96x96_S16x16x96x1x96x1_0_1_2_4 : S16x16x96x96.BroadcastsInDim S16x16x96x1x96x1 (![0, 1, 2, 4] : Fin 4 → Fin S16x16x96x1x96x1.rank)
  bcast_S_S16x16x96x1x96x1 : S_.BroadcastsInDim S16x16x96x1x96x1 (![] : Fin 0 → Fin S16x16x96x1x96x1.rank)
  bcast_S16x16x96x1x96x1_S16x16x96x2x96x2_0_1_2_3_4_5 : S16x16x96x1x96x1.BroadcastsInDim S16x16x96x2x96x2 (![0, 1, 2, 3, 4, 5] : Fin 6 → Fin S16x16x96x2x96x2.rank)
  shapeCasts_S16x16x96x2x96x2_S16x16x192x192 : S16x16x96x2x96x2.ShapeCasts S16x16x192x192
  slices_S16x64x192x192_S16x16x192x192_0_32_0_0 : S16x64x192x192.Slices ![0, 32, 0, 0] S16x16x192x192
  shapeCasts_S16x16x192x192_S16x16x48x4x48x4 : S16x16x192x192.ShapeCasts S16x16x48x4x48x4
  reducesTo_S16x16x48x4x48x4_S16x16x48x48_d3_5 : S16x16x48x4x48x4.ReducesTo [3, 5] S16x16x48x48
  bcast_S16x16x48x48_S16x16x48x1x48x1_0_1_2_4 : S16x16x48x48.BroadcastsInDim S16x16x48x1x48x1 (![0, 1, 2, 4] : Fin 4 → Fin S16x16x48x1x48x1.rank)
  bcast_S_S16x16x48x1x48x1 : S_.BroadcastsInDim S16x16x48x1x48x1 (![] : Fin 0 → Fin S16x16x48x1x48x1.rank)
  bcast_S16x16x48x1x48x1_S16x16x48x4x48x4_0_1_2_3_4_5 : S16x16x48x1x48x1.BroadcastsInDim S16x16x48x4x48x4 (![0, 1, 2, 3, 4, 5] : Fin 6 → Fin S16x16x48x4x48x4.rank)
  shapeCasts_S16x16x48x4x48x4_S16x16x192x192 : S16x16x48x4x48x4.ShapeCasts S16x16x192x192
  slices_S16x64x192x192_S16x8x192x192_0_48_0_0 : S16x64x192x192.Slices ![0, 48, 0, 0] S16x8x192x192
  shapeCasts_S16x8x192x192_S16x8x24x8x24x8 : S16x8x192x192.ShapeCasts S16x8x24x8x24x8
  reducesTo_S16x8x24x8x24x8_S16x8x24x24_d3_5 : S16x8x24x8x24x8.ReducesTo [3, 5] S16x8x24x24
  bcast_S16x8x24x24_S16x8x24x1x24x1_0_1_2_4 : S16x8x24x24.BroadcastsInDim S16x8x24x1x24x1 (![0, 1, 2, 4] : Fin 4 → Fin S16x8x24x1x24x1.rank)
  bcast_S_S16x8x24x1x24x1 : S_.BroadcastsInDim S16x8x24x1x24x1 (![] : Fin 0 → Fin S16x8x24x1x24x1.rank)
  bcast_S16x8x24x1x24x1_S16x8x24x8x24x8_0_1_2_3_4_5 : S16x8x24x1x24x1.BroadcastsInDim S16x8x24x8x24x8 (![0, 1, 2, 3, 4, 5] : Fin 6 → Fin S16x8x24x8x24x8.rank)
  shapeCasts_S16x8x24x8x24x8_S16x8x192x192 : S16x8x24x8x24x8.ShapeCasts S16x8x192x192
  scatter_S16x64x192x192_S1_S16x16x192x192_0123_n_1_0_wf : ScatterDims.WF S16x64x192x192 S1 S16x16x192x192 [0, 1, 2, 3] [] [1] 0
  scatter_S16x64x192x192_S1_S16x8x192x192_0123_n_1_0_wf : ScatterDims.WF S16x64x192x192 S1 S16x8x192x192 [0, 1, 2, 3] [] [1] 0

variable [Facts₀]

def scatter_S16x64x192x192_S1_S16x16x192x192_0123_n_1_0 : ScatterDims S16x64x192x192 S1 S16x16x192x192 where
  updateWindowDims := [0, 1, 2, 3]
  insertedWindowDims := []
  scatterDimsToOperandDims := [1]
  indexVectorDim := 0
  wf := scatter_S16x64x192x192_S1_S16x16x192x192_0123_n_1_0_wf
def scatter_S16x64x192x192_S1_S16x8x192x192_0123_n_1_0 : ScatterDims S16x64x192x192 S1 S16x8x192x192 where
  updateWindowDims := [0, 1, 2, 3]
  insertedWindowDims := []
  scatterDimsToOperandDims := [1]
  indexVectorDim := 0
  wf := scatter_S16x64x192x192_S1_S16x8x192x192_0123_n_1_0_wf

class Facts : Prop extends Facts₀ where

variable [Facts]
-- ==== Proof.K.Body3.lean ====
/-
  Region 3 of the program (pallas_call number 3, counting from 0): what one grid point does to its two staging buffers, and the proof data
  the pipeline's frame takes — at any float instance, over the buffer contents `V` the region is entered with.
  The input window's buffer holds block `t` of its array when the body runs; the body reads it whole, computes its one
  payload from it and stores that over the whole output buffer; nothing else is touched.
-/
import proofs.«175499_j1357209666244_1_alg».proof.Proof.Gen.Kernel.Launch
import proofs.«175499_j1357209666244_1_alg».proof.Proof.Gen.Kernel.Skeleton
import proofs.«175499_j1357209666244_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, as the region finds the array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window is fetched at every point and its index never stands still, so whatever proof data has `V`'s array
    and leaves the block in place finds the block in the current staging buffer. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The whole staging buffer as a rectangle: the one rectangle the body loads and stores through. -/
abbrev whole3 : Rect S2x8x192x192 := Rect.unit (s := S2x8x192x192) ![0, 0, 0, 0] S2x8x192x192.size inb_S2x8x192x192_S2x8x192x192_0_0_0_0

/-- The output buffer after the body: the payload of the loaded input block, stored over the whole buffer. -/
def out3_1 (x0 : Vec F S2x8x192x192 .f32) : Vec F S2x8x192x192 .f32 :=
  View.canon [⟨whole3, k3_pay1 (View.ld x0 whole3)⟩]

/-- The one store covers the buffer. -/
theorem cover3_1 (p0 : Vec F S2x8x192x192 .f32) (y : S2x8x192x192.Idx) :
    ∃ pc ∈ ([⟨whole3, p0⟩] : List (View.Piece (Elt F) S2x8x192x192 .f32)), y ∈ pc.1.set :=
  View.cover_of_tiled [⟨whole3, p0⟩] S2x8x192x192.size (by rfl) y

set_option maxHeartbeats 1000000 in
/-- The body on whole staging memrefs, the input's at `x0` and the output's at anything, ends with the input's as it was
    and the output's at `out3_1 x0`. -/
theorem sound_kernel3 (c : Dev nD) (E : Set ℕ) (i : grid3.Coords) (arg0 : Memref sig .tc .vmem S2x8x192x192 .f32) (harg0 : arg0.IsWhole) (arg1 : Memref sig .tc .vmem S2x8x192x192 .f32) (harg1 : arg1.IsWhole)
    (x0 : Vec F S2x8x192x192 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out3_1 x0)) -∗ K ⟨⟩))
      ⊢ wp frame (wpE (defs₀ (F := F)) Variants.none c none) E (cc3_kernel i arg0 harg0 arg1 harg1) K := by
  simp only [cc3_kernel_eq_skeleton]; unfold cc3_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The proof data of pipeline 3 on core `c`: the arrays as the region finds them; after the body at point `t` the
    input's buffer at its block and the output's at `out3_1` of that block; the invariant that keeps the scoped rest and
    the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]
theorem before3_0 (c : Dev nD) (t : Fin cfg3.N) (d) : (dat3 V c).before 0 t d = iblk3 V c 0 t :=
  before3_0_of V (dat3 V c) (A_eq3 V c 0) (after3_0 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's memref holds its block, so `sound_kernel3` applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Body2.lean ====
/-
  Region 2 of the program (pallas_call number 2, counting from 0): what one grid point does to its two staging buffers, and the proof data
  the pipeline's frame takes — at any float instance, over the buffer contents `V` the region is entered with.
  The input window's buffer holds block `t` of its array when the body runs; the body reads it whole, computes its one
  payload from it and stores that over the whole output buffer; nothing else is touched.
-/
import proofs.«175499_j1357209666244_1_alg».proof.Proof.Gen.Kernel.Launch
import proofs.«175499_j1357209666244_1_alg».proof.Proof.Gen.Kernel.Skeleton
import proofs.«175499_j1357209666244_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, as the region finds the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window is fetched at every point and its index never stands still, so whatever proof data has `V`'s array
    and leaves the block in place finds the block in the current staging buffer. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole staging buffer as a rectangle: the one rectangle the body loads and stores through. -/
abbrev whole2 : Rect S2x16x192x192 := Rect.unit (s := S2x16x192x192) ![0, 0, 0, 0] S2x16x192x192.size inb_S2x16x192x192_S2x16x192x192_0_0_0_0

/-- The output buffer after the body: the payload of the loaded input block, stored over the whole buffer. -/
def out2_1 (x0 : Vec F S2x16x192x192 .f32) : Vec F S2x16x192x192 .f32 :=
  View.canon [⟨whole2, k2_pay1 (View.ld x0 whole2)⟩]

/-- The one store covers the buffer. -/
theorem cover2_1 (p0 : Vec F S2x16x192x192 .f32) (y : S2x16x192x192.Idx) :
    ∃ pc ∈ ([⟨whole2, p0⟩] : List (View.Piece (Elt F) S2x16x192x192 .f32)), y ∈ pc.1.set :=
  View.cover_of_tiled [⟨whole2, p0⟩] S2x16x192x192.size (by rfl) y

set_option maxHeartbeats 1000000 in
/-- The body on whole staging memrefs, the input's at `x0` and the output's at anything, ends with the input's as it was
    and the output's at `out2_1 x0`. -/
theorem sound_kernel2 (c : Dev nD) (E : Set ℕ) (i : grid2.Coords) (arg0 : Memref sig .tc .vmem S2x16x192x192 .f32) (harg0 : arg0.IsWhole) (arg1 : Memref sig .tc .vmem S2x16x192x192 .f32) (harg1 : arg1.IsWhole)
    (x0 : Vec F S2x16x192x192 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out2_1 x0)) -∗ K ⟨⟩))
      ⊢ wp frame (wpE (defs₀ (F := F)) Variants.none c none) E (cc2_kernel i arg0 harg0 arg1 harg1) K := by
  simp only [cc2_kernel_eq_skeleton]; unfold cc2_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The proof data of pipeline 2 on core `c`: the arrays as the region finds them; after the body at point `t` the
    input's buffer at its block and the output's at `out2_1` of that block; the invariant that keeps the scoped rest and
    the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]
theorem before2_0 (c : Dev nD) (t : Fin cfg2.N) (d) : (dat2 V c).before 0 t d = iblk2 V c 0 t :=
  before2_0_of V (dat2 V c) (A_eq2 V c 0) (after2_0 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's memref holds its block, so `sound_kernel2` applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body1.lean ====
/-
  Region 1 of the program (pallas_call number 1, counting from 0): what one grid point does to its two staging buffers, and the proof data
  the pipeline's frame takes — at any float instance, over the buffer contents `V` the region is entered with.
  The input window's buffer holds block `t` of its array when the body runs; the body reads it whole, computes its one
  payload from it and stores that over the whole output buffer; nothing else is touched.
-/
import proofs.«175499_j1357209666244_1_alg».proof.Proof.Gen.Kernel.Launch
import proofs.«175499_j1357209666244_1_alg».proof.Proof.Gen.Kernel.Skeleton
import proofs.«175499_j1357209666244_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, as the region finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window is fetched at every point and its index never stands still, so whatever proof data has `V`'s array
    and leaves the block in place finds the block in the current staging buffer. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole staging buffer as a rectangle: the one rectangle the body loads and stores through. -/
abbrev whole1 : Rect S2x16x192x192 := Rect.unit (s := S2x16x192x192) ![0, 0, 0, 0] S2x16x192x192.size inb_S2x16x192x192_S2x16x192x192_0_0_0_0

/-- The output buffer after the body: the payload of the loaded input block, stored over the whole buffer. -/
def out1_1 (x0 : Vec F S2x16x192x192 .f32) : Vec F S2x16x192x192 .f32 :=
  View.canon [⟨whole1, k1_pay1 (View.ld x0 whole1)⟩]

/-- The one store covers the buffer. -/
theorem cover1_1 (p0 : Vec F S2x16x192x192 .f32) (y : S2x16x192x192.Idx) :
    ∃ pc ∈ ([⟨whole1, p0⟩] : List (View.Piece (Elt F) S2x16x192x192 .f32)), y ∈ pc.1.set :=
  View.cover_of_tiled [⟨whole1, p0⟩] S2x16x192x192.size (by rfl) y

set_option maxHeartbeats 1000000 in
/-- The body on whole staging memrefs, the input's at `x0` and the output's at anything, ends with the input's as it was
    and the output's at `out1_1 x0`. -/
theorem sound_kernel1 (c : Dev nD) (E : Set ℕ) (i : grid1.Coords) (arg0 : Memref sig .tc .vmem S2x16x192x192 .f32) (harg0 : arg0.IsWhole) (arg1 : Memref sig .tc .vmem S2x16x192x192 .f32) (harg1 : arg1.IsWhole)
    (x0 : Vec F S2x16x192x192 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1_kernel i arg0 harg0 arg1 harg1) K := by
  simp only [cc1_kernel_eq_skeleton]; unfold cc1_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of pipeline 1 on core `c`: the arrays as the region finds them; after the body at point `t` the
    input's buffer at its block and the output's at `out1_1` of that block; the invariant that keeps the scoped rest and
    the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so `sound_kernel1` applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body0.lean ====
/-
  Region 0 of the program (the first pallas_call): what one grid point does to its two staging buffers, and the proof data
  the pipeline's frame takes — at any float instance, over the buffer contents `V` the region is entered with.
  The input window's buffer holds block `t` of its array when the body runs; the body reads it whole, computes its one
  payload from it and stores that over the whole output buffer; nothing else is touched.
-/
import proofs.«175499_j1357209666244_1_alg».proof.Proof.Gen.Kernel.Launch
import proofs.«175499_j1357209666244_1_alg».proof.Proof.Gen.Kernel.Skeleton
import proofs.«175499_j1357209666244_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window is fetched at every point and its index never stands still, so whatever proof data has `V`'s array
    and leaves the block in place finds the block in the current staging buffer. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole staging buffer as a rectangle: the one rectangle the body loads and stores through. -/
abbrev whole0 : Rect S2x16x192x192 := Rect.unit (s := S2x16x192x192) ![0, 0, 0, 0] S2x16x192x192.size inb_S2x16x192x192_S2x16x192x192_0_0_0_0

/-- The output buffer after the body: the payload of the loaded input block, stored over the whole buffer. -/
def out0_1 (x0 : Vec F S2x16x192x192 .f32) : Vec F S2x16x192x192 .f32 :=
  View.canon [⟨whole0, k0_pay1 (View.ld x0 whole0)⟩]

/-- The one store covers the buffer. -/
theorem cover0_1 (p0 : Vec F S2x16x192x192 .f32) (y : S2x16x192x192.Idx) :
    ∃ pc ∈ ([⟨whole0, p0⟩] : List (View.Piece (Elt F) S2x16x192x192 .f32)), y ∈ pc.1.set :=
  View.cover_of_tiled [⟨whole0, p0⟩] S2x16x192x192.size (by rfl) y

set_option maxHeartbeats 1000000 in
/-- The body on whole staging memrefs, the input's at `x0` and the output's at anything, ends with the input's as it was
    and the output's at `out0_1 x0`. -/
theorem sound_kernel0 (c : Dev nD) (E : Set ℕ) (i : grid0.Coords) (arg0 : Memref sig .tc .vmem S2x16x192x192 .f32) (harg0 : arg0.IsWhole) (arg1 : Memref sig .tc .vmem S2x16x192x192 .f32) (harg1 : arg1.IsWhole)
    (x0 : Vec F S2x16x192x192 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0_kernel i arg0 harg0 arg1 harg1) K := by
  simp only [cc0_kernel_eq_skeleton]; unfold cc0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body at point `t` the
    input's buffer at its block and the output's at `out0_1` of that block; the invariant that keeps the scoped rest and
    the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Launch.lean ====
/-
  The contents of a core's buffers when the program is launched: the memory it starts from.
-/
import proofs.«175499_j1357209666244_1_alg».proof.Proof.Gen.Kernel.Launch
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev BndOutL : Dev nD → Valuation τ sig (Elt F) := fun c b => (s₀ m ρ).mem ((c : Dev nD), b)

end Cert.Kernel.Hand

end
-- ==== Proof.K.Fold0.lean ====
/-
  The buffer contents around region 0: after the host slice that feeds it (its entry), and at its exit, where its output
  array holds what its grid points wrote back and every other buffer is as entered.
-/
import proofs.«175499_j1357209666244_1_alg».proof.Proof.K.Body0
import proofs.«175499_j1357209666244_1_alg».proof.Proof.K.Launch
import proofs.«175499_j1357209666244_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the slice that feeds region 0 (its entry). -/
abbrev BndEnt0 : Dev nD → Valuation τ sig (Elt F) := fun c => StableHlo.after hostOps0 (BndOutL m ρ c)
/-- The same, read at the TensorCore's references: what region 0's proof data take. -/
abbrev Ent0 : (c : Dev nD) → (b : Ref sig .tc) → Buf (Elt F) ((c : Thread nD τ).loc b) := fun c b => BndEnt0 m ρ c b
/-- At region 0's exit: its arrays at what the pipeline leaves (the input as entered, the output's write-backs folded),
    every other buffer as entered. -/
def BndOut0 (c : Dev nD) : Valuation τ sig (Elt F) :=
  Pipeline.withArrays spec0 c (BndEnt0 m ρ c) fun w => (dat0 (Ent0 m ρ) c).arrAt w cfg0.N
theorem BndOut0_arr (c : Dev nD) (w : Fin cfg0.W) :
    BndOut0 m ρ c (Proc.devRef .tc (Pipeline.arrRef spec0 w)) = (dat0 (Ent0 m ρ) c).arrAt w cfg0.N := by
  unfold BndOut0; exact Pipeline.withArrays_arr spec0 launch0.win.arr_inj c _ _ w
theorem BndOut0_of_ne (c : Dev nD) (b : Ref sig .tc) (hb : ∀ w, Pipeline.arrRef spec0 w ≠ b) :
    BndOut0 m ρ c (Proc.devRef .tc b) = BndEnt0 m ρ c (Proc.devRef .tc b) := by
  unfold BndOut0; exact Pipeline.withArrays_of_ne spec0 c _ _ b hb
/-- The same at the TensorCore's references (region 0's exit contents). -/
abbrev Ext0 : (c : Dev nD) → (b : Ref sig .tc) → Buf (Elt F) ((c : Thread nD τ).loc b) := fun c b => BndOut0 m ρ c b
theorem hF0 (c : Dev nD) (w : Fin cfg0.W) : (dat0 (Ent0 m ρ) c).arrAt w cfg0.N = Ext0 m ρ c (Pipeline.arrRef spec0 w) :=
  (BndOut0_arr m ρ c w).symm
theorem hrest0 (c : Dev nD) : ∀ b, b ∉ Finset.univ.image (Pipeline.arrRef spec0) → Ext0 m ρ c b = Ent0 m ρ c b :=
  fun b hb => BndOut0_of_ne m ρ c b fun w e => hb (Finset.mem_image.mpr ⟨w, Finset.mem_univ _, e⟩)
/-- A host slice writes only its own result. -/
theorem BndEnt0_of_ne (c : Dev nD) (b : Ref sig .tc) (hb : b ∉ hostOps0_W) :
    BndEnt0 m ρ c (Proc.devRef .tc b) = BndOutL m ρ c (Proc.devRef .tc b) :=
  StableHlo.after_of_writes_sub hostOps0 _ hostOps0_writes hb

end Cert.Kernel.Hand

end
-- ==== Proof.K.Fold1.lean ====
/-
  The buffer contents around region 1: after the host slice that feeds it (its entry), and at its exit, where its output
  array holds what its grid points wrote back and every other buffer is as entered.
-/
import proofs.«175499_j1357209666244_1_alg».proof.Proof.K.Body1
import proofs.«175499_j1357209666244_1_alg».proof.Proof.K.Fold0
import proofs.«175499_j1357209666244_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the slice that feeds region 1 (its entry). -/
abbrev BndEnt1 : Dev nD → Valuation τ sig (Elt F) := fun c => StableHlo.after hostOps1 (BndOut0 m ρ c)
/-- The same, read at the TensorCore's references: what region 1's proof data take. -/
abbrev Ent1 : (c : Dev nD) → (b : Ref sig .tc) → Buf (Elt F) ((c : Thread nD τ).loc b) := fun c b => BndEnt1 m ρ c b
/-- At region 1's exit: its arrays at what the pipeline leaves (the input as entered, the output's write-backs folded),
    every other buffer as entered. -/
def BndOut1 (c : Dev nD) : Valuation τ sig (Elt F) :=
  Pipeline.withArrays spec1 c (BndEnt1 m ρ c) fun w => (dat1 (Ent1 m ρ) c).arrAt w cfg1.N
theorem BndOut1_arr (c : Dev nD) (w : Fin cfg1.W) :
    BndOut1 m ρ c (Proc.devRef .tc (Pipeline.arrRef spec1 w)) = (dat1 (Ent1 m ρ) c).arrAt w cfg1.N := by
  unfold BndOut1; exact Pipeline.withArrays_arr spec1 launch1.win.arr_inj c _ _ w
theorem BndOut1_of_ne (c : Dev nD) (b : Ref sig .tc) (hb : ∀ w, Pipeline.arrRef spec1 w ≠ b) :
    BndOut1 m ρ c (Proc.devRef .tc b) = BndEnt1 m ρ c (Proc.devRef .tc b) := by
  unfold BndOut1; exact Pipeline.withArrays_of_ne spec1 c _ _ b hb
/-- The same at the TensorCore's references (region 1's exit contents). -/
abbrev Ext1 : (c : Dev nD) → (b : Ref sig .tc) → Buf (Elt F) ((c : Thread nD τ).loc b) := fun c b => BndOut1 m ρ c b
theorem hF1 (c : Dev nD) (w : Fin cfg1.W) : (dat1 (Ent1 m ρ) c).arrAt w cfg1.N = Ext1 m ρ c (Pipeline.arrRef spec1 w) :=
  (BndOut1_arr m ρ c w).symm
theorem hrest1 (c : Dev nD) : ∀ b, b ∉ Finset.univ.image (Pipeline.arrRef spec1) → Ext1 m ρ c b = Ent1 m ρ c b :=
  fun b hb => BndOut1_of_ne m ρ c b fun w e => hb (Finset.mem_image.mpr ⟨w, Finset.mem_univ _, e⟩)
/-- A host slice writes only its own result. -/
theorem BndEnt1_of_ne (c : Dev nD) (b : Ref sig .tc) (hb : b ∉ hostOps1_W) :
    BndEnt1 m ρ c (Proc.devRef .tc b) = BndOut0 m ρ c (Proc.devRef .tc b) :=
  StableHlo.after_of_writes_sub hostOps1 _ hostOps1_writes hb

end Cert.Kernel.Hand

end
-- ==== Proof.K.Fold2.lean ====
/-
  The buffer contents around region 2: after the host slice that feeds it (its entry), and at its exit, where its output
  array holds what its grid points wrote back and every other buffer is as entered.
-/
import proofs.«175499_j1357209666244_1_alg».proof.Proof.K.Body2
import proofs.«175499_j1357209666244_1_alg».proof.Proof.K.Fold1
import proofs.«175499_j1357209666244_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the slice that feeds region 2 (its entry). -/
abbrev BndEnt2 : Dev nD → Valuation τ sig (Elt F) := fun c => StableHlo.after hostOps2 (BndOut1 m ρ c)
/-- The same, read at the TensorCore's references: what region 2's proof data take. -/
abbrev Ent2 : (c : Dev nD) → (b : Ref sig .tc) → Buf (Elt F) ((c : Thread nD τ).loc b) := fun c b => BndEnt2 m ρ c b
/-- At region 2's exit: its arrays at what the pipeline leaves (the input as entered, the output's write-backs folded),
    every other buffer as entered. -/
def BndOut2 (c : Dev nD) : Valuation τ sig (Elt F) :=
  Pipeline.withArrays spec2 c (BndEnt2 m ρ c) fun w => (dat2 (Ent2 m ρ) c).arrAt w cfg2.N
theorem BndOut2_arr (c : Dev nD) (w : Fin cfg2.W) :
    BndOut2 m ρ c (Proc.devRef .tc (Pipeline.arrRef spec2 w)) = (dat2 (Ent2 m ρ) c).arrAt w cfg2.N := by
  unfold BndOut2; exact Pipeline.withArrays_arr spec2 launch2.win.arr_inj c _ _ w
theorem BndOut2_of_ne (c : Dev nD) (b : Ref sig .tc) (hb : ∀ w, Pipeline.arrRef spec2 w ≠ b) :
    BndOut2 m ρ c (Proc.devRef .tc b) = BndEnt2 m ρ c (Proc.devRef .tc b) := by
  unfold BndOut2; exact Pipeline.withArrays_of_ne spec2 c _ _ b hb
/-- The same at the TensorCore's references (region 2's exit contents). -/
abbrev Ext2 : (c : Dev nD) → (b : Ref sig .tc) → Buf (Elt F) ((c : Thread nD τ).loc b) := fun c b => BndOut2 m ρ c b
theorem hF2 (c : Dev nD) (w : Fin cfg2.W) : (dat2 (Ent2 m ρ) c).arrAt w cfg2.N = Ext2 m ρ c (Pipeline.arrRef spec2 w) :=
  (BndOut2_arr m ρ c w).symm
theorem hrest2 (c : Dev nD) : ∀ b, b ∉ Finset.univ.image (Pipeline.arrRef spec2) → Ext2 m ρ c b = Ent2 m ρ c b :=
  fun b hb => BndOut2_of_ne m ρ c b fun w e => hb (Finset.mem_image.mpr ⟨w, Finset.mem_univ _, e⟩)
/-- A host slice writes only its own result. -/
theorem BndEnt2_of_ne (c : Dev nD) (b : Ref sig .tc) (hb : b ∉ hostOps2_W) :
    BndEnt2 m ρ c (Proc.devRef .tc b) = BndOut1 m ρ c (Proc.devRef .tc b) :=
  StableHlo.after_of_writes_sub hostOps2 _ hostOps2_writes hb

end Cert.Kernel.Hand

end
-- ==== Proof.K.Fold3.lean ====
/-
  The buffer contents around region 3: after the host slice that feeds it (its entry), and at its exit, where its output
  array holds what its grid points wrote back and every other buffer is as entered.
-/
import proofs.«175499_j1357209666244_1_alg».proof.Proof.K.Body3
import proofs.«175499_j1357209666244_1_alg».proof.Proof.K.Fold2
import proofs.«175499_j1357209666244_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the slice that feeds region 3 (its entry). -/
abbrev BndEnt3 : Dev nD → Valuation τ sig (Elt F) := fun c => StableHlo.after hostOps3 (BndOut2 m ρ c)
/-- The same, read at the TensorCore's references: what region 3's proof data take. -/
abbrev Ent3 : (c : Dev nD) → (b : Ref sig .tc) → Buf (Elt F) ((c : Thread nD τ).loc b) := fun c b => BndEnt3 m ρ c b
/-- At region 3's exit: its arrays at what the pipeline leaves (the input as entered, the output's write-backs folded),
    every other buffer as entered. -/
def BndOut3 (c : Dev nD) : Valuation τ sig (Elt F) :=
  Pipeline.withArrays spec3 c (BndEnt3 m ρ c) fun w => (dat3 (Ent3 m ρ) c).arrAt w cfg3.N
theorem BndOut3_arr (c : Dev nD) (w : Fin cfg3.W) :
    BndOut3 m ρ c (Proc.devRef .tc (Pipeline.arrRef spec3 w)) = (dat3 (Ent3 m ρ) c).arrAt w cfg3.N := by
  unfold BndOut3; exact Pipeline.withArrays_arr spec3 launch3.win.arr_inj c _ _ w
theorem BndOut3_of_ne (c : Dev nD) (b : Ref sig .tc) (hb : ∀ w, Pipeline.arrRef spec3 w ≠ b) :
    BndOut3 m ρ c (Proc.devRef .tc b) = BndEnt3 m ρ c (Proc.devRef .tc b) := by
  unfold BndOut3; exact Pipeline.withArrays_of_ne spec3 c _ _ b hb
/-- The same at the TensorCore's references (region 3's exit contents). -/
abbrev Ext3 : (c : Dev nD) → (b : Ref sig .tc) → Buf (Elt F) ((c : Thread nD τ).loc b) := fun c b => BndOut3 m ρ c b
theorem hF3 (c : Dev nD) (w : Fin cfg3.W) : (dat3 (Ent3 m ρ) c).arrAt w cfg3.N = Ext3 m ρ c (Pipeline.arrRef spec3 w) :=
  (BndOut3_arr m ρ c w).symm
theorem hrest3 (c : Dev nD) : ∀ b, b ∉ Finset.univ.image (Pipeline.arrRef spec3) → Ext3 m ρ c b = Ent3 m ρ c b :=
  fun b hb => BndOut3_of_ne m ρ c b fun w e => hb (Finset.mem_image.mpr ⟨w, Finset.mem_univ _, e⟩)
/-- A host slice writes only its own result. -/
theorem BndEnt3_of_ne (c : Dev nD) (b : Ref sig .tc) (hb : b ∉ hostOps3_W) :
    BndEnt3 m ρ c (Proc.devRef .tc b) = BndOut2 m ρ c (Proc.devRef .tc b) :=
  StableHlo.after_of_writes_sub hostOps3 _ hostOps3_writes hb

end Cert.Kernel.Hand

end
-- ==== Proof.K.Data.lean ====
/-
  What the run's proof is stated over: the buffer contents after the last host stretch (the last slice and the concatenation),
  every pipeline's proof data at its region's entry contents, and the thread state carried from item to item.
-/
import proofs.«175499_j1357209666244_1_alg».proof.Proof.K.Fold3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the last stretch: the last slice and the concatenation. -/
abbrev BndEnd : Dev nD → Valuation τ sig (Elt F) := fun c => StableHlo.after hostOps4 (BndOut3 m ρ c)
theorem BndEnd_of_ne (c : Dev nD) (b : Ref sig .tc) (hb : b ∉ hostOps4_W) :
    BndEnd m ρ c (Proc.devRef .tc b) = BndOut3 m ρ c (Proc.devRef .tc b) :=
  StableHlo.after_of_writes_sub hostOps4 _ hostOps4_writes hb

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (Ent0 m ρ) c
  | ⟨1, _⟩ => fun c => dat1 (Ent1 m ρ) c
  | ⟨2, _⟩ => fun c => dat2 (Ent2 m ρ) c
  | ⟨3, _⟩ => fun c => dat3 (Ent3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (BndEnd m ρ c) ∗ ∃ r, prngReg c r)

end Cert.Kernel.Hand

end
-- ==== Proof.K.Reg0.lean ====
/-
  Region 0 as one item of the run: entered with every unscoped buffer at the region's entry contents, left with them at its
  exit contents, the generator register and the core's (empty) dues riding along.
-/
import proofs.«175499_j1357209666244_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 0 over the thread state: entered with every unscoped buffer at `BndEnt0`, left with them at `BndOut0`. Its two
    arrays are split out of the unscoped buffers at entry and put back at the exit contents; the generator register goes into
    the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ent0 m ρ) c).loose
  hwaits := Pipeline.hwaits_of_owed_zero _ _ _ _ L lv 0 fun _ _ => rfl
  pre c := iprop(StableHlo.held (c : Thread nD τ) (Pipeline.ucRefs τ sig) (BndEnt0 m ρ c) ∗ R c)
  post c := iprop(StableHlo.held (c : Thread nD τ) (Pipeline.ucRefs τ sig) (BndOut0 m ρ c) ∗ R c)
  X c := iprop(∃ r, prngReg c r)
  Y c := iprop(∃ r, prngReg c r)
  Z c := Pipeline.unscopedRest (Ix := Unit) (Name := ℕ) (U := UR sig nD τ) (Lvl := ℕ) spec0 c (Ent0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ent0 m ρ c) (Ext0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
/-
  Region 1 as one item of the run: entered with every unscoped buffer at the region's entry contents, left with them at its
  exit contents, the generator register and the core's (empty) dues riding along.
-/
import proofs.«175499_j1357209666244_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 1 over the thread state: entered with every unscoped buffer at `BndEnt1`, left with them at `BndOut1`. Its two
    arrays are split out of the unscoped buffers at entry and put back at the exit contents; the generator register goes into
    the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ent1 m ρ) c).loose
  hwaits := Pipeline.hwaits_of_owed_zero _ _ _ _ L lv 1 fun _ _ => rfl
  pre c := iprop(StableHlo.held (c : Thread nD τ) (Pipeline.ucRefs τ sig) (BndEnt1 m ρ c) ∗ R c)
  post c := iprop(StableHlo.held (c : Thread nD τ) (Pipeline.ucRefs τ sig) (BndOut1 m ρ c) ∗ R c)
  X c := iprop(∃ r, prngReg c r)
  Y c := iprop(∃ r, prngReg c r)
  Z c := Pipeline.unscopedRest (Ix := Unit) (Name := ℕ) (U := UR sig nD τ) (Lvl := ℕ) spec1 c (Ent1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ent1 m ρ c) (Ext1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
/-
  Region 2 as one item of the run: entered with every unscoped buffer at the region's entry contents, left with them at its
  exit contents, the generator register and the core's (empty) dues riding along.
-/
import proofs.«175499_j1357209666244_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 2 over the thread state: entered with every unscoped buffer at `BndEnt2`, left with them at `BndOut2`. Its two
    arrays are split out of the unscoped buffers at entry and put back at the exit contents; the generator register goes into
    the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ent2 m ρ) c).loose
  hwaits := Pipeline.hwaits_of_owed_zero _ _ _ _ L lv 2 fun _ _ => rfl
  pre c := iprop(StableHlo.held (c : Thread nD τ) (Pipeline.ucRefs τ sig) (BndEnt2 m ρ c) ∗ R c)
  post c := iprop(StableHlo.held (c : Thread nD τ) (Pipeline.ucRefs τ sig) (BndOut2 m ρ c) ∗ R c)
  X c := iprop(∃ r, prngReg c r)
  Y c := iprop(∃ r, prngReg c r)
  Z c := Pipeline.unscopedRest (Ix := Unit) (Name := ℕ) (U := UR sig nD τ) (Lvl := ℕ) spec2 c (Ent2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Ent2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Ent2 m ρ c) (Ext2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3.lean ====
/-
  Region 3 as one item of the run: entered with every unscoped buffer at the region's entry contents, left with them at its
  exit contents, the generator register and the core's (empty) dues riding along.
-/
import proofs.«175499_j1357209666244_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 3 over the thread state: entered with every unscoped buffer at `BndEnt3`, left with them at `BndOut3`. Its two
    arrays are split out of the unscoped buffers at entry and put back at the exit contents; the generator register goes into
    the pipeline's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Ent3 m ρ) c).loose
  hwaits := Pipeline.hwaits_of_owed_zero _ _ _ _ L lv 3 fun _ _ => rfl
  pre c := iprop(StableHlo.held (c : Thread nD τ) (Pipeline.ucRefs τ sig) (BndEnt3 m ρ c) ∗ R c)
  post c := iprop(StableHlo.held (c : Thread nD τ) (Pipeline.ucRefs τ sig) (BndOut3 m ρ c) ∗ R c)
  X c := iprop(∃ r, prngReg c r)
  Y c := iprop(∃ r, prngReg c r)
  Z c := Pipeline.unscopedRest (Ix := Unit) (Name := ℕ) (U := UR sig nD τ) (Lvl := ℕ) spec3 c (Ent3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Ent3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Ent3 m ρ c) (Ext3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/-
  The whole run of the program: five stretches of host operations (four slices of the argument, then the last slice and the
  concatenation) around four pipelined kernel regions. The contents of the TensorCore's buffers are followed from the launch
  through every item: a host stretch applies its operations; a region replaces its output array by what its grid points
  wrote back and leaves everything else alone. Every weakly fair execution ends, without fault, with every unscoped buffer at
  the last of these contents. Stated at any float instance.
-/
import proofs.«175499_j1357209666244_1_alg».proof.Proof.K.Reg0
import proofs.«175499_j1357209666244_1_alg».proof.Proof.K.Reg1
import proofs.«175499_j1357209666244_1_alg».proof.Proof.K.Reg2
import proofs.«175499_j1357209666244_1_alg».proof.Proof.K.Reg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's nine items in order. -/
abbrev segs : List (Pipeline.Seg (pcfgs (F := F)) adm (pdats m ρ) () defs₀ 𝒱₀ L lv) :=
  [ .host (hseg hostOps0 hostOps0_sub hostOps0_fresh (BndOutL m ρ)),
    .region (reg0 m ρ),
    .host (hseg hostOps1 hostOps1_sub hostOps1_fresh (BndOut0 m ρ)),
    .region (reg1 m ρ),
    .host (hseg hostOps2 hostOps2_sub hostOps2_fresh (BndOut1 m ρ)),
    .region (reg2 m ρ),
    .host (hseg hostOps3 hostOps3_sub hostOps3_fresh (BndOut2 m ρ)),
    .region (reg3 m ρ),
    .host (hseg hostOps4 hostOps4_sub hostOps4_fresh (BndOut3 m ρ)) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and leaves
    every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = BndEnd m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (BndOutL m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (BndEnd m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (BndOutL m ρ c)
        from Pipeline.unscopedBufs_held c (BndOutL m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = BndEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (BndEnd m ρ c) s')
      isplitl [Hh] <;> iassumption)
    (hQ := fun s h c => h c)

end Cert.Kernel.Hand

end
-- ==== Proof.K.Out.lean ====
/-
  What the run leaves: the argument as launched, and the result array — the concatenation, along the channel axis, of the
  four regions' output arrays and the argument's last eight channels. Each region's input array is a slice of the argument.
  No host stretch and no region writes the argument; a region's output array is written by that region only.
-/
import proofs.«175499_j1357209666244_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument is never written -/

theorem out0_arg0 (c : Dev nD) : BndOut0 m ρ c (Proc.devRef .tc main_arg0) = m ((c : Thread nD τ).loc main_arg0) :=
  (BndOut0_of_ne m ρ c main_arg0 (by decide)).trans (BndEnt0_of_ne m ρ c main_arg0 (by decide))
theorem out1_arg0 (c : Dev nD) : BndOut1 m ρ c (Proc.devRef .tc main_arg0) = m ((c : Thread nD τ).loc main_arg0) :=
  (BndOut1_of_ne m ρ c main_arg0 (by decide)).trans ((BndEnt1_of_ne m ρ c main_arg0 (by decide)).trans (out0_arg0 m ρ c))
theorem out2_arg0 (c : Dev nD) : BndOut2 m ρ c (Proc.devRef .tc main_arg0) = m ((c : Thread nD τ).loc main_arg0) :=
  (BndOut2_of_ne m ρ c main_arg0 (by decide)).trans ((BndEnt2_of_ne m ρ c main_arg0 (by decide)).trans (out1_arg0 m ρ c))
theorem out3_arg0 (c : Dev nD) : BndOut3 m ρ c (Proc.devRef .tc main_arg0) = m ((c : Thread nD τ).loc main_arg0) :=
  (BndOut3_of_ne m ρ c main_arg0 (by decide)).trans ((BndEnt3_of_ne m ρ c main_arg0 (by decide)).trans (out2_arg0 m ρ c))
theorem end_arg0 (c : Dev nD) : BndEnd m ρ c (Proc.devRef .tc main_arg0) = m ((c : Thread nD τ).loc main_arg0) :=
  (BndEnd_of_ne m ρ c main_arg0 (by decide)).trans (out3_arg0 m ρ c)

/-! ## Each region's input array is a slice of the argument -/

theorem ent0_src (c : Dev nD) : Ent0 m ρ c main_v0
    = extractStridedSlice S16x16x192x192 ![0, 0, 0, 0] (m ((c : Thread nD τ).loc main_arg0)) Facts₀.slices_S16x64x192x192_S16x16x192x192_0_0_0_0 := by
  show StableHlo.after hostOps0 (BndOutL m ρ c) (Proc.devRef .tc main_v0) = _
  after_results
theorem ent1_src (c : Dev nD) : Ent1 m ρ c main_v2
    = extractStridedSlice S16x16x192x192 ![0, 16, 0, 0] (m ((c : Thread nD τ).loc main_arg0)) Facts₀.slices_S16x64x192x192_S16x16x192x192_0_16_0_0 := by
  show StableHlo.after hostOps1 (BndOut0 m ρ c) (Proc.devRef .tc main_v2) = _
  after_results; rw [out0_arg0]
theorem ent2_src (c : Dev nD) : Ent2 m ρ c main_v4
    = extractStridedSlice S16x16x192x192 ![0, 32, 0, 0] (m ((c : Thread nD τ).loc main_arg0)) Facts₀.slices_S16x64x192x192_S16x16x192x192_0_32_0_0 := by
  show StableHlo.after hostOps2 (BndOut1 m ρ c) (Proc.devRef .tc main_v4) = _
  after_results; rw [out1_arg0]
theorem ent3_src (c : Dev nD) : Ent3 m ρ c main_v6
    = extractStridedSlice S16x8x192x192 ![0, 48, 0, 0] (m ((c : Thread nD τ).loc main_arg0)) Facts₀.slices_S16x64x192x192_S16x8x192x192_0_48_0_0 := by
  show StableHlo.after hostOps3 (BndOut2 m ρ c) (Proc.devRef .tc main_v6) = _
  after_results; rw [out2_arg0]

/-! ## A region's output array is written by that region only -/

theorem out3_v1 (c : Dev nD) : BndOut3 m ρ c (Proc.devRef .tc main_v1) = (dat0 (Ent0 m ρ) c).arrAt 1 cfg0.N :=
  (BndOut3_of_ne m ρ c main_v1 (by decide)).trans <| (BndEnt3_of_ne m ρ c main_v1 (by decide)).trans <|
  (BndOut2_of_ne m ρ c main_v1 (by decide)).trans <| (BndEnt2_of_ne m ρ c main_v1 (by decide)).trans <|
  (BndOut1_of_ne m ρ c main_v1 (by decide)).trans <| (BndEnt1_of_ne m ρ c main_v1 (by decide)).trans <|
  BndOut0_arr m ρ c 1
theorem out3_v3 (c : Dev nD) : BndOut3 m ρ c (Proc.devRef .tc main_v3) = (dat1 (Ent1 m ρ) c).arrAt 1 cfg1.N :=
  (BndOut3_of_ne m ρ c main_v3 (by decide)).trans <| (BndEnt3_of_ne m ρ c main_v3 (by decide)).trans <|
  (BndOut2_of_ne m ρ c main_v3 (by decide)).trans <| (BndEnt2_of_ne m ρ c main_v3 (by decide)).trans <|
  BndOut1_arr m ρ c 1
theorem out3_v5 (c : Dev nD) : BndOut3 m ρ c (Proc.devRef .tc main_v5) = (dat2 (Ent2 m ρ) c).arrAt 1 cfg2.N :=
  (BndOut3_of_ne m ρ c main_v5 (by decide)).trans <| (BndEnt3_of_ne m ρ c main_v5 (by decide)).trans <|
  BndOut2_arr m ρ c 1
theorem out3_v7 (c : Dev nD) : BndOut3 m ρ c (Proc.devRef .tc main_v7) = (dat3 (Ent3 m ρ) c).arrAt 1 cfg3.N :=
  BndOut3_arr m ρ c 1

/-! ## The result -/

/-- The result array after the run. -/
def outArr (c : Dev nD) : (⟨S16x64x192x192, .f32⟩ : BufTy).Contents (Elt F) :=
  concatenate S16x64x192x192 1 [⟨S16x16x192x192, (dat0 (Ent0 m ρ) c).arrAt 1 cfg0.N⟩, ⟨S16x16x192x192, (dat1 (Ent1 m ρ) c).arrAt 1 cfg1.N⟩,
    ⟨S16x16x192x192, (dat2 (Ent2 m ρ) c).arrAt 1 cfg2.N⟩, ⟨S16x8x192x192, (dat3 (Ent3 m ρ) c).arrAt 1 cfg3.N⟩,
    ⟨S16x8x192x192, extractStridedSlice S16x8x192x192 ![0, 56, 0, 0] (m ((c : Thread nD τ).loc main_arg0)) Facts₀.slices_S16x64x192x192_S16x8x192x192_0_56_0_0⟩]
    Facts₀.concatenates_S16x16x192x192_S16x16x192x192_S16x16x192x192_S16x8x192x192_S16x8x192x192_S16x64x192x192_d1

theorem end_v9 (c : Dev nD) : BndEnd m ρ c (Proc.devRef .tc main_v9) = outArr m ρ c := by
  show StableHlo.after hostOps4 (BndOut3 m ρ c) (Proc.devRef .tc main_v9) = _
  after_results
  show concatenate S16x64x192x192 1
    [⟨S16x16x192x192, (StableHlo.unary main_arg0 main_v8 _ _ _).result (BndOut3 m ρ c) (Proc.devRef .tc main_v1)⟩,
     ⟨S16x16x192x192, (StableHlo.unary main_arg0 main_v8 _ _ _).result (BndOut3 m ρ c) (Proc.devRef .tc main_v3)⟩,
     ⟨S16x16x192x192, (StableHlo.unary main_arg0 main_v8 _ _ _).result (BndOut3 m ρ c) (Proc.devRef .tc main_v5)⟩,
     ⟨S16x8x192x192, (StableHlo.unary main_arg0 main_v8 _ _ _).result (BndOut3 m ρ c) (Proc.devRef .tc main_v7)⟩,
     ⟨S16x8x192x192, (StableHlo.unary main_arg0 main_v8 _ _ _).result (BndOut3 m ρ c) (Proc.devRef .tc main_v8)⟩] _ = _
  repeat (first | rw [StableHlo.unary_result] | (rw [StableHlo.unary_result_ne]; rotate_left; decide))
  rw [out3_v1, out3_v3, out3_v5, out3_v7, out3_arg0]
  rfl

/-- Every weakly fair execution of the program terminates, nothing faulting, with the result array at `outArr` and the argument
    as launched. -/
theorem run_main : θ_run defs (onTc (τ := τ) (main (F := F))) ⟨m, fun _ => 0, ρ⟩ (fun r => ∀ c : Dev nD,
      r.2.mem ((c.tc : Thread nD τ).loc main_v9) = outArr m ρ c
      ∧ r.2.mem ((c.tc : Thread nD τ).loc main_arg0) = m ((c.tc : Thread nD τ).loc main_arg0)) :=
  (θ_run defs _ _).mono (fun r h c =>
    ⟨(h c _ (mem_uc main_v9 (by decide))).trans (end_v9 m ρ c), (h c _ (mem_uc main_arg0 (by decide))).trans (end_arg0 m ρ c)⟩)
    (run_all m ρ)

end Cert.Kernel.Hand

end
-- ==== Proof.KI.Body3.lean ====
/-
  Region 3 of the program (pallas_call number 3, counting from 0): what one grid point does to its two staging buffers, and the proof data
  the pipeline's frame takes — at any float instance, over the buffer contents `V` the region is entered with.
  The input window's buffer holds block `t` of its array when the body runs; the body reads it whole, computes its one
  payload from it and stores that over the whole output buffer; nothing else is touched.
-/
import proofs.«175499_j1357209666244_1_alg».proof.Proof.Gen.KernelIdeal.Launch
import proofs.«175499_j1357209666244_1_alg».proof.Proof.Gen.KernelIdeal.Skeleton
import proofs.«175499_j1357209666244_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, as the region finds the array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window is fetched at every point and its index never stands still, so whatever proof data has `V`'s array
    and leaves the block in place finds the block in the current staging buffer. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The whole staging buffer as a rectangle: the one rectangle the body loads and stores through. -/
abbrev whole3 : Rect S2x8x192x192 := Rect.unit (s := S2x8x192x192) ![0, 0, 0, 0] S2x8x192x192.size inb_S2x8x192x192_S2x8x192x192_0_0_0_0

/-- The output buffer after the body: the payload of the loaded input block, stored over the whole buffer. -/
def out3_1 (x0 : Vec F S2x8x192x192 .f32) : Vec F S2x8x192x192 .f32 :=
  View.canon [⟨whole3, k3_pay1 (View.ld x0 whole3)⟩]

/-- The one store covers the buffer. -/
theorem cover3_1 (p0 : Vec F S2x8x192x192 .f32) (y : S2x8x192x192.Idx) :
    ∃ pc ∈ ([⟨whole3, p0⟩] : List (View.Piece (Elt F) S2x8x192x192 .f32)), y ∈ pc.1.set :=
  View.cover_of_tiled [⟨whole3, p0⟩] S2x8x192x192.size (by rfl) y

set_option maxHeartbeats 1000000 in
/-- The body on whole staging memrefs, the input's at `x0` and the output's at anything, ends with the input's as it was
    and the output's at `out3_1 x0`. -/
theorem sound_kernel3 (c : Dev nD) (E : Set ℕ) (i : grid3.Coords) (arg0 : Memref sig .tc .vmem S2x8x192x192 .f32) (harg0 : arg0.IsWhole) (arg1 : Memref sig .tc .vmem S2x8x192x192 .f32) (harg1 : arg1.IsWhole)
    (x0 : Vec F S2x8x192x192 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out3_1 x0)) -∗ K ⟨⟩))
      ⊢ wp frame (wpE (defs₀ (F := F)) Variants.none c none) E (cc3_kernel i arg0 harg0 arg1 harg1) K := by
  simp only [cc3_kernel_eq_skeleton]; unfold cc3_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The proof data of pipeline 3 on core `c`: the arrays as the region finds them; after the body at point `t` the
    input's buffer at its block and the output's at `out3_1` of that block; the invariant that keeps the scoped rest and
    the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]
theorem before3_0 (c : Dev nD) (t : Fin cfg3.N) (d) : (dat3 V c).before 0 t d = iblk3 V c 0 t :=
  before3_0_of V (dat3 V c) (A_eq3 V c 0) (after3_0 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's memref holds its block, so `sound_kernel3` applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Body2.lean ====
/-
  Region 2 of the program (pallas_call number 2, counting from 0): what one grid point does to its two staging buffers, and the proof data
  the pipeline's frame takes — at any float instance, over the buffer contents `V` the region is entered with.
  The input window's buffer holds block `t` of its array when the body runs; the body reads it whole, computes its one
  payload from it and stores that over the whole output buffer; nothing else is touched.
-/
import proofs.«175499_j1357209666244_1_alg».proof.Proof.Gen.KernelIdeal.Launch
import proofs.«175499_j1357209666244_1_alg».proof.Proof.Gen.KernelIdeal.Skeleton
import proofs.«175499_j1357209666244_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, as the region finds the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window is fetched at every point and its index never stands still, so whatever proof data has `V`'s array
    and leaves the block in place finds the block in the current staging buffer. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole staging buffer as a rectangle: the one rectangle the body loads and stores through. -/
abbrev whole2 : Rect S2x16x192x192 := Rect.unit (s := S2x16x192x192) ![0, 0, 0, 0] S2x16x192x192.size inb_S2x16x192x192_S2x16x192x192_0_0_0_0

/-- The output buffer after the body: the payload of the loaded input block, stored over the whole buffer. -/
def out2_1 (x0 : Vec F S2x16x192x192 .f32) : Vec F S2x16x192x192 .f32 :=
  View.canon [⟨whole2, k2_pay1 (View.ld x0 whole2)⟩]

/-- The one store covers the buffer. -/
theorem cover2_1 (p0 : Vec F S2x16x192x192 .f32) (y : S2x16x192x192.Idx) :
    ∃ pc ∈ ([⟨whole2, p0⟩] : List (View.Piece (Elt F) S2x16x192x192 .f32)), y ∈ pc.1.set :=
  View.cover_of_tiled [⟨whole2, p0⟩] S2x16x192x192.size (by rfl) y

set_option maxHeartbeats 1000000 in
/-- The body on whole staging memrefs, the input's at `x0` and the output's at anything, ends with the input's as it was
    and the output's at `out2_1 x0`. -/
theorem sound_kernel2 (c : Dev nD) (E : Set ℕ) (i : grid2.Coords) (arg0 : Memref sig .tc .vmem S2x16x192x192 .f32) (harg0 : arg0.IsWhole) (arg1 : Memref sig .tc .vmem S2x16x192x192 .f32) (harg1 : arg1.IsWhole)
    (x0 : Vec F S2x16x192x192 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out2_1 x0)) -∗ K ⟨⟩))
      ⊢ wp frame (wpE (defs₀ (F := F)) Variants.none c none) E (cc2_kernel i arg0 harg0 arg1 harg1) K := by
  simp only [cc2_kernel_eq_skeleton]; unfold cc2_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The proof data of pipeline 2 on core `c`: the arrays as the region finds them; after the body at point `t` the
    input's buffer at its block and the output's at `out2_1` of that block; the invariant that keeps the scoped rest and
    the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]
theorem before2_0 (c : Dev nD) (t : Fin cfg2.N) (d) : (dat2 V c).before 0 t d = iblk2 V c 0 t :=
  before2_0_of V (dat2 V c) (A_eq2 V c 0) (after2_0 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's memref holds its block, so `sound_kernel2` applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body1.lean ====
/-
  Region 1 of the program (pallas_call number 1, counting from 0): what one grid point does to its two staging buffers, and the proof data
  the pipeline's frame takes — at any float instance, over the buffer contents `V` the region is entered with.
  The input window's buffer holds block `t` of its array when the body runs; the body reads it whole, computes its one
  payload from it and stores that over the whole output buffer; nothing else is touched.
-/
import proofs.«175499_j1357209666244_1_alg».proof.Proof.Gen.KernelIdeal.Launch
import proofs.«175499_j1357209666244_1_alg».proof.Proof.Gen.KernelIdeal.Skeleton
import proofs.«175499_j1357209666244_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, as the region finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window is fetched at every point and its index never stands still, so whatever proof data has `V`'s array
    and leaves the block in place finds the block in the current staging buffer. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole staging buffer as a rectangle: the one rectangle the body loads and stores through. -/
abbrev whole1 : Rect S2x16x192x192 := Rect.unit (s := S2x16x192x192) ![0, 0, 0, 0] S2x16x192x192.size inb_S2x16x192x192_S2x16x192x192_0_0_0_0

/-- The output buffer after the body: the payload of the loaded input block, stored over the whole buffer. -/
def out1_1 (x0 : Vec F S2x16x192x192 .f32) : Vec F S2x16x192x192 .f32 :=
  View.canon [⟨whole1, k1_pay1 (View.ld x0 whole1)⟩]

/-- The one store covers the buffer. -/
theorem cover1_1 (p0 : Vec F S2x16x192x192 .f32) (y : S2x16x192x192.Idx) :
    ∃ pc ∈ ([⟨whole1, p0⟩] : List (View.Piece (Elt F) S2x16x192x192 .f32)), y ∈ pc.1.set :=
  View.cover_of_tiled [⟨whole1, p0⟩] S2x16x192x192.size (by rfl) y

set_option maxHeartbeats 1000000 in
/-- The body on whole staging memrefs, the input's at `x0` and the output's at anything, ends with the input's as it was
    and the output's at `out1_1 x0`. -/
theorem sound_kernel1 (c : Dev nD) (E : Set ℕ) (i : grid1.Coords) (arg0 : Memref sig .tc .vmem S2x16x192x192 .f32) (harg0 : arg0.IsWhole) (arg1 : Memref sig .tc .vmem S2x16x192x192 .f32) (harg1 : arg1.IsWhole)
    (x0 : Vec F S2x16x192x192 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1_kernel i arg0 harg0 arg1 harg1) K := by
  simp only [cc1_kernel_eq_skeleton]; unfold cc1_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of pipeline 1 on core `c`: the arrays as the region finds them; after the body at point `t` the
    input's buffer at its block and the output's at `out1_1` of that block; the invariant that keeps the scoped rest and
    the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so `sound_kernel1` applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body0.lean ====
/-
  Region 0 of the program (the first pallas_call): what one grid point does to its two staging buffers, and the proof data
  the pipeline's frame takes — at any float instance, over the buffer contents `V` the region is entered with.
  The input window's buffer holds block `t` of its array when the body runs; the body reads it whole, computes its one
  payload from it and stores that over the whole output buffer; nothing else is touched.
-/
import proofs.«175499_j1357209666244_1_alg».proof.Proof.Gen.KernelIdeal.Launch
import proofs.«175499_j1357209666244_1_alg».proof.Proof.Gen.KernelIdeal.Skeleton
import proofs.«175499_j1357209666244_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window is fetched at every point and its index never stands still, so whatever proof data has `V`'s array
    and leaves the block in place finds the block in the current staging buffer. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole staging buffer as a rectangle: the one rectangle the body loads and stores through. -/
abbrev whole0 : Rect S2x16x192x192 := Rect.unit (s := S2x16x192x192) ![0, 0, 0, 0] S2x16x192x192.size inb_S2x16x192x192_S2x16x192x192_0_0_0_0

/-- The output buffer after the body: the payload of the loaded input block, stored over the whole buffer. -/
def out0_1 (x0 : Vec F S2x16x192x192 .f32) : Vec F S2x16x192x192 .f32 :=
  View.canon [⟨whole0, k0_pay1 (View.ld x0 whole0)⟩]

/-- The one store covers the buffer. -/
theorem cover0_1 (p0 : Vec F S2x16x192x192 .f32) (y : S2x16x192x192.Idx) :
    ∃ pc ∈ ([⟨whole0, p0⟩] : List (View.Piece (Elt F) S2x16x192x192 .f32)), y ∈ pc.1.set :=
  View.cover_of_tiled [⟨whole0, p0⟩] S2x16x192x192.size (by rfl) y

set_option maxHeartbeats 1000000 in
/-- The body on whole staging memrefs, the input's at `x0` and the output's at anything, ends with the input's as it was
    and the output's at `out0_1 x0`. -/
theorem sound_kernel0 (c : Dev nD) (E : Set ℕ) (i : grid0.Coords) (arg0 : Memref sig .tc .vmem S2x16x192x192 .f32) (harg0 : arg0.IsWhole) (arg1 : Memref sig .tc .vmem S2x16x192x192 .f32) (harg1 : arg1.IsWhole)
    (x0 : Vec F S2x16x192x192 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0_kernel i arg0 harg0 arg1 harg1) K := by
  simp only [cc0_kernel_eq_skeleton]; unfold cc0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body at point `t` the
    input's buffer at its block and the output's at `out0_1` of that block; the invariant that keeps the scoped rest and
    the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Launch.lean ====
/-
  The contents of a core's buffers when the program is launched: the memory it starts from.
-/
import proofs.«175499_j1357209666244_1_alg».proof.Proof.Gen.KernelIdeal.Launch
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev BndOutL : Dev nD → Valuation τ sig (Elt F) := fun c b => (s₀ m ρ).mem ((c : Dev nD), b)

end Cert.KernelIdeal.Hand

end
-- ==== Proof.KI.Fold0.lean ====
/-
  The buffer contents around region 0: after the host slice that feeds it (its entry), and at its exit, where its output
  array holds what its grid points wrote back and every other buffer is as entered.
-/
import proofs.«175499_j1357209666244_1_alg».proof.Proof.KI.Body0
import proofs.«175499_j1357209666244_1_alg».proof.Proof.KI.Launch
import proofs.«175499_j1357209666244_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the slice that feeds region 0 (its entry). -/
abbrev BndEnt0 : Dev nD → Valuation τ sig (Elt F) := fun c => StableHlo.after hostOps0 (BndOutL m ρ c)
/-- The same, read at the TensorCore's references: what region 0's proof data take. -/
abbrev Ent0 : (c : Dev nD) → (b : Ref sig .tc) → Buf (Elt F) ((c : Thread nD τ).loc b) := fun c b => BndEnt0 m ρ c b
/-- At region 0's exit: its arrays at what the pipeline leaves (the input as entered, the output's write-backs folded),
    every other buffer as entered. -/
def BndOut0 (c : Dev nD) : Valuation τ sig (Elt F) :=
  Pipeline.withArrays spec0 c (BndEnt0 m ρ c) fun w => (dat0 (Ent0 m ρ) c).arrAt w cfg0.N
theorem BndOut0_arr (c : Dev nD) (w : Fin cfg0.W) :
    BndOut0 m ρ c (Proc.devRef .tc (Pipeline.arrRef spec0 w)) = (dat0 (Ent0 m ρ) c).arrAt w cfg0.N := by
  unfold BndOut0; exact Pipeline.withArrays_arr spec0 launch0.win.arr_inj c _ _ w
theorem BndOut0_of_ne (c : Dev nD) (b : Ref sig .tc) (hb : ∀ w, Pipeline.arrRef spec0 w ≠ b) :
    BndOut0 m ρ c (Proc.devRef .tc b) = BndEnt0 m ρ c (Proc.devRef .tc b) := by
  unfold BndOut0; exact Pipeline.withArrays_of_ne spec0 c _ _ b hb
/-- The same at the TensorCore's references (region 0's exit contents). -/
abbrev Ext0 : (c : Dev nD) → (b : Ref sig .tc) → Buf (Elt F) ((c : Thread nD τ).loc b) := fun c b => BndOut0 m ρ c b
theorem hF0 (c : Dev nD) (w : Fin cfg0.W) : (dat0 (Ent0 m ρ) c).arrAt w cfg0.N = Ext0 m ρ c (Pipeline.arrRef spec0 w) :=
  (BndOut0_arr m ρ c w).symm
theorem hrest0 (c : Dev nD) : ∀ b, b ∉ Finset.univ.image (Pipeline.arrRef spec0) → Ext0 m ρ c b = Ent0 m ρ c b :=
  fun b hb => BndOut0_of_ne m ρ c b fun w e => hb (Finset.mem_image.mpr ⟨w, Finset.mem_univ _, e⟩)
/-- A host slice writes only its own result. -/
theorem BndEnt0_of_ne (c : Dev nD) (b : Ref sig .tc) (hb : b ∉ hostOps0_W) :
    BndEnt0 m ρ c (Proc.devRef .tc b) = BndOutL m ρ c (Proc.devRef .tc b) :=
  StableHlo.after_of_writes_sub hostOps0 _ hostOps0_writes hb

end Cert.KernelIdeal.Hand

end
-- ==== Proof.KI.Fold1.lean ====
/-
  The buffer contents around region 1: after the host slice that feeds it (its entry), and at its exit, where its output
  array holds what its grid points wrote back and every other buffer is as entered.
-/
import proofs.«175499_j1357209666244_1_alg».proof.Proof.KI.Body1
import proofs.«175499_j1357209666244_1_alg».proof.Proof.KI.Fold0
import proofs.«175499_j1357209666244_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the slice that feeds region 1 (its entry). -/
abbrev BndEnt1 : Dev nD → Valuation τ sig (Elt F) := fun c => StableHlo.after hostOps1 (BndOut0 m ρ c)
/-- The same, read at the TensorCore's references: what region 1's proof data take. -/
abbrev Ent1 : (c : Dev nD) → (b : Ref sig .tc) → Buf (Elt F) ((c : Thread nD τ).loc b) := fun c b => BndEnt1 m ρ c b
/-- At region 1's exit: its arrays at what the pipeline leaves (the input as entered, the output's write-backs folded),
    every other buffer as entered. -/
def BndOut1 (c : Dev nD) : Valuation τ sig (Elt F) :=
  Pipeline.withArrays spec1 c (BndEnt1 m ρ c) fun w => (dat1 (Ent1 m ρ) c).arrAt w cfg1.N
theorem BndOut1_arr (c : Dev nD) (w : Fin cfg1.W) :
    BndOut1 m ρ c (Proc.devRef .tc (Pipeline.arrRef spec1 w)) = (dat1 (Ent1 m ρ) c).arrAt w cfg1.N := by
  unfold BndOut1; exact Pipeline.withArrays_arr spec1 launch1.win.arr_inj c _ _ w
theorem BndOut1_of_ne (c : Dev nD) (b : Ref sig .tc) (hb : ∀ w, Pipeline.arrRef spec1 w ≠ b) :
    BndOut1 m ρ c (Proc.devRef .tc b) = BndEnt1 m ρ c (Proc.devRef .tc b) := by
  unfold BndOut1; exact Pipeline.withArrays_of_ne spec1 c _ _ b hb
/-- The same at the TensorCore's references (region 1's exit contents). -/
abbrev Ext1 : (c : Dev nD) → (b : Ref sig .tc) → Buf (Elt F) ((c : Thread nD τ).loc b) := fun c b => BndOut1 m ρ c b
theorem hF1 (c : Dev nD) (w : Fin cfg1.W) : (dat1 (Ent1 m ρ) c).arrAt w cfg1.N = Ext1 m ρ c (Pipeline.arrRef spec1 w) :=
  (BndOut1_arr m ρ c w).symm
theorem hrest1 (c : Dev nD) : ∀ b, b ∉ Finset.univ.image (Pipeline.arrRef spec1) → Ext1 m ρ c b = Ent1 m ρ c b :=
  fun b hb => BndOut1_of_ne m ρ c b fun w e => hb (Finset.mem_image.mpr ⟨w, Finset.mem_univ _, e⟩)
/-- A host slice writes only its own result. -/
theorem BndEnt1_of_ne (c : Dev nD) (b : Ref sig .tc) (hb : b ∉ hostOps1_W) :
    BndEnt1 m ρ c (Proc.devRef .tc b) = BndOut0 m ρ c (Proc.devRef .tc b) :=
  StableHlo.after_of_writes_sub hostOps1 _ hostOps1_writes hb

end Cert.KernelIdeal.Hand

end
-- ==== Proof.KI.Fold2.lean ====
/-
  The buffer contents around region 2: after the host slice that feeds it (its entry), and at its exit, where its output
  array holds what its grid points wrote back and every other buffer is as entered.
-/
import proofs.«175499_j1357209666244_1_alg».proof.Proof.KI.Body2
import proofs.«175499_j1357209666244_1_alg».proof.Proof.KI.Fold1
import proofs.«175499_j1357209666244_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the slice that feeds region 2 (its entry). -/
abbrev BndEnt2 : Dev nD → Valuation τ sig (Elt F) := fun c => StableHlo.after hostOps2 (BndOut1 m ρ c)
/-- The same, read at the TensorCore's references: what region 2's proof data take. -/
abbrev Ent2 : (c : Dev nD) → (b : Ref sig .tc) → Buf (Elt F) ((c : Thread nD τ).loc b) := fun c b => BndEnt2 m ρ c b
/-- At region 2's exit: its arrays at what the pipeline leaves (the input as entered, the output's write-backs folded),
    every other buffer as entered. -/
def BndOut2 (c : Dev nD) : Valuation τ sig (Elt F) :=
  Pipeline.withArrays spec2 c (BndEnt2 m ρ c) fun w => (dat2 (Ent2 m ρ) c).arrAt w cfg2.N
theorem BndOut2_arr (c : Dev nD) (w : Fin cfg2.W) :
    BndOut2 m ρ c (Proc.devRef .tc (Pipeline.arrRef spec2 w)) = (dat2 (Ent2 m ρ) c).arrAt w cfg2.N := by
  unfold BndOut2; exact Pipeline.withArrays_arr spec2 launch2.win.arr_inj c _ _ w
theorem BndOut2_of_ne (c : Dev nD) (b : Ref sig .tc) (hb : ∀ w, Pipeline.arrRef spec2 w ≠ b) :
    BndOut2 m ρ c (Proc.devRef .tc b) = BndEnt2 m ρ c (Proc.devRef .tc b) := by
  unfold BndOut2; exact Pipeline.withArrays_of_ne spec2 c _ _ b hb
/-- The same at the TensorCore's references (region 2's exit contents). -/
abbrev Ext2 : (c : Dev nD) → (b : Ref sig .tc) → Buf (Elt F) ((c : Thread nD τ).loc b) := fun c b => BndOut2 m ρ c b
theorem hF2 (c : Dev nD) (w : Fin cfg2.W) : (dat2 (Ent2 m ρ) c).arrAt w cfg2.N = Ext2 m ρ c (Pipeline.arrRef spec2 w) :=
  (BndOut2_arr m ρ c w).symm
theorem hrest2 (c : Dev nD) : ∀ b, b ∉ Finset.univ.image (Pipeline.arrRef spec2) → Ext2 m ρ c b = Ent2 m ρ c b :=
  fun b hb => BndOut2_of_ne m ρ c b fun w e => hb (Finset.mem_image.mpr ⟨w, Finset.mem_univ _, e⟩)
/-- A host slice writes only its own result. -/
theorem BndEnt2_of_ne (c : Dev nD) (b : Ref sig .tc) (hb : b ∉ hostOps2_W) :
    BndEnt2 m ρ c (Proc.devRef .tc b) = BndOut1 m ρ c (Proc.devRef .tc b) :=
  StableHlo.after_of_writes_sub hostOps2 _ hostOps2_writes hb

end Cert.KernelIdeal.Hand

end
-- ==== Proof.KI.Fold3.lean ====
/-
  The buffer contents around region 3: after the host slice that feeds it (its entry), and at its exit, where its output
  array holds what its grid points wrote back and every other buffer is as entered.
-/
import proofs.«175499_j1357209666244_1_alg».proof.Proof.KI.Body3
import proofs.«175499_j1357209666244_1_alg».proof.Proof.KI.Fold2
import proofs.«175499_j1357209666244_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the slice that feeds region 3 (its entry). -/
abbrev BndEnt3 : Dev nD → Valuation τ sig (Elt F) := fun c => StableHlo.after hostOps3 (BndOut2 m ρ c)
/-- The same, read at the TensorCore's references: what region 3's proof data take. -/
abbrev Ent3 : (c : Dev nD) → (b : Ref sig .tc) → Buf (Elt F) ((c : Thread nD τ).loc b) := fun c b => BndEnt3 m ρ c b
/-- At region 3's exit: its arrays at what the pipeline leaves (the input as entered, the output's write-backs folded),
    every other buffer as entered. -/
def BndOut3 (c : Dev nD) : Valuation τ sig (Elt F) :=
  Pipeline.withArrays spec3 c (BndEnt3 m ρ c) fun w => (dat3 (Ent3 m ρ) c).arrAt w cfg3.N
theorem BndOut3_arr (c : Dev nD) (w : Fin cfg3.W) :
    BndOut3 m ρ c (Proc.devRef .tc (Pipeline.arrRef spec3 w)) = (dat3 (Ent3 m ρ) c).arrAt w cfg3.N := by
  unfold BndOut3; exact Pipeline.withArrays_arr spec3 launch3.win.arr_inj c _ _ w
theorem BndOut3_of_ne (c : Dev nD) (b : Ref sig .tc) (hb : ∀ w, Pipeline.arrRef spec3 w ≠ b) :
    BndOut3 m ρ c (Proc.devRef .tc b) = BndEnt3 m ρ c (Proc.devRef .tc b) := by
  unfold BndOut3; exact Pipeline.withArrays_of_ne spec3 c _ _ b hb
/-- The same at the TensorCore's references (region 3's exit contents). -/
abbrev Ext3 : (c : Dev nD) → (b : Ref sig .tc) → Buf (Elt F) ((c : Thread nD τ).loc b) := fun c b => BndOut3 m ρ c b
theorem hF3 (c : Dev nD) (w : Fin cfg3.W) : (dat3 (Ent3 m ρ) c).arrAt w cfg3.N = Ext3 m ρ c (Pipeline.arrRef spec3 w) :=
  (BndOut3_arr m ρ c w).symm
theorem hrest3 (c : Dev nD) : ∀ b, b ∉ Finset.univ.image (Pipeline.arrRef spec3) → Ext3 m ρ c b = Ent3 m ρ c b :=
  fun b hb => BndOut3_of_ne m ρ c b fun w e => hb (Finset.mem_image.mpr ⟨w, Finset.mem_univ _, e⟩)
/-- A host slice writes only its own result. -/
theorem BndEnt3_of_ne (c : Dev nD) (b : Ref sig .tc) (hb : b ∉ hostOps3_W) :
    BndEnt3 m ρ c (Proc.devRef .tc b) = BndOut2 m ρ c (Proc.devRef .tc b) :=
  StableHlo.after_of_writes_sub hostOps3 _ hostOps3_writes hb

end Cert.KernelIdeal.Hand

end
-- ==== Proof.KI.Data.lean ====
/-
  What the run's proof is stated over: the buffer contents after the last host stretch (the last slice and the concatenation),
  every pipeline's proof data at its region's entry contents, and the thread state carried from item to item.
-/
import proofs.«175499_j1357209666244_1_alg».proof.Proof.KI.Fold3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the last stretch: the last slice and the concatenation. -/
abbrev BndEnd : Dev nD → Valuation τ sig (Elt F) := fun c => StableHlo.after hostOps4 (BndOut3 m ρ c)
theorem BndEnd_of_ne (c : Dev nD) (b : Ref sig .tc) (hb : b ∉ hostOps4_W) :
    BndEnd m ρ c (Proc.devRef .tc b) = BndOut3 m ρ c (Proc.devRef .tc b) :=
  StableHlo.after_of_writes_sub hostOps4 _ hostOps4_writes hb

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (Ent0 m ρ) c
  | ⟨1, _⟩ => fun c => dat1 (Ent1 m ρ) c
  | ⟨2, _⟩ => fun c => dat2 (Ent2 m ρ) c
  | ⟨3, _⟩ => fun c => dat3 (Ent3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (BndEnd m ρ c) ∗ ∃ r, prngReg c r)

end Cert.KernelIdeal.Hand

end
-- ==== Proof.KI.Reg0.lean ====
/-
  Region 0 as one item of the run: entered with every unscoped buffer at the region's entry contents, left with them at its
  exit contents, the generator register and the core's (empty) dues riding along.
-/
import proofs.«175499_j1357209666244_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 0 over the thread state: entered with every unscoped buffer at `BndEnt0`, left with them at `BndOut0`. Its two
    arrays are split out of the unscoped buffers at entry and put back at the exit contents; the generator register goes into
    the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ent0 m ρ) c).loose
  hwaits := Pipeline.hwaits_of_owed_zero _ _ _ _ L lv 0 fun _ _ => rfl
  pre c := iprop(StableHlo.held (c : Thread nD τ) (Pipeline.ucRefs τ sig) (BndEnt0 m ρ c) ∗ R c)
  post c := iprop(StableHlo.held (c : Thread nD τ) (Pipeline.ucRefs τ sig) (BndOut0 m ρ c) ∗ R c)
  X c := iprop(∃ r, prngReg c r)
  Y c := iprop(∃ r, prngReg c r)
  Z c := Pipeline.unscopedRest (Ix := Unit) (Name := ℕ) (U := UR sig nD τ) (Lvl := ℕ) spec0 c (Ent0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ent0 m ρ c) (Ext0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
/-
  Region 1 as one item of the run: entered with every unscoped buffer at the region's entry contents, left with them at its
  exit contents, the generator register and the core's (empty) dues riding along.
-/
import proofs.«175499_j1357209666244_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 1 over the thread state: entered with every unscoped buffer at `BndEnt1`, left with them at `BndOut1`. Its two
    arrays are split out of the unscoped buffers at entry and put back at the exit contents; the generator register goes into
    the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ent1 m ρ) c).loose
  hwaits := Pipeline.hwaits_of_owed_zero _ _ _ _ L lv 1 fun _ _ => rfl
  pre c := iprop(StableHlo.held (c : Thread nD τ) (Pipeline.ucRefs τ sig) (BndEnt1 m ρ c) ∗ R c)
  post c := iprop(StableHlo.held (c : Thread nD τ) (Pipeline.ucRefs τ sig) (BndOut1 m ρ c) ∗ R c)
  X c := iprop(∃ r, prngReg c r)
  Y c := iprop(∃ r, prngReg c r)
  Z c := Pipeline.unscopedRest (Ix := Unit) (Name := ℕ) (U := UR sig nD τ) (Lvl := ℕ) spec1 c (Ent1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ent1 m ρ c) (Ext1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
/-
  Region 2 as one item of the run: entered with every unscoped buffer at the region's entry contents, left with them at its
  exit contents, the generator register and the core's (empty) dues riding along.
-/
import proofs.«175499_j1357209666244_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 2 over the thread state: entered with every unscoped buffer at `BndEnt2`, left with them at `BndOut2`. Its two
    arrays are split out of the unscoped buffers at entry and put back at the exit contents; the generator register goes into
    the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ent2 m ρ) c).loose
  hwaits := Pipeline.hwaits_of_owed_zero _ _ _ _ L lv 2 fun _ _ => rfl
  pre c := iprop(StableHlo.held (c : Thread nD τ) (Pipeline.ucRefs τ sig) (BndEnt2 m ρ c) ∗ R c)
  post c := iprop(StableHlo.held (c : Thread nD τ) (Pipeline.ucRefs τ sig) (BndOut2 m ρ c) ∗ R c)
  X c := iprop(∃ r, prngReg c r)
  Y c := iprop(∃ r, prngReg c r)
  Z c := Pipeline.unscopedRest (Ix := Unit) (Name := ℕ) (U := UR sig nD τ) (Lvl := ℕ) spec2 c (Ent2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Ent2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Ent2 m ρ c) (Ext2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
/-
  Region 3 as one item of the run: entered with every unscoped buffer at the region's entry contents, left with them at its
  exit contents, the generator register and the core's (empty) dues riding along.
-/
import proofs.«175499_j1357209666244_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 3 over the thread state: entered with every unscoped buffer at `BndEnt3`, left with them at `BndOut3`. Its two
    arrays are split out of the unscoped buffers at entry and put back at the exit contents; the generator register goes into
    the pipeline's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Ent3 m ρ) c).loose
  hwaits := Pipeline.hwaits_of_owed_zero _ _ _ _ L lv 3 fun _ _ => rfl
  pre c := iprop(StableHlo.held (c : Thread nD τ) (Pipeline.ucRefs τ sig) (BndEnt3 m ρ c) ∗ R c)
  post c := iprop(StableHlo.held (c : Thread nD τ) (Pipeline.ucRefs τ sig) (BndOut3 m ρ c) ∗ R c)
  X c := iprop(∃ r, prngReg c r)
  Y c := iprop(∃ r, prngReg c r)
  Z c := Pipeline.unscopedRest (Ix := Unit) (Name := ℕ) (U := UR sig nD τ) (Lvl := ℕ) spec3 c (Ent3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Ent3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Ent3 m ρ c) (Ext3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The whole run of the program: five stretches of host operations (four slices of the argument, then the last slice and the
  concatenation) around four pipelined kernel regions. The contents of the TensorCore's buffers are followed from the launch
  through every item: a host stretch applies its operations; a region replaces its output array by what its grid points
  wrote back and leaves everything else alone. Every weakly fair execution ends, without fault, with every unscoped buffer at
  the last of these contents. Stated at any float instance.
-/
import proofs.«175499_j1357209666244_1_alg».proof.Proof.KI.Reg0
import proofs.«175499_j1357209666244_1_alg».proof.Proof.KI.Reg1
import proofs.«175499_j1357209666244_1_alg».proof.Proof.KI.Reg2
import proofs.«175499_j1357209666244_1_alg».proof.Proof.KI.Reg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's nine items in order. -/
abbrev segs : List (Pipeline.Seg (pcfgs (F := F)) adm (pdats m ρ) () defs₀ 𝒱₀ L lv) :=
  [ .host (hseg hostOps0 hostOps0_sub hostOps0_fresh (BndOutL m ρ)),
    .region (reg0 m ρ),
    .host (hseg hostOps1 hostOps1_sub hostOps1_fresh (BndOut0 m ρ)),
    .region (reg1 m ρ),
    .host (hseg hostOps2 hostOps2_sub hostOps2_fresh (BndOut1 m ρ)),
    .region (reg2 m ρ),
    .host (hseg hostOps3 hostOps3_sub hostOps3_fresh (BndOut2 m ρ)),
    .region (reg3 m ρ),
    .host (hseg hostOps4 hostOps4_sub hostOps4_fresh (BndOut3 m ρ)) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and leaves
    every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = BndEnd m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (BndOutL m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (BndEnd m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (BndOutL m ρ c)
        from Pipeline.unscopedBufs_held c (BndOutL m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = BndEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (BndEnd m ρ c) s')
      isplitl [Hh] <;> iassumption)
    (hQ := fun s h c => h c)

end Cert.KernelIdeal.Hand

end
-- ==== Proof.KI.Out.lean ====
/-
  What the run leaves: the argument as launched, and the result array — the concatenation, along the channel axis, of the
  four regions' output arrays and the argument's last eight channels. Each region's input array is a slice of the argument.
  No host stretch and no region writes the argument; a region's output array is written by that region only.
-/
import proofs.«175499_j1357209666244_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument is never written -/

theorem out0_arg0 (c : Dev nD) : BndOut0 m ρ c (Proc.devRef .tc main_arg0) = m ((c : Thread nD τ).loc main_arg0) :=
  (BndOut0_of_ne m ρ c main_arg0 (by decide)).trans (BndEnt0_of_ne m ρ c main_arg0 (by decide))
theorem out1_arg0 (c : Dev nD) : BndOut1 m ρ c (Proc.devRef .tc main_arg0) = m ((c : Thread nD τ).loc main_arg0) :=
  (BndOut1_of_ne m ρ c main_arg0 (by decide)).trans ((BndEnt1_of_ne m ρ c main_arg0 (by decide)).trans (out0_arg0 m ρ c))
theorem out2_arg0 (c : Dev nD) : BndOut2 m ρ c (Proc.devRef .tc main_arg0) = m ((c : Thread nD τ).loc main_arg0) :=
  (BndOut2_of_ne m ρ c main_arg0 (by decide)).trans ((BndEnt2_of_ne m ρ c main_arg0 (by decide)).trans (out1_arg0 m ρ c))
theorem out3_arg0 (c : Dev nD) : BndOut3 m ρ c (Proc.devRef .tc main_arg0) = m ((c : Thread nD τ).loc main_arg0) :=
  (BndOut3_of_ne m ρ c main_arg0 (by decide)).trans ((BndEnt3_of_ne m ρ c main_arg0 (by decide)).trans (out2_arg0 m ρ c))
theorem end_arg0 (c : Dev nD) : BndEnd m ρ c (Proc.devRef .tc main_arg0) = m ((c : Thread nD τ).loc main_arg0) :=
  (BndEnd_of_ne m ρ c main_arg0 (by decide)).trans (out3_arg0 m ρ c)

/-! ## Each region's input array is a slice of the argument -/

theorem ent0_src (c : Dev nD) : Ent0 m ρ c main_v0
    = extractStridedSlice S16x16x192x192 ![0, 0, 0, 0] (m ((c : Thread nD τ).loc main_arg0)) Facts₀.slices_S16x64x192x192_S16x16x192x192_0_0_0_0 := by
  show StableHlo.after hostOps0 (BndOutL m ρ c) (Proc.devRef .tc main_v0) = _
  after_results
theorem ent1_src (c : Dev nD) : Ent1 m ρ c main_v2
    = extractStridedSlice S16x16x192x192 ![0, 16, 0, 0] (m ((c : Thread nD τ).loc main_arg0)) Facts₀.slices_S16x64x192x192_S16x16x192x192_0_16_0_0 := by
  show StableHlo.after hostOps1 (BndOut0 m ρ c) (Proc.devRef .tc main_v2) = _
  after_results; rw [out0_arg0]
theorem ent2_src (c : Dev nD) : Ent2 m ρ c main_v4
    = extractStridedSlice S16x16x192x192 ![0, 32, 0, 0] (m ((c : Thread nD τ).loc main_arg0)) Facts₀.slices_S16x64x192x192_S16x16x192x192_0_32_0_0 := by
  show StableHlo.after hostOps2 (BndOut1 m ρ c) (Proc.devRef .tc main_v4) = _
  after_results; rw [out1_arg0]
theorem ent3_src (c : Dev nD) : Ent3 m ρ c main_v6
    = extractStridedSlice S16x8x192x192 ![0, 48, 0, 0] (m ((c : Thread nD τ).loc main_arg0)) Facts₀.slices_S16x64x192x192_S16x8x192x192_0_48_0_0 := by
  show StableHlo.after hostOps3 (BndOut2 m ρ c) (Proc.devRef .tc main_v6) = _
  after_results; rw [out2_arg0]

/-! ## A region's output array is written by that region only -/

theorem out3_v1 (c : Dev nD) : BndOut3 m ρ c (Proc.devRef .tc main_v1) = (dat0 (Ent0 m ρ) c).arrAt 1 cfg0.N :=
  (BndOut3_of_ne m ρ c main_v1 (by decide)).trans <| (BndEnt3_of_ne m ρ c main_v1 (by decide)).trans <|
  (BndOut2_of_ne m ρ c main_v1 (by decide)).trans <| (BndEnt2_of_ne m ρ c main_v1 (by decide)).trans <|
  (BndOut1_of_ne m ρ c main_v1 (by decide)).trans <| (BndEnt1_of_ne m ρ c main_v1 (by decide)).trans <|
  BndOut0_arr m ρ c 1
theorem out3_v3 (c : Dev nD) : BndOut3 m ρ c (Proc.devRef .tc main_v3) = (dat1 (Ent1 m ρ) c).arrAt 1 cfg1.N :=
  (BndOut3_of_ne m ρ c main_v3 (by decide)).trans <| (BndEnt3_of_ne m ρ c main_v3 (by decide)).trans <|
  (BndOut2_of_ne m ρ c main_v3 (by decide)).trans <| (BndEnt2_of_ne m ρ c main_v3 (by decide)).trans <|
  BndOut1_arr m ρ c 1
theorem out3_v5 (c : Dev nD) : BndOut3 m ρ c (Proc.devRef .tc main_v5) = (dat2 (Ent2 m ρ) c).arrAt 1 cfg2.N :=
  (BndOut3_of_ne m ρ c main_v5 (by decide)).trans <| (BndEnt3_of_ne m ρ c main_v5 (by decide)).trans <|
  BndOut2_arr m ρ c 1
theorem out3_v7 (c : Dev nD) : BndOut3 m ρ c (Proc.devRef .tc main_v7) = (dat3 (Ent3 m ρ) c).arrAt 1 cfg3.N :=
  BndOut3_arr m ρ c 1

/-! ## The result -/

/-- The result array after the run. -/
def outArr (c : Dev nD) : (⟨S16x64x192x192, .f32⟩ : BufTy).Contents (Elt F) :=
  concatenate S16x64x192x192 1 [⟨S16x16x192x192, (dat0 (Ent0 m ρ) c).arrAt 1 cfg0.N⟩, ⟨S16x16x192x192, (dat1 (Ent1 m ρ) c).arrAt 1 cfg1.N⟩,
    ⟨S16x16x192x192, (dat2 (Ent2 m ρ) c).arrAt 1 cfg2.N⟩, ⟨S16x8x192x192, (dat3 (Ent3 m ρ) c).arrAt 1 cfg3.N⟩,
    ⟨S16x8x192x192, extractStridedSlice S16x8x192x192 ![0, 56, 0, 0] (m ((c : Thread nD τ).loc main_arg0)) Facts₀.slices_S16x64x192x192_S16x8x192x192_0_56_0_0⟩]
    Facts₀.concatenates_S16x16x192x192_S16x16x192x192_S16x16x192x192_S16x8x192x192_S16x8x192x192_S16x64x192x192_d1

theorem end_v9 (c : Dev nD) : BndEnd m ρ c (Proc.devRef .tc main_v9) = outArr m ρ c := by
  show StableHlo.after hostOps4 (BndOut3 m ρ c) (Proc.devRef .tc main_v9) = _
  after_results
  show concatenate S16x64x192x192 1
    [⟨S16x16x192x192, (StableHlo.unary main_arg0 main_v8 _ _ _).result (BndOut3 m ρ c) (Proc.devRef .tc main_v1)⟩,
     ⟨S16x16x192x192, (StableHlo.unary main_arg0 main_v8 _ _ _).result (BndOut3 m ρ c) (Proc.devRef .tc main_v3)⟩,
     ⟨S16x16x192x192, (StableHlo.unary main_arg0 main_v8 _ _ _).result (BndOut3 m ρ c) (Proc.devRef .tc main_v5)⟩,
     ⟨S16x8x192x192, (StableHlo.unary main_arg0 main_v8 _ _ _).result (BndOut3 m ρ c) (Proc.devRef .tc main_v7)⟩,
     ⟨S16x8x192x192, (StableHlo.unary main_arg0 main_v8 _ _ _).result (BndOut3 m ρ c) (Proc.devRef .tc main_v8)⟩] _ = _
  repeat (first | rw [StableHlo.unary_result] | (rw [StableHlo.unary_result_ne]; rotate_left; decide))
  rw [out3_v1, out3_v3, out3_v5, out3_v7, out3_arg0]
  rfl

/-- Every weakly fair execution of the program terminates, nothing faulting, with the result array at `outArr` and the argument
    as launched. -/
theorem run_main : θ_run defs (onTc (τ := τ) (main (F := F))) ⟨m, fun _ => 0, ρ⟩ (fun r => ∀ c : Dev nD,
      r.2.mem ((c.tc : Thread nD τ).loc main_v9) = outArr m ρ c
      ∧ r.2.mem ((c.tc : Thread nD τ).loc main_arg0) = m ((c.tc : Thread nD τ).loc main_arg0)) :=
  (θ_run defs _ _).mono (fun r h c =>
    ⟨(h c _ (mem_uc main_v9 (by decide))).trans (end_v9 m ρ c), (h c _ (mem_uc main_arg0 (by decide))).trans (end_arg0 m ρ c)⟩)
    (run_all m ρ)

end Cert.KernelIdeal.Hand

end
-- ==== Proof.LibGate.lean ====
/-
  Gating a block-partitioned image by the sign of each block's sum.

  An array of images is cut into blocks of `b × b` pixels: seen as a rank-6 array `[N, C, P, b, Q, b]` the pixel
  `(n, c, p, i, q, j)` lies in block `(p, q)` of image `(n, c)` at offset `(i, j)`. The gate keeps a pixel where
  the sum of its block is positive and replaces it by zero elsewhere: `gate6 v = v · [0 < Σ_{i', j'} v(n, c, p, i', q, j')]`.
  `gate4` is the same map on the rank-4 array `[N, C, H, W]` (with `H = P·b`, `W = Q·b`), through the two reshapes.
-/
import Idealize.ShloMosaic.PureOps.Ideal
import Idealize.ShloMosaic.Lib.ValueIdx
import Idealize.ShloMosaic.Lib.ValueIdxRank6

noncomputable section

namespace Idealize.ShloMosaic.BlockGate

open Idealize.ShloMosaic Idealize.ShloMosaic.ValueIdx

/-- One where the argument is positive, zero elsewhere. -/
def pos01 (s : EReal) : EReal := if 0 < s then 1 else 0

/-- The shapes: images cut in blocks, a row of blocks summed, the block sums, the block sums with unit axes, the images. -/
abbrev T6 (N C P b Q : ℕ) : Shape := ⟨6, ![N, C, P, b, Q, b]⟩
abbrev T5 (N C P b Q : ℕ) : Shape := ⟨5, ![N, C, P, b, Q]⟩
abbrev R4 (N C P Q : ℕ) : Shape := ⟨4, ![N, C, P, Q]⟩
abbrev U6 (N C P Q : ℕ) : Shape := ⟨6, ![N, C, P, 1, Q, 1]⟩
abbrev S4 (N C H W : ℕ) : Shape := ⟨4, ![N, C, H, W]⟩

variable {N C P b Q : ℕ}

/-- The sum of the block a rank-6 index lies in. -/
def blockSum6 (v : (T6 N C P b Q).Idx → EReal) (j : (T6 N C P b Q).Idx) : EReal :=
  ∑ i' : Fin b, ∑ j' : Fin b, v (ix6 (j 0) (j 1) (j 2) i' (j 4) j')

/-- Each pixel times the indicator that its block's sum is positive. -/
def gate6 (v : (T6 N C P b Q).Idx → EReal) : (T6 N C P b Q).Idx → EReal :=
  fun j => v j * pos01 (blockSum6 v j)

/-- The same on the rank-4 array of images, through the reshape to blocks and back. -/
def gate4 {H W : ℕ} (h46 : (S4 N C H W).ShapeCasts (T6 N C P b Q)) (h64 : (T6 N C P b Q).ShapeCasts (S4 N C H W))
    (y : (S4 N C H W).Idx → EReal) : (S4 N C H W).Idx → EReal :=
  shapeCast (S4 N C H W) (gate6 (shapeCast (T6 N C P b Q) y h46)) h64

end Idealize.ShloMosaic.BlockGate

end
-- ==== Proof.LibGateRead.lean ====
/-
  The block gate of a rank-4 array of images read at a pixel.
-/
import proofs.«175499_j1357209666244_1_alg».proof.Proof.LibGate
import Idealize.ShloMosaic.Lib.Pipeline.Value

noncomputable section

namespace Idealize.ShloMosaic.BlockGate

open Idealize.ShloMosaic Idealize.ShloMosaic.ValueIdx

variable {N C P b Q : ℕ}

/-- Row `h`'s block starts at `h / b * b`; the row at offset `i` inside it is again a row of the image. -/
theorem blockRow_lt {H : ℕ} (hH : H = P * b) (h : Fin H) (i : Fin b) : h.val / b * b + i.val < H := by
  subst hH
  have hp : h.val / b < P := Nat.div_lt_of_lt_mul (lt_of_lt_of_eq h.isLt (Nat.mul_comm P b))
  have h1 : (h.val / b + 1) * b ≤ P * b := Nat.mul_le_mul_right b hp
  have h2 : (h.val / b + 1) * b = h.val / b * b + b := Nat.succ_mul _ _
  have hi : i.val < b := i.isLt
  omega

/-- The row at offset `i` of the block that holds row `h`. -/
def blockRow {H : ℕ} (hH : H = P * b) (h : Fin H) (i : Fin b) : Fin H := ⟨h.val / b * b + i.val, blockRow_lt hH h i⟩

/-- A reshape keeps row-major positions: pixel `(n, c, p·b + i, q·b + j)` of the images sits where entry
    `(n, c, p, i, q, j)` of the blocks sits. -/
theorem pos46 (n : Fin N) (ch : Fin C) (p : Fin P) (i : Fin b) (q : Fin Q) (j : Fin b)
    (h : Fin (P * b)) (w : Fin (Q * b)) (hh : h.val = p.val * b + i.val) (hw : w.val = q.val * b + j.val) :
    ((S4 N C (P * b) (Q * b)).rowMajor (ix4 n ch h w)).val = ((T6 N C P b Q).rowMajor (ix6 n ch p i q j)).val := by
  rw [Shape.rowMajor_val_four, Shape.rowMajor_val_six]
  show ((n.val * C + ch.val) * (P * b) + h.val) * (Q * b) + w.val
      = ((((n.val * C + ch.val) * P + p.val) * b + i.val) * Q + q.val) * b + j.val
  rw [hh, hw]
  ring

/-- The blocks read at `(n, c, p, i, q, j)` hold the pixel `(n, c, p·b + i, q·b + j)`. -/
theorem cast46_apply (h46 : (S4 N C (P * b) (Q * b)).ShapeCasts (T6 N C P b Q))
    (y : (S4 N C (P * b) (Q * b)).Idx → EReal)
    (n : Fin N) (ch : Fin C) (p : Fin P) (i : Fin b) (q : Fin Q) (j : Fin b)
    (h : Fin (P * b)) (w : Fin (Q * b)) (hh : h.val = p.val * b + i.val) (hw : w.val = q.val * b + j.val) :
    shapeCast (T6 N C P b Q) y h46 (ix6 n ch p i q j) = y (ix4 n ch h w) :=
  shapeCast_apply y h46 (ix6 n ch p i q j) (ix4 n ch h w) (pos46 n ch p i q j h w hh hw)

/-- The images read at `(n, c, p·b + i, q·b + j)` hold entry `(n, c, p, i, q, j)` of the blocks. -/
theorem cast64_apply (h64 : (T6 N C P b Q).ShapeCasts (S4 N C (P * b) (Q * b)))
    (v : (T6 N C P b Q).Idx → EReal)
    (n : Fin N) (ch : Fin C) (p : Fin P) (i : Fin b) (q : Fin Q) (j : Fin b)
    (h : Fin (P * b)) (w : Fin (Q * b)) (hh : h.val = p.val * b + i.val) (hw : w.val = q.val * b + j.val) :
    shapeCast (S4 N C (P * b) (Q * b)) v h64 (ix4 n ch h w) = v (ix6 n ch p i q j) :=
  shapeCast_apply v h64 (ix4 n ch h w) (ix6 n ch p i q j) (pos46 n ch p i q j h w hh hw).symm

/-- At pixel `(n, c, h, w)` the gated array holds the pixel times the indicator that the sum of the `b × b` block
    around it is positive. -/
theorem gate4_apply {H W : ℕ} (hH : H = P * b) (hW : W = Q * b)
    (h46 : (S4 N C H W).ShapeCasts (T6 N C P b Q)) (h64 : (T6 N C P b Q).ShapeCasts (S4 N C H W))
    (y : (S4 N C H W).Idx → EReal) (n : Fin N) (ch : Fin C) (h : Fin H) (w : Fin W) :
    gate4 h46 h64 y (ix4 n ch h w)
      = y (ix4 n ch h w) * pos01 (∑ i' : Fin b, ∑ j' : Fin b, y (ix4 n ch (blockRow hH h i') (blockRow hW w j'))) := by
  subst hH hW
  -- a row exists, so blocks are not empty
  have hb : 0 < b := by
    rcases Nat.eq_zero_or_pos b with h0 | h0
    · subst h0; exact h.elim0
    · exact h0
  -- the block coordinates of the pixel
  have hp : h.val / b < P := Nat.div_lt_of_lt_mul (lt_of_lt_of_eq h.isLt (Nat.mul_comm P b))
  have hq : w.val / b < Q := Nat.div_lt_of_lt_mul (lt_of_lt_of_eq w.isLt (Nat.mul_comm Q b))
  have hh : h.val = (⟨h.val / b, hp⟩ : Fin P).val * b + (⟨h.val % b, Nat.mod_lt _ hb⟩ : Fin b).val :=
    (Nat.div_add_mod' h.val b).symm
  have hw : w.val = (⟨w.val / b, hq⟩ : Fin Q).val * b + (⟨w.val % b, Nat.mod_lt _ hb⟩ : Fin b).val :=
    (Nat.div_add_mod' w.val b).symm
  unfold gate4
  rw [cast64_apply h64 _ n ch ⟨h.val / b, hp⟩ ⟨h.val % b, Nat.mod_lt _ hb⟩ ⟨w.val / b, hq⟩ ⟨w.val % b, Nat.mod_lt _ hb⟩
    h w hh hw]
  unfold gate6 blockSum6
  rw [cast46_apply h46 y n ch ⟨h.val / b, hp⟩ ⟨h.val % b, Nat.mod_lt _ hb⟩ ⟨w.val / b, hq⟩ ⟨w.val % b, Nat.mod_lt _ hb⟩
    h w hh hw]
  congr 2
  refine Finset.sum_congr rfl fun i' _ => Finset.sum_congr rfl fun j' _ => ?_
  exact cast46_apply h46 y n ch ⟨h.val / b, hp⟩ i' ⟨w.val / b, hq⟩ j' (blockRow rfl h i') (blockRow rfl w j') rfl rfl

/-- A number times the indicator that it is positive is its positive part. -/
theorem mul_pos01_self (x : EReal) : x * pos01 x = max x 0 := by
  unfold pos01
  by_cases hx : 0 < x
  · rw [if_pos hx, mul_one, max_eq_left hx.le]
  · rw [if_neg hx, mul_zero, max_eq_right (not_lt.mp hx)]

/-- With blocks of one pixel the gate is the positive part. -/
theorem gate4_one_apply {H W : ℕ}
    (h46 : (S4 N C H W).ShapeCasts (T6 N C H 1 W)) (h64 : (T6 N C H 1 W).ShapeCasts (S4 N C H W))
    (y : (S4 N C H W).Idx → EReal) (i : (S4 N C H W).Idx) :
    gate4 h46 h64 y i = max (y i) 0 := by
  have hH : H = H * 1 := (Nat.mul_one H).symm
  have hW : W = W * 1 := (Nat.mul_one W).symm
  obtain ⟨n, ch, h, w, rfl⟩ : ∃ (n : Fin N) (ch : Fin C) (h : Fin H) (w : Fin W), i = ix4 n ch h w :=
    ⟨i 0, i 1, i 2, i 3, eq_ix4 i⟩
  rw [gate4_apply hH hW h46 h64 y n ch h w, Fin.sum_univ_one, Fin.sum_univ_one]
  have e2 : blockRow hH h (0 : Fin 1) = h := Fin.ext (by
    show h.val / 1 * 1 + 0 = h.val
    rw [Nat.div_one, Nat.mul_one, Nat.add_zero])
  have e3 : blockRow hW w (0 : Fin 1) = w := Fin.ext (by
    show w.val / 1 * 1 + 0 = w.val
    rw [Nat.div_one, Nat.mul_one, Nat.add_zero])
  rw [e2, e3]
  exact mul_pos01_self _

end Idealize.ShloMosaic.BlockGate

end
-- ==== Proof.KI.Val0.lean ====
/-
  Region 0 at the ideal instance: what its output array holds after the run. Each grid point takes the positive part of two
  images' worth of channels — the gate with blocks of one pixel —; the points' write-backs tile the array along the batch
  axis, so the array ends at the positive part of the whole input array.
-/
import proofs.«175499_j1357209666244_1_alg».proof.Proof.KI.Body0
import proofs.«175499_j1357209666244_1_alg».proof.Proof.LibGate
import proofs.«175499_j1357209666244_1_alg».proof.Proof.LibGateRead
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.BlockGate
open Idealize.SL Idealize.SL.Sem
open Idealize.ShloMosaic.Pipeline (Dat)

variable (V : (c : Dev nD) → (b : Ref sig .tc) → Buf (Elt Ideal) ((c : Thread nD τ).loc b))

/-- The offset of the rectangle the body loads and stores through is zero on every axis. -/
theorem off0_zero : (![0, 0, 0, 0] : Fin 4 → Nat) = fun _ => 0 := funext fun a => by fin_cases a <;> rfl

/-- The payload at an index: the maximum of the loaded value there and zero. -/
theorem pay0_apply (v0 : Vec Ideal S2x16x192x192 .f32) (i : S2x16x192x192.Idx) :
    k0_pay1 (F := Ideal) v0 i = max (v0 i) 0 := by
  unfold k0_pay1
  rw [shapeCast_self]
  show max (v0 i) (Ideal.ofBits .f32 0x00000000#32) = max (v0 i) 0
  rw [Ideal.ofBits_zero_f32]

/-- The body's payload, the maximum of the loaded block and zero, is the gate with blocks of one pixel. -/
theorem pay0_eq (v0 : Vec Ideal S2x16x192x192 .f32)
    (h46 : (S4 2 16 192 192).ShapeCasts (T6 2 16 192 1 192)) (h64 : (T6 2 16 192 1 192).ShapeCasts (S4 2 16 192 192)) :
    k0_pay1 (F := Ideal) v0 = gate4 h46 h64 v0 :=
  funext fun i => (pay0_apply v0 i).trans (gate4_one_apply h46 h64 v0 i).symm

/-- The positive part of an array read at two names of one index. -/
theorem max_congr_index (y : S16x16x192x192.Idx → EReal) (i i' : S16x16x192x192.Idx) (h : i = i') :
    max (y i) 0 = max (y i') 0 := by rw [h]

/-- The two windows' index maps, decided over the grid: at point `t` both name block `t` along the batch axis and
    block zero along the others. -/
theorem index_facts0 : ∀ t : Fin cfg0.N, win0_0.index t (0 : Fin 4) = win0_1.index t (0 : Fin 4)
    ∧ win0_0.index t (1 : Fin 4) = win0_1.index t (1 : Fin 4)
    ∧ win0_0.index t (2 : Fin 4) = win0_1.index t (2 : Fin 4)
    ∧ win0_0.index t (3 : Fin 4) = win0_1.index t (3 : Fin 4)
    ∧ win0_1.index t (0 : Fin 4) ≤ 7
    ∧ win0_1.index t (1 : Fin 4) = 0
    ∧ win0_1.index t (2 : Fin 4) = 0
    ∧ win0_1.index t (3 : Fin 4) = 0 :=
  (by decide +kernel : ∀ t : Fin grid0.N, _)

/-- Every pair of batch rows is some point's block. -/
theorem index_onto0 : ∀ q : Fin 8, ∃ t : Fin cfg0.N, win0_1.index t = ![q.val, 0, 0, 0] :=
  (by decide +kernel : ∀ q : Fin 8, ∃ t : Fin grid0.N, win0_1.index t = ![q.val, 0, 0, 0])

/-- What point `t` writes back is block `t` of the gate of the input array. -/
theorem flushed0_eq (c : Dev nD)
    (h46 : (S4 16 16 192 192).ShapeCasts (T6 16 16 192 1 192)) (h64 : (T6 16 16 192 1 192).ShapeCasts (S4 16 16 192 192))
    (t : Fin cfg0.N) :
    (dat0 (F := Ideal) V c).flushed 1 t = ((cfg0.win 1).blk t).view.read (Elt Ideal) (gate4 h46 h64 (V c main_v0)) := by
  show (cfg0.win 1).cut (grid0.coords t) ((dat0 V c).after 1 t) = _
  rw [after0_1]
  unfold out0_1
  rw [View.canon_unit_zero off0_zero]
  simp only [View.ld_unit_zero (S := S2x16x192x192) off0_zero]
  obtain ⟨e0, e1, e2, e3, -, -, -, -⟩ := index_facts0 t
  funext j
  show k0_pay1 (F := Ideal) (iblk0 V c 0 t) j = gate4 h46 h64 (V c main_v0) (((cfg0.win 1).blk t).view.emb j)
  refine (pay0_apply _ _).trans ?_
  refine Eq.trans ?_ (gate4_one_apply h46 h64 (V c main_v0) _).symm
  have h0 : ((cfg0.win 0).blk t).view.emb j = ((cfg0.win 1).blk t).view.emb j := by
    funext a; apply Fin.ext
    match a with
    | ⟨0, _⟩ => show win0_0.index t (0 : Fin 4) * 2 + 1 * (j 0).val = win0_1.index t (0 : Fin 4) * 2 + 1 * (j 0).val; omega
    | ⟨1, _⟩ => show win0_0.index t (1 : Fin 4) * 16 + 1 * (j 1).val = win0_1.index t (1 : Fin 4) * 16 + 1 * (j 1).val; omega
    | ⟨2, _⟩ => show win0_0.index t (2 : Fin 4) * 192 + 1 * (j 2).val = win0_1.index t (2 : Fin 4) * 192 + 1 * (j 2).val; omega
    | ⟨3, _⟩ => show win0_0.index t (3 : Fin 4) * 192 + 1 * (j 3).val = win0_1.index t (3 : Fin 4) * 192 + 1 * (j 3).val; omega
  exact max_congr_index (V c main_v0) _ _ h0

/-- An index of the output array is in point `t`'s block iff each coordinate is in the block's range on its axis. -/
theorem mem_blk0 (t : Fin cfg0.N) (i : S16x16x192x192.Idx) :
    i ∈ ((cfg0.win 1).blk t).view.set ↔ ∀ a : Fin 4, win0_1.index t a * S2x16x192x192.size a ≤ (i a).val
      ∧ (i a).val < win0_1.index t a * S2x16x192x192.size a + S2x16x192x192.size a := by
  show i ∈ ((View.whole main_v1).slice (win0_1.rect t)).set ↔ _
  rw [View.set_slice_whole, Rect.mem_set_unit]
  exact Iff.rfl

/-- The blocks tile the output array: batch row `n` is in the block of point `n / 2`. -/
theorem cover0 (i : S16x16x192x192.Idx) :
    ∃ t : Fin cfg0.N, (cfg0.win 1).flush t = true ∧ i ∈ ((cfg0.win 1).blk t).view.set := by
  have hi0 : (i 0).val < 16 := (i 0).isLt
  have hi1 : (i 1).val < 16 := (i 1).isLt
  have hi2 : (i 2).val < 192 := (i 2).isLt
  have hi3 : (i 3).val < 192 := (i 3).isLt
  obtain ⟨t, ht⟩ := index_onto0 ⟨(i 0).val / 2, by omega⟩
  have q0 : win0_1.index t (0 : Fin 4) = (i 0).val / 2 := congrFun ht 0
  have q1 : win0_1.index t (1 : Fin 4) = 0 := congrFun ht 1
  have q2 : win0_1.index t (2 : Fin 4) = 0 := congrFun ht 2
  have q3 : win0_1.index t (3 : Fin 4) = 0 := congrFun ht 3
  refine ⟨t, flush0_1 t, ?_⟩
  rw [mem_blk0]
  intro a
  match a with
  | ⟨0, _⟩ => show win0_1.index t (0 : Fin 4) * 2 ≤ (i 0).val ∧ (i 0).val < win0_1.index t (0 : Fin 4) * 2 + 2; omega
  | ⟨1, _⟩ => show win0_1.index t (1 : Fin 4) * 16 ≤ (i 1).val ∧ (i 1).val < win0_1.index t (1 : Fin 4) * 16 + 16; omega
  | ⟨2, _⟩ => show win0_1.index t (2 : Fin 4) * 192 ≤ (i 2).val ∧ (i 2).val < win0_1.index t (2 : Fin 4) * 192 + 192; omega
  | ⟨3, _⟩ => show win0_1.index t (3 : Fin 4) * 192 ≤ (i 3).val ∧ (i 3).val < win0_1.index t (3 : Fin 4) * 192 + 192; omega

/-- After the run the output array is the gate (blocks of one pixel: the positive part) of the input array as the region
    found it. -/
theorem arr0 (c : Dev nD)
    (h46 : (S4 16 16 192 192).ShapeCasts (T6 16 16 192 1 192)) (h64 : (T6 16 16 192 1 192).ShapeCasts (S4 16 16 192 192)) :
    (dat0 (F := Ideal) V c).arrAt 1 cfg0.N = gate4 h46 h64 (V c main_v0) :=
  (dat0 (F := Ideal) V c).arrAt_eq_of_cover 1 (gate4 h46 h64 (V c main_v0)) (fun t _ => flushed0_eq V c h46 h64 t) cover0

end Cert.KernelIdeal.Hand

end
-- ==== Proof.LibGateKernel.lean ====
/-
  The kernel's chain of vector operations on the images cut in blocks is the block gate.
-/
import proofs.«175499_j1357209666244_1_alg».proof.Proof.LibGate
import Idealize.ShloMosaic.PureOps.Ideal.Laws
import Idealize.ShloMosaic.Lib.Pipeline.Value

noncomputable section

namespace Idealize.ShloMosaic.BlockGate

open Idealize.ShloMosaic Idealize.ShloMosaic.ValueIdx

variable {N C P b Q : ℕ}

/-- The index over `(n, c, p, i, q)` with last coordinate `k` inserted is `(n, c, p, i, q, k)`. -/
theorem lift5 (h5 : (T6 N C P b Q).Reduces [5] (T5 N C P b Q)) (n : Fin N) (c : Fin C) (p : Fin P) (i : Fin b)
    (q : Fin Q) (k : Fin b) : h5.lift (ix5 n c p i q) k = ix6 n c p i q k := by
  funext g
  refine Fin.ext ?_
  match g with
  | ⟨0, _⟩ => rfl
  | ⟨1, _⟩ => rfl
  | ⟨2, _⟩ => rfl
  | ⟨3, _⟩ => rfl
  | ⟨4, _⟩ => rfl
  | ⟨5, _⟩ => rfl

/-- The index over `(n, c, p, q)` with the block-row coordinate `i` inserted is `(n, c, p, i, q)`. -/
theorem lift3 (h3 : (T5 N C P b Q).Reduces [3] (R4 N C P Q)) (n : Fin N) (c : Fin C) (p : Fin P) (q : Fin Q)
    (i : Fin b) : h3.lift (ix4 n c p q) i = ix5 n c p i q := by
  funext g
  refine Fin.ext ?_
  match g with
  | ⟨0, _⟩ => rfl
  | ⟨1, _⟩ => rfl
  | ⟨2, _⟩ => rfl
  | ⟨3, _⟩ => rfl
  | ⟨4, _⟩ => rfl

/-- The two sums, read at `(n, c, p, q)`: the sum of the block. -/
theorem sums_apply (v2 : FVec Ideal (T6 N C P b Q) .f32)
    (h5 : (T6 N C P b Q).Reduces [5] (T5 N C P b Q)) (h3 : (T5 N C P b Q).Reduces [3] (R4 N C P Q))
    (hφ : FKind.Formats .f32) (hacc : (0x00000000#32 : BitVec (FTy.f32).bits) = FKind.add.neutral .f32 hφ)
    (hφ' : FKind.Formats .f32) (hacc' : (0x00000000#32 : BitVec (FTy.f32).bits) = FKind.add.neutral .f32 hφ')
    (n : Fin N) (c : Fin C) (p : Fin P) (q : Fin Q) :
    multiReduction .add [3] (R4 N C P Q) (multiReduction .add [5] (T5 N C P b Q) v2 0x00000000#32 h5 hφ hacc)
        0x00000000#32 h3 hφ' hacc' (ix4 n c p q)
      = ∑ i' : Fin b, ∑ j' : Fin b, v2 (ix6 n c p i' q j') := by
  refine (Ideal.multiReduction_add_single _ _ h3 hφ' hacc' (ix4 n c p q)).trans ?_
  show ∑ i' : Fin b, multiReduction .add [5] (T5 N C P b Q) v2 0x00000000#32 h5 hφ hacc (h3.lift (ix4 n c p q) i') = _
  refine Finset.sum_congr rfl fun i' _ => ?_
  rw [lift3]
  refine (Ideal.multiReduction_add_single _ _ h5 hφ hacc (ix5 n c p i' q)).trans ?_
  show ∑ j' : Fin b, v2 (h5.lift (ix5 n c p i' q) j') = _
  refine Finset.sum_congr rfl fun j' _ => ?_
  rw [lift5]

/-- The bit of a comparison, widened to a word and read as a signed integer, is one or zero. -/
theorem bit01 (s : EReal) :
    FloatOps.sitofp (F := Ideal) .f32 ((FloatOps.cmpf (F := Ideal) (φ := .f32) .ogt s (Ideal.ofBits .f32 0x00000000#32)).setWidth 32)
      = pos01 s := by
  rw [Ideal.ofBits_zero_f32, Ideal.cmpf_def]
  unfold pos01 Ideal.cmp
  by_cases hs : (0 : EReal) < s
  · simp only [hs, decide_true, BitVec.ofBool_true]
    show (((((1#1 : BitVec 1).setWidth 32).toInt : ℝ) : EReal)) = if True then 1 else 0
    have e : ((1#1 : BitVec 1).setWidth 32).toInt = 1 := by decide
    rw [e, if_pos trivial]
    simp
  · simp only [hs, decide_false, BitVec.ofBool_false]
    show (((((0#1 : BitVec 1).setWidth 32).toInt : ℝ) : EReal)) = if False then 1 else 0
    have e : ((0#1 : BitVec 1).setWidth 32).toInt = 0 := by decide
    rw [e, if_neg not_false]
    simp

/-- Summing the last axis, then the block's rows; comparing with zero; widening the bit to a word and the word to a
    float; reshaping to unit axes and broadcasting over the block; multiplying: the gate. -/
theorem kernel_chain (v2 : FVec Ideal (T6 N C P b Q) .f32)
    (h5 : (T6 N C P b Q).Reduces [5] (T5 N C P b Q)) (h3 : (T5 N C P b Q).Reduces [3] (R4 N C P Q))
    (hφ : FKind.Formats .f32) (hacc : (0x00000000#32 : BitVec (FTy.f32).bits) = FKind.add.neutral .f32 hφ)
    (hφ' : FKind.Formats .f32) (hacc' : (0x00000000#32 : BitVec (FTy.f32).bits) = FKind.add.neutral .f32 hφ')
    (hlt : 1 < 32)
    (hc1 : (R4 N C P Q).ShapeCasts (U6 N C P Q)) (hc2 : (U6 N C P Q).ShapeCasts (U6 N C P Q))
    (hb : (U6 N C P Q).Broadcasts (T6 N C P b Q)) :
    mulf v2 (broadcastTo (T6 N C P b Q)
      (shapeCast (U6 N C P Q) (shapeCast (U6 N C P Q)
        (sitofp (F := Ideal) .f32 (extui 32 (cmpf .ogt
          (multiReduction .add [3] (R4 N C P Q) (multiReduction .add [5] (T5 N C P b Q) v2 0x00000000#32 h5 hφ hacc) 0x00000000#32 h3 hφ' hacc')
          (broadcast (R4 N C P Q) (Scalar.ofBits (F := Ideal) .f32 0x00000000#32))) hlt)) hc1) hc2) hb)
    = gate6 v2 := by
  funext j
  obtain ⟨n, c, p, i, q, k, rfl⟩ : ∃ (n : Fin N) (c : Fin C) (p : Fin P) (i : Fin b) (q : Fin Q) (k : Fin b), j = ix6 n c p i q k :=
    ⟨_, _, _, _, _, _, eq_ix6 j⟩
  rw [mulf_apply]
  show _ = v2 (ix6 n c p i q k) * pos01 (∑ i' : Fin b, ∑ j' : Fin b, v2 (ix6 n c p i' q j'))
  congr 1
  rw [shapeCast_self]
  rw [broadcastTo_apply _ hb (ix6 n c p i q k) (ix6 n c p (0 : Fin 1) q (0 : Fin 1)) (by
    intro a
    match a with
    | ⟨0, _⟩ =>
      show n.val = if N = 1 then 0 else n.val
      split
      · have := n.isLt; omega
      · rfl
    | ⟨1, _⟩ =>
      show c.val = if C = 1 then 0 else c.val
      split
      · have := c.isLt; omega
      · rfl
    | ⟨2, _⟩ =>
      show p.val = if P = 1 then 0 else p.val
      split
      · have := p.isLt; omega
      · rfl
    | ⟨3, _⟩ => rfl
    | ⟨4, _⟩ =>
      show q.val = if Q = 1 then 0 else q.val
      split
      · have := q.isLt; omega
      · rfl
    | ⟨5, _⟩ => rfl)]
  rw [shapeCast_apply _ hc1 (ix6 n c p (0 : Fin 1) q (0 : Fin 1)) (ix4 n c p q) (by
    rw [Shape.rowMajor_val_four, Shape.rowMajor_val_six]
    show ((n.val * C + c.val) * P + p.val) * Q + q.val
      = ((((n.val * C + c.val) * P + p.val) * 1 + 0) * Q + q.val) * 1 + 0
    rw [Nat.mul_one, Nat.add_zero, Nat.mul_one, Nat.add_zero])]
  rw [sitofp_apply, extui_apply, cmpf_apply, broadcast_apply, sums_apply]
  exact bit01 _

end Idealize.ShloMosaic.BlockGate

end
-- ==== Proof.KI.Val1.lean ====
/-
  Region 1 at the ideal instance: what its output array holds after the run. Each grid point gates two images' worth of
  channels block by block (blocks of 2 × 2 pixels); the points' write-backs tile the array along the batch axis, and the gate
  acts on each image separately, so the array ends at the gate of the whole input array.
-/
import proofs.«175499_j1357209666244_1_alg».proof.Proof.KI.Body1
import proofs.«175499_j1357209666244_1_alg».proof.Proof.LibGate
import proofs.«175499_j1357209666244_1_alg».proof.Proof.LibGateKernel
import proofs.«175499_j1357209666244_1_alg».proof.Proof.LibGateRead
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.BlockGate
open Idealize.SL Idealize.SL.Sem
open Idealize.ShloMosaic.Pipeline (Dat)

variable (V : (c : Dev nD) → (b : Ref sig .tc) → Buf (Elt Ideal) ((c : Thread nD τ).loc b))

/-- The body's payload is the gate of the loaded block. -/
theorem pay1_eq (v0 : Vec Ideal S2x16x192x192 .f32)
    (h46 : (S4 2 16 192 192).ShapeCasts (T6 2 16 96 2 96)) (h64 : (T6 2 16 96 2 96).ShapeCasts (S4 2 16 192 192)) :
    k1_pay1 (F := Ideal) v0 = gate4 h46 h64 v0 := by
  unfold k1_pay1
  rw [shapeCast_self]
  exact congrArg (fun z => shapeCast _ z _) (BlockGate.kernel_chain _ _ _ _ _ _ _ _ _ _ _)

/-- The whole-buffer rectangle's offsets are zero on every axis. -/
theorem zeroOff4 : (![0, 0, 0, 0] : Fin 4 → Nat) = fun _ => 0 := funext fun a => by fin_cases a <;> rfl

/-- The gate acts on each image by itself: if a stack of two images is two rows (along the batch axis) of a stack of
    sixteen, row `n'` being row `e n'`, then the gate of the small stack at a pixel of row `n'` is the gate of the large
    stack at the same pixel of row `e n'` — the pixel and the 2 × 2 block around it are the same numbers on both sides. -/
theorem gate4_rows
    (h46' : (S4 2 16 192 192).ShapeCasts (T6 2 16 96 2 96)) (h64' : (T6 2 16 96 2 96).ShapeCasts (S4 2 16 192 192))
    (h46 : (S4 16 16 192 192).ShapeCasts (T6 16 16 96 2 96)) (h64 : (T6 16 16 96 2 96).ShapeCasts (S4 16 16 192 192))
    (x0 : (S4 2 16 192 192).Idx → EReal) (A : (S4 16 16 192 192).Idx → EReal) (e : Fin 2 → Fin 16)
    (hx : ∀ (n' : Fin 2) (ch : Fin 16) (h w : Fin 192), x0 (ix4 n' ch h w) = A (ix4 (e n') ch h w))
    (n' : Fin 2) (ch : Fin 16) (h w : Fin 192) :
    gate4 h46' h64' x0 (ix4 n' ch h w) = gate4 h46 h64 A (ix4 (e n') ch h w) := by
  rw [gate4_apply (P := 96) (b := 2) (Q := 96) rfl rfl h46' h64' x0 n' ch h w,
    gate4_apply (P := 96) (b := 2) (Q := 96) rfl rfl h46 h64 A (e n') ch h w, hx]
  congr 2
  exact Finset.sum_congr rfl fun i' _ => Finset.sum_congr rfl fun j' _ => hx _ _ _ _

/-- The printed index maps, decided over the grid: point `t`'s block, of either window, is block `t` along the batch
    axis and block 0 along the others. -/
theorem idx_rows : ∀ t : Fin cfg1.N,
    win1_0.index t (0 : Fin 4) = t.val ∧ win1_0.index t (1 : Fin 4) = 0 ∧ win1_0.index t (2 : Fin 4) = 0
    ∧ win1_0.index t (3 : Fin 4) = 0
    ∧ win1_1.index t (0 : Fin 4) = t.val ∧ win1_1.index t (1 : Fin 4) = 0 ∧ win1_1.index t (2 : Fin 4) = 0
    ∧ win1_1.index t (3 : Fin 4) = 0 :=
  (by decide +kernel : ∀ t : Fin grid1.N, _)

/-- Row `n'` of point `t`'s block is row `2t + n'` of the array. -/
def rowOf (t : Fin cfg1.N) (n' : Fin 2) : Fin 16 :=
  ⟨t.val * 2 + n'.val, by have ht : t.val < 8 := t.isLt; have hn : n'.val < 2 := n'.isLt; omega⟩

/-- Where an element of point `t`'s block of the input sits in its array. -/
theorem emb_in (t : Fin cfg1.N) (n' : Fin 2) (ch : Fin 16) (h w : Fin 192) :
    ((cfg1.win 0).blk t).view.emb (ix4 n' ch h w) = ix4 (rowOf t n') ch h w := by
  obtain ⟨e0, e1, e2, e3, -, -, -, -⟩ := idx_rows t
  funext a; apply Fin.ext
  match a with
  | ⟨0, _⟩ => show win1_0.index t (0 : Fin 4) * 2 + 1 * n'.val = t.val * 2 + n'.val; rw [e0]; omega
  | ⟨1, _⟩ => show win1_0.index t (1 : Fin 4) * 16 + 1 * ch.val = ch.val; rw [e1]; omega
  | ⟨2, _⟩ => show win1_0.index t (2 : Fin 4) * 192 + 1 * h.val = h.val; rw [e2]; omega
  | ⟨3, _⟩ => show win1_0.index t (3 : Fin 4) * 192 + 1 * w.val = w.val; rw [e3]; omega

/-- Where an element of point `t`'s block of the output sits in its array. -/
theorem emb_out (t : Fin cfg1.N) (n' : Fin 2) (ch : Fin 16) (h w : Fin 192) :
    ((cfg1.win 1).blk t).view.emb (ix4 n' ch h w) = ix4 (rowOf t n') ch h w := by
  obtain ⟨-, -, -, -, e0, e1, e2, e3⟩ := idx_rows t
  funext a; apply Fin.ext
  match a with
  | ⟨0, _⟩ => show win1_1.index t (0 : Fin 4) * 2 + 1 * n'.val = t.val * 2 + n'.val; rw [e0]; omega
  | ⟨1, _⟩ => show win1_1.index t (1 : Fin 4) * 16 + 1 * ch.val = ch.val; rw [e1]; omega
  | ⟨2, _⟩ => show win1_1.index t (2 : Fin 4) * 192 + 1 * h.val = h.val; rw [e2]; omega
  | ⟨3, _⟩ => show win1_1.index t (3 : Fin 4) * 192 + 1 * w.val = w.val; rw [e3]; omega

/-- The input block at point `t`, read at an element: the array at that element's place. -/
theorem iblk1_apply (c : Dev nD) (t : Fin cfg1.N) (n' : Fin 2) (ch : Fin 16) (h w : Fin 192) :
    (iblk1 (F := Ideal) V c 0 t : Vec Ideal S2x16x192x192 .f32) (ix4 n' ch h w)
      = (V c main_v2 : S16x16x192x192.Idx → EReal) (ix4 (rowOf t n') ch h w) := by
  unfold iblk1
  rw [View.read_apply]
  show V c main_v2 (((cfg1.win 0).blk t).view.emb (ix4 n' ch h w)) = V c main_v2 _
  rw [emb_in]

/-- What point `t` writes back is block `t` of the gate of the whole input array. -/
theorem flushed1_eq (c : Dev nD)
    (h46 : (S4 16 16 192 192).ShapeCasts (T6 16 16 96 2 96)) (h64 : (T6 16 16 96 2 96).ShapeCasts (S4 16 16 192 192))
    (t : Fin cfg1.N) :
    (dat1 (F := Ideal) V c).flushed 1 t
      = ((cfg1.win 1).blk t).view.read (Elt Ideal) (gate4 h46 h64 (V c main_v2)) := by
  show (cfg1.win 1).cut (grid1.coords t) ((dat1 (F := Ideal) V c).after 1 t) = _
  rw [after1_1]
  unfold out1_1
  rw [View.canon_unit_zero zeroOff4]
  simp only [View.ld_unit_zero (S := S2x16x192x192) zeroOff4]
  rw [pay1_eq _ Facts₀.shapeCasts_S2x16x192x192_S2x16x96x2x96x2 Facts₀.shapeCasts_S2x16x96x2x96x2_S2x16x192x192]
  funext j
  show gate4 _ _ (iblk1 (F := Ideal) V c 0 t) j = gate4 h46 h64 (V c main_v2) (((cfg1.win 1).blk t).view.emb j)
  obtain ⟨n', ch, h, w, rfl⟩ : ∃ (n' : Fin 2) (ch : Fin 16) (h w : Fin 192), j = ix4 n' ch h w :=
    ⟨j 0, j 1, j 2, j 3, eq_ix4 j⟩
  rw [emb_out]
  exact gate4_rows _ _ h46 h64 _ _ (rowOf t) (iblk1_apply V c t) n' ch h w

/-- An index of the array is in point `t`'s block iff each coordinate is in the block's range on its axis. -/
theorem mem_blk1 (t : Fin cfg1.N) (i : S16x16x192x192.Idx) :
    i ∈ ((cfg1.win 1).blk t).view.set ↔ ∀ a : Fin 4, win1_1.index t a * S2x16x192x192.size a ≤ (i a).val
      ∧ (i a).val < win1_1.index t a * S2x16x192x192.size a + S2x16x192x192.size a := by
  show i ∈ ((View.whole main_v3).slice (win1_1.rect t)).set ↔ _
  rw [View.set_slice_whole, Rect.mem_set_unit]
  exact Iff.rfl

/-- The blocks tile the array along the batch axis: row `r` is in the block of point `r / 2`. -/
theorem cover1 (i : S16x16x192x192.Idx) :
    ∃ t : Fin cfg1.N, (cfg1.win 1).flush t = true ∧ i ∈ ((cfg1.win 1).blk t).view.set := by
  have hi0 : (i 0).val < 16 := (i 0).isLt
  have hi1 : (i 1).val < 16 := (i 1).isLt
  have hi2 : (i 2).val < 192 := (i 2).isLt
  have hi3 : (i 3).val < 192 := (i 3).isLt
  let t : Fin cfg1.N := ⟨(i 0).val / 2, by show (i 0).val / 2 < 8; omega⟩
  have ht : t.val = (i 0).val / 2 := rfl
  obtain ⟨-, -, -, -, e0, e1, e2, e3⟩ := idx_rows t
  refine ⟨t, flush1_1 t, ?_⟩
  rw [mem_blk1]
  intro a
  match a with
  | ⟨0, _⟩ => show win1_1.index t (0 : Fin 4) * 2 ≤ (i 0).val ∧ (i 0).val < win1_1.index t (0 : Fin 4) * 2 + 2; rw [e0, ht]; omega
  | ⟨1, _⟩ => show win1_1.index t (1 : Fin 4) * 16 ≤ (i 1).val ∧ (i 1).val < win1_1.index t (1 : Fin 4) * 16 + 16; rw [e1]; omega
  | ⟨2, _⟩ => show win1_1.index t (2 : Fin 4) * 192 ≤ (i 2).val ∧ (i 2).val < win1_1.index t (2 : Fin 4) * 192 + 192; rw [e2]; omega
  | ⟨3, _⟩ => show win1_1.index t (3 : Fin 4) * 192 ≤ (i 3).val ∧ (i 3).val < win1_1.index t (3 : Fin 4) * 192 + 192; rw [e3]; omega

/-- After the run the output array is the gate of the input array as the region found it. -/
theorem arr1 (c : Dev nD)
    (h46 : (S4 16 16 192 192).ShapeCasts (T6 16 16 96 2 96)) (h64 : (T6 16 16 96 2 96).ShapeCasts (S4 16 16 192 192)) :
    (dat1 (F := Ideal) V c).arrAt 1 cfg1.N = gate4 h46 h64 (V c main_v2) :=
  (dat1 (F := Ideal) V c).arrAt_eq_of_cover 1 (gate4 h46 h64 (V c main_v2))
    (fun t _ => flushed1_eq V c h46 h64 t) cover1

end Cert.KernelIdeal.Hand

end
-- ==== Proof.KI.Val2.lean ====
/-
  Region 2 at the ideal instance: what its output array holds after the run. Each grid point gates two images' worth of
  channels block by block (blocks of 4 × 4 pixels); the points' write-backs tile the array along the batch axis, and the gate
  acts on each image separately, so the array ends at the gate of the whole input array.
-/
import proofs.«175499_j1357209666244_1_alg».proof.Proof.KI.Body2
import proofs.«175499_j1357209666244_1_alg».proof.Proof.LibGate
import proofs.«175499_j1357209666244_1_alg».proof.Proof.LibGateKernel
import proofs.«175499_j1357209666244_1_alg».proof.Proof.LibGateRead
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.BlockGate
open Idealize.SL Idealize.SL.Sem
open Idealize.ShloMosaic.Pipeline (Dat)

variable (V : (c : Dev nD) → (b : Ref sig .tc) → Buf (Elt Ideal) ((c : Thread nD τ).loc b))

/-- The body's payload is the gate of the loaded block. -/
theorem pay2_eq (v0 : Vec Ideal S2x16x192x192 .f32)
    (h46 : (S4 2 16 192 192).ShapeCasts (T6 2 16 48 4 48)) (h64 : (T6 2 16 48 4 48).ShapeCasts (S4 2 16 192 192)) :
    k2_pay1 (F := Ideal) v0 = gate4 h46 h64 v0 := by
  unfold k2_pay1
  rw [shapeCast_self]
  exact congrArg (fun z => shapeCast _ z _) (BlockGate.kernel_chain _ _ _ _ _ _ _ _ _ _ _)

/-- The whole-buffer rectangle's offsets are zero on every axis. -/
theorem zeroOff4_r2 : (![0, 0, 0, 0] : Fin 4 → Nat) = fun _ => 0 := funext fun a => by fin_cases a <;> rfl

/-- The gate acts on each image by itself: if a stack of two images is two rows (along the batch axis) of a stack of
    sixteen, row `n'` being row `e n'`, then the gate of the small stack at a pixel of row `n'` is the gate of the large
    stack at the same pixel of row `e n'` — the pixel and the 4 × 4 block around it are the same numbers on both sides. -/
theorem gate4_rows_r2
    (h46' : (S4 2 16 192 192).ShapeCasts (T6 2 16 48 4 48)) (h64' : (T6 2 16 48 4 48).ShapeCasts (S4 2 16 192 192))
    (h46 : (S4 16 16 192 192).ShapeCasts (T6 16 16 48 4 48)) (h64 : (T6 16 16 48 4 48).ShapeCasts (S4 16 16 192 192))
    (x0 : (S4 2 16 192 192).Idx → EReal) (A : (S4 16 16 192 192).Idx → EReal) (e : Fin 2 → Fin 16)
    (hx : ∀ (n' : Fin 2) (ch : Fin 16) (h w : Fin 192), x0 (ix4 n' ch h w) = A (ix4 (e n') ch h w))
    (n' : Fin 2) (ch : Fin 16) (h w : Fin 192) :
    gate4 h46' h64' x0 (ix4 n' ch h w) = gate4 h46 h64 A (ix4 (e n') ch h w) := by
  rw [gate4_apply (P := 48) (b := 4) (Q := 48) rfl rfl h46' h64' x0 n' ch h w,
    gate4_apply (P := 48) (b := 4) (Q := 48) rfl rfl h46 h64 A (e n') ch h w, hx]
  congr 2
  exact Finset.sum_congr rfl fun i' _ => Finset.sum_congr rfl fun j' _ => hx _ _ _ _

/-- The printed index maps, decided over the grid: point `t`'s block, of either window, is block `t` along the batch
    axis and block 0 along the others. -/
theorem idx_rows_r2 : ∀ t : Fin cfg2.N,
    win2_0.index t (0 : Fin 4) = t.val ∧ win2_0.index t (1 : Fin 4) = 0 ∧ win2_0.index t (2 : Fin 4) = 0
    ∧ win2_0.index t (3 : Fin 4) = 0
    ∧ win2_1.index t (0 : Fin 4) = t.val ∧ win2_1.index t (1 : Fin 4) = 0 ∧ win2_1.index t (2 : Fin 4) = 0
    ∧ win2_1.index t (3 : Fin 4) = 0 :=
  (by decide +kernel : ∀ t : Fin grid2.N, _)

/-- Row `n'` of point `t`'s block is row `2t + n'` of the array. -/
def rowOf_r2 (t : Fin cfg2.N) (n' : Fin 2) : Fin 16 :=
  ⟨t.val * 2 + n'.val, by have ht : t.val < 8 := t.isLt; have hn : n'.val < 2 := n'.isLt; omega⟩

/-- Where an element of point `t`'s block of the input sits in its array. -/
theorem emb_in_r2 (t : Fin cfg2.N) (n' : Fin 2) (ch : Fin 16) (h w : Fin 192) :
    ((cfg2.win 0).blk t).view.emb (ix4 n' ch h w) = ix4 (rowOf_r2 t n') ch h w := by
  obtain ⟨e0, e1, e2, e3, -, -, -, -⟩ := idx_rows_r2 t
  funext a; apply Fin.ext
  match a with
  | ⟨0, _⟩ => show win2_0.index t (0 : Fin 4) * 2 + 1 * n'.val = t.val * 2 + n'.val; rw [e0]; omega
  | ⟨1, _⟩ => show win2_0.index t (1 : Fin 4) * 16 + 1 * ch.val = ch.val; rw [e1]; omega
  | ⟨2, _⟩ => show win2_0.index t (2 : Fin 4) * 192 + 1 * h.val = h.val; rw [e2]; omega
  | ⟨3, _⟩ => show win2_0.index t (3 : Fin 4) * 192 + 1 * w.val = w.val; rw [e3]; omega

/-- Where an element of point `t`'s block of the output sits in its array. -/
theorem emb_out_r2 (t : Fin cfg2.N) (n' : Fin 2) (ch : Fin 16) (h w : Fin 192) :
    ((cfg2.win 1).blk t).view.emb (ix4 n' ch h w) = ix4 (rowOf_r2 t n') ch h w := by
  obtain ⟨-, -, -, -, e0, e1, e2, e3⟩ := idx_rows_r2 t
  funext a; apply Fin.ext
  match a with
  | ⟨0, _⟩ => show win2_1.index t (0 : Fin 4) * 2 + 1 * n'.val = t.val * 2 + n'.val; rw [e0]; omega
  | ⟨1, _⟩ => show win2_1.index t (1 : Fin 4) * 16 + 1 * ch.val = ch.val; rw [e1]; omega
  | ⟨2, _⟩ => show win2_1.index t (2 : Fin 4) * 192 + 1 * h.val = h.val; rw [e2]; omega
  | ⟨3, _⟩ => show win2_1.index t (3 : Fin 4) * 192 + 1 * w.val = w.val; rw [e3]; omega

/-- The input block at point `t`, read at an element: the array at that element's place. -/
theorem iblk2_apply (c : Dev nD) (t : Fin cfg2.N) (n' : Fin 2) (ch : Fin 16) (h w : Fin 192) :
    (iblk2 (F := Ideal) V c 0 t : Vec Ideal S2x16x192x192 .f32) (ix4 n' ch h w)
      = (V c main_v4 : S16x16x192x192.Idx → EReal) (ix4 (rowOf_r2 t n') ch h w) := by
  unfold iblk2
  rw [View.read_apply]
  show V c main_v4 (((cfg2.win 0).blk t).view.emb (ix4 n' ch h w)) = V c main_v4 _
  rw [emb_in_r2]

/-- What point `t` writes back is block `t` of the gate of the whole input array. -/
theorem flushed2_eq (c : Dev nD)
    (h46 : (S4 16 16 192 192).ShapeCasts (T6 16 16 48 4 48)) (h64 : (T6 16 16 48 4 48).ShapeCasts (S4 16 16 192 192))
    (t : Fin cfg2.N) :
    (dat2 (F := Ideal) V c).flushed 1 t
      = ((cfg2.win 1).blk t).view.read (Elt Ideal) (gate4 h46 h64 (V c main_v4)) := by
  show (cfg2.win 1).cut (grid2.coords t) ((dat2 (F := Ideal) V c).after 1 t) = _
  rw [after2_1]
  unfold out2_1
  rw [View.canon_unit_zero zeroOff4_r2]
  simp only [View.ld_unit_zero (S := S2x16x192x192) zeroOff4_r2]
  rw [pay2_eq _ Facts₀.shapeCasts_S2x16x192x192_S2x16x48x4x48x4 Facts₀.shapeCasts_S2x16x48x4x48x4_S2x16x192x192]
  funext j
  show gate4 _ _ (iblk2 (F := Ideal) V c 0 t) j = gate4 h46 h64 (V c main_v4) (((cfg2.win 1).blk t).view.emb j)
  obtain ⟨n', ch, h, w, rfl⟩ : ∃ (n' : Fin 2) (ch : Fin 16) (h w : Fin 192), j = ix4 n' ch h w :=
    ⟨j 0, j 1, j 2, j 3, eq_ix4 j⟩
  rw [emb_out_r2]
  exact gate4_rows_r2 _ _ h46 h64 _ _ (rowOf_r2 t) (iblk2_apply V c t) n' ch h w

/-- An index of the array is in point `t`'s block iff each coordinate is in the block's range on its axis. -/
theorem mem_blk2 (t : Fin cfg2.N) (i : S16x16x192x192.Idx) :
    i ∈ ((cfg2.win 1).blk t).view.set ↔ ∀ a : Fin 4, win2_1.index t a * S2x16x192x192.size a ≤ (i a).val
      ∧ (i a).val < win2_1.index t a * S2x16x192x192.size a + S2x16x192x192.size a := by
  show i ∈ ((View.whole main_v5).slice (win2_1.rect t)).set ↔ _
  rw [View.set_slice_whole, Rect.mem_set_unit]
  exact Iff.rfl

/-- The blocks tile the array along the batch axis: row `r` is in the block of point `r / 2`. -/
theorem cover2 (i : S16x16x192x192.Idx) :
    ∃ t : Fin cfg2.N, (cfg2.win 1).flush t = true ∧ i ∈ ((cfg2.win 1).blk t).view.set := by
  have hi0 : (i 0).val < 16 := (i 0).isLt
  have hi1 : (i 1).val < 16 := (i 1).isLt
  have hi2 : (i 2).val < 192 := (i 2).isLt
  have hi3 : (i 3).val < 192 := (i 3).isLt
  let t : Fin cfg2.N := ⟨(i 0).val / 2, by show (i 0).val / 2 < 8; omega⟩
  have ht : t.val = (i 0).val / 2 := rfl
  obtain ⟨-, -, -, -, e0, e1, e2, e3⟩ := idx_rows_r2 t
  refine ⟨t, flush2_1 t, ?_⟩
  rw [mem_blk2]
  intro a
  match a with
  | ⟨0, _⟩ => show win2_1.index t (0 : Fin 4) * 2 ≤ (i 0).val ∧ (i 0).val < win2_1.index t (0 : Fin 4) * 2 + 2; rw [e0, ht]; omega
  | ⟨1, _⟩ => show win2_1.index t (1 : Fin 4) * 16 ≤ (i 1).val ∧ (i 1).val < win2_1.index t (1 : Fin 4) * 16 + 16; rw [e1]; omega
  | ⟨2, _⟩ => show win2_1.index t (2 : Fin 4) * 192 ≤ (i 2).val ∧ (i 2).val < win2_1.index t (2 : Fin 4) * 192 + 192; rw [e2]; omega
  | ⟨3, _⟩ => show win2_1.index t (3 : Fin 4) * 192 ≤ (i 3).val ∧ (i 3).val < win2_1.index t (3 : Fin 4) * 192 + 192; rw [e3]; omega

/-- After the run the output array is the gate of the input array as the region found it. -/
theorem arr2 (c : Dev nD)
    (h46 : (S4 16 16 192 192).ShapeCasts (T6 16 16 48 4 48)) (h64 : (T6 16 16 48 4 48).ShapeCasts (S4 16 16 192 192)) :
    (dat2 (F := Ideal) V c).arrAt 1 cfg2.N = gate4 h46 h64 (V c main_v4) :=
  (dat2 (F := Ideal) V c).arrAt_eq_of_cover 1 (gate4 h46 h64 (V c main_v4))
    (fun t _ => flushed2_eq V c h46 h64 t) cover2

end Cert.KernelIdeal.Hand

end
-- ==== Proof.KI.Val3.lean ====
/-
  Region 3 at the ideal instance: what its output array holds after the run. Each grid point gates two images' worth of
  channels block by block (blocks of 8 × 8 pixels); the points' write-backs tile the array along the batch axis, and the gate
  acts on each image separately, so the array ends at the gate of the whole input array.
-/
import proofs.«175499_j1357209666244_1_alg».proof.Proof.KI.Body3
import proofs.«175499_j1357209666244_1_alg».proof.Proof.LibGate
import proofs.«175499_j1357209666244_1_alg».proof.Proof.LibGateKernel
import proofs.«175499_j1357209666244_1_alg».proof.Proof.LibGateRead
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.BlockGate
open Idealize.SL Idealize.SL.Sem
open Idealize.ShloMosaic.Pipeline (Dat)

variable (V : (c : Dev nD) → (b : Ref sig .tc) → Buf (Elt Ideal) ((c : Thread nD τ).loc b))

/-- The body's payload is the gate of the loaded block. -/
theorem pay3_eq (v0 : Vec Ideal S2x8x192x192 .f32)
    (h46 : (S4 2 8 192 192).ShapeCasts (T6 2 8 24 8 24)) (h64 : (T6 2 8 24 8 24).ShapeCasts (S4 2 8 192 192)) :
    k3_pay1 (F := Ideal) v0 = gate4 h46 h64 v0 := by
  unfold k3_pay1
  rw [shapeCast_self]
  exact congrArg (fun z => shapeCast _ z _) (BlockGate.kernel_chain _ _ _ _ _ _ _ _ _ _ _)

/-- The whole-buffer rectangle's offsets are zero on every axis. -/
theorem zeroOff4_r3 : (![0, 0, 0, 0] : Fin 4 → Nat) = fun _ => 0 := funext fun a => by fin_cases a <;> rfl

/-- The gate acts on each image by itself: if a stack of two images is two rows (along the batch axis) of a stack of
    sixteen, row `n'` being row `e n'`, then the gate of the small stack at a pixel of row `n'` is the gate of the large
    stack at the same pixel of row `e n'` — the pixel and the 8 × 8 block around it are the same numbers on both sides. -/
theorem gate4_rows_r3
    (h46' : (S4 2 8 192 192).ShapeCasts (T6 2 8 24 8 24)) (h64' : (T6 2 8 24 8 24).ShapeCasts (S4 2 8 192 192))
    (h46 : (S4 16 8 192 192).ShapeCasts (T6 16 8 24 8 24)) (h64 : (T6 16 8 24 8 24).ShapeCasts (S4 16 8 192 192))
    (x0 : (S4 2 8 192 192).Idx → EReal) (A : (S4 16 8 192 192).Idx → EReal) (e : Fin 2 → Fin 16)
    (hx : ∀ (n' : Fin 2) (ch : Fin 8) (h w : Fin 192), x0 (ix4 n' ch h w) = A (ix4 (e n') ch h w))
    (n' : Fin 2) (ch : Fin 8) (h w : Fin 192) :
    gate4 h46' h64' x0 (ix4 n' ch h w) = gate4 h46 h64 A (ix4 (e n') ch h w) := by
  rw [gate4_apply (P := 24) (b := 8) (Q := 24) rfl rfl h46' h64' x0 n' ch h w,
    gate4_apply (P := 24) (b := 8) (Q := 24) rfl rfl h46 h64 A (e n') ch h w, hx]
  congr 2
  exact Finset.sum_congr rfl fun i' _ => Finset.sum_congr rfl fun j' _ => hx _ _ _ _

/-- The printed index maps, decided over the grid: point `t`'s block, of either window, is block `t` along the batch
    axis and block 0 along the others. -/
theorem idx_rows_r3 : ∀ t : Fin cfg3.N,
    win3_0.index t (0 : Fin 4) = t.val ∧ win3_0.index t (1 : Fin 4) = 0 ∧ win3_0.index t (2 : Fin 4) = 0
    ∧ win3_0.index t (3 : Fin 4) = 0
    ∧ win3_1.index t (0 : Fin 4) = t.val ∧ win3_1.index t (1 : Fin 4) = 0 ∧ win3_1.index t (2 : Fin 4) = 0
    ∧ win3_1.index t (3 : Fin 4) = 0 :=
  (by decide +kernel : ∀ t : Fin grid3.N, _)

/-- Row `n'` of point `t`'s block is row `2t + n'` of the array. -/
def rowOf_r3 (t : Fin cfg3.N) (n' : Fin 2) : Fin 16 :=
  ⟨t.val * 2 + n'.val, by have ht : t.val < 8 := t.isLt; have hn : n'.val < 2 := n'.isLt; omega⟩

/-- Where an element of point `t`'s block of the input sits in its array. -/
theorem emb_in_r3 (t : Fin cfg3.N) (n' : Fin 2) (ch : Fin 8) (h w : Fin 192) :
    ((cfg3.win 0).blk t).view.emb (ix4 n' ch h w) = ix4 (rowOf_r3 t n') ch h w := by
  obtain ⟨e0, e1, e2, e3, -, -, -, -⟩ := idx_rows_r3 t
  funext a; apply Fin.ext
  match a with
  | ⟨0, _⟩ => show win3_0.index t (0 : Fin 4) * 2 + 1 * n'.val = t.val * 2 + n'.val; rw [e0]; omega
  | ⟨1, _⟩ => show win3_0.index t (1 : Fin 4) * 8 + 1 * ch.val = ch.val; rw [e1]; omega
  | ⟨2, _⟩ => show win3_0.index t (2 : Fin 4) * 192 + 1 * h.val = h.val; rw [e2]; omega
  | ⟨3, _⟩ => show win3_0.index t (3 : Fin 4) * 192 + 1 * w.val = w.val; rw [e3]; omega

/-- Where an element of point `t`'s block of the output sits in its array. -/
theorem emb_out_r3 (t : Fin cfg3.N) (n' : Fin 2) (ch : Fin 8) (h w : Fin 192) :
    ((cfg3.win 1).blk t).view.emb (ix4 n' ch h w) = ix4 (rowOf_r3 t n') ch h w := by
  obtain ⟨-, -, -, -, e0, e1, e2, e3⟩ := idx_rows_r3 t
  funext a; apply Fin.ext
  match a with
  | ⟨0, _⟩ => show win3_1.index t (0 : Fin 4) * 2 + 1 * n'.val = t.val * 2 + n'.val; rw [e0]; omega
  | ⟨1, _⟩ => show win3_1.index t (1 : Fin 4) * 8 + 1 * ch.val = ch.val; rw [e1]; omega
  | ⟨2, _⟩ => show win3_1.index t (2 : Fin 4) * 192 + 1 * h.val = h.val; rw [e2]; omega
  | ⟨3, _⟩ => show win3_1.index t (3 : Fin 4) * 192 + 1 * w.val = w.val; rw [e3]; omega

/-- The input block at point `t`, read at an element: the array at that element's place. -/
theorem iblk3_apply (c : Dev nD) (t : Fin cfg3.N) (n' : Fin 2) (ch : Fin 8) (h w : Fin 192) :
    (iblk3 (F := Ideal) V c 0 t : Vec Ideal S2x8x192x192 .f32) (ix4 n' ch h w)
      = (V c main_v6 : S16x8x192x192.Idx → EReal) (ix4 (rowOf_r3 t n') ch h w) := by
  unfold iblk3
  rw [View.read_apply]
  show V c main_v6 (((cfg3.win 0).blk t).view.emb (ix4 n' ch h w)) = V c main_v6 _
  rw [emb_in_r3]

/-- What point `t` writes back is block `t` of the gate of the whole input array. -/
theorem flushed3_eq (c : Dev nD)
    (h46 : (S4 16 8 192 192).ShapeCasts (T6 16 8 24 8 24)) (h64 : (T6 16 8 24 8 24).ShapeCasts (S4 16 8 192 192))
    (t : Fin cfg3.N) :
    (dat3 (F := Ideal) V c).flushed 1 t
      = ((cfg3.win 1).blk t).view.read (Elt Ideal) (gate4 h46 h64 (V c main_v6)) := by
  show (cfg3.win 1).cut (grid3.coords t) ((dat3 (F := Ideal) V c).after 1 t) = _
  rw [after3_1]
  unfold out3_1
  rw [View.canon_unit_zero zeroOff4_r3]
  simp only [View.ld_unit_zero (S := S2x8x192x192) zeroOff4_r3]
  rw [pay3_eq _ Facts₀.shapeCasts_S2x8x192x192_S2x8x24x8x24x8 Facts₀.shapeCasts_S2x8x24x8x24x8_S2x8x192x192]
  funext j
  show gate4 _ _ (iblk3 (F := Ideal) V c 0 t) j = gate4 h46 h64 (V c main_v6) (((cfg3.win 1).blk t).view.emb j)
  obtain ⟨n', ch, h, w, rfl⟩ : ∃ (n' : Fin 2) (ch : Fin 8) (h w : Fin 192), j = ix4 n' ch h w :=
    ⟨j 0, j 1, j 2, j 3, eq_ix4 j⟩
  rw [emb_out_r3]
  exact gate4_rows_r3 _ _ h46 h64 _ _ (rowOf_r3 t) (iblk3_apply V c t) n' ch h w

/-- An index of the array is in point `t`'s block iff each coordinate is in the block's range on its axis. -/
theorem mem_blk3 (t : Fin cfg3.N) (i : S16x8x192x192.Idx) :
    i ∈ ((cfg3.win 1).blk t).view.set ↔ ∀ a : Fin 4, win3_1.index t a * S2x8x192x192.size a ≤ (i a).val
      ∧ (i a).val < win3_1.index t a * S2x8x192x192.size a + S2x8x192x192.size a := by
  show i ∈ ((View.whole main_v7).slice (win3_1.rect t)).set ↔ _
  rw [View.set_slice_whole, Rect.mem_set_unit]
  exact Iff.rfl

/-- The blocks tile the array along the batch axis: row `r` is in the block of point `r / 2`. -/
theorem cover3 (i : S16x8x192x192.Idx) :
    ∃ t : Fin cfg3.N, (cfg3.win 1).flush t = true ∧ i ∈ ((cfg3.win 1).blk t).view.set := by
  have hi0 : (i 0).val < 16 := (i 0).isLt
  have hi1 : (i 1).val < 8 := (i 1).isLt
  have hi2 : (i 2).val < 192 := (i 2).isLt
  have hi3 : (i 3).val < 192 := (i 3).isLt
  let t : Fin cfg3.N := ⟨(i 0).val / 2, by show (i 0).val / 2 < 8; omega⟩
  have ht : t.val = (i 0).val / 2 := rfl
  obtain ⟨-, -, -, -, e0, e1, e2, e3⟩ := idx_rows_r3 t
  refine ⟨t, flush3_1 t, ?_⟩
  rw [mem_blk3]
  intro a
  match a with
  | ⟨0, _⟩ => show win3_1.index t (0 : Fin 4) * 2 ≤ (i 0).val ∧ (i 0).val < win3_1.index t (0 : Fin 4) * 2 + 2; rw [e0, ht]; omega
  | ⟨1, _⟩ => show win3_1.index t (1 : Fin 4) * 8 ≤ (i 1).val ∧ (i 1).val < win3_1.index t (1 : Fin 4) * 8 + 8; rw [e1]; omega
  | ⟨2, _⟩ => show win3_1.index t (2 : Fin 4) * 192 ≤ (i 2).val ∧ (i 2).val < win3_1.index t (2 : Fin 4) * 192 + 192; rw [e2]; omega
  | ⟨3, _⟩ => show win3_1.index t (3 : Fin 4) * 192 ≤ (i 3).val ∧ (i 3).val < win3_1.index t (3 : Fin 4) * 192 + 192; rw [e3]; omega

/-- After the run the output array is the gate of the input array as the region found it. -/
theorem arr3 (c : Dev nD)
    (h46 : (S4 16 8 192 192).ShapeCasts (T6 16 8 24 8 24)) (h64 : (T6 16 8 24 8 24).ShapeCasts (S4 16 8 192 192)) :
    (dat3 (F := Ideal) V c).arrAt 1 cfg3.N = gate4 h46 h64 (V c main_v6) :=
  (dat3 (F := Ideal) V c).arrAt_eq_of_cover 1 (gate4 h46 h64 (V c main_v6))
    (fun t _ => flushed3_eq V c h46 h64 t) cover3

end Cert.KernelIdeal.Hand

end
-- ==== Proof.LibGateHost.lean ====
/-
  The host's chain of array operations on the images cut in blocks is the block gate.
-/
import proofs.«175499_j1357209666244_1_alg».proof.Proof.LibGate
import Idealize.ShloMosaic.PureOps.Ideal.Laws
import Idealize.ShloMosaic.Lib.Pipeline.Value
import Idealize.ShloMosaic.Lib.IdealHost
import Mathlib.Data.EReal.Operations
import Mathlib.Data.Fintype.BigOperators

noncomputable section

namespace Idealize.ShloMosaic.BlockGate

open Idealize.ShloMosaic Idealize.ShloMosaic.ValueIdx

variable {N C P b Q : ℕ}

/-- Dividing by a positive real keeps the sign. -/
theorem div_pos_iff (S : EReal) (r : ℝ) (hr : 0 < r) : 0 < Ideal.div S (r : EReal) ↔ 0 < S := by
  rw [Ideal.div_coe (ne_of_gt hr), EReal.mul_pos_iff]
  have h1 : (0 : EReal) < ((1 / r : ℝ) : EReal) := EReal.coe_pos.mpr (one_div_pos.mpr hr)
  constructor
  · rintro (⟨h, _⟩ | ⟨_, h⟩)
    · exact h
    · exact absurd h (not_lt.mpr h1.le)
  · intro h; exact Or.inl ⟨h, h1⟩

/-- Which indices drop to a given block. -/
theorem drop_eq_iff (hred : (T6 N C P b Q).ReducesTo [3, 5] (R4 N C P Q)) (i : (T6 N C P b Q).Idx)
    (n : Fin N) (c : Fin C) (p : Fin P) (q : Fin Q) :
    hred.drop i = ix4 n c p q ↔
      ((i 0).val = n.val ∧ (i 1).val = c.val ∧ (i 2).val = p.val ∧ (i 4).val = q.val) := by
  have e0 : (hred.drop i 0 : Nat) = i 0 := rfl
  have e1 : (hred.drop i 1 : Nat) = i 1 := rfl
  have e2 : (hred.drop i 2 : Nat) = i 2 := rfl
  have e3 : (hred.drop i 3 : Nat) = i 4 := rfl
  constructor
  · intro h
    rw [h] at e0 e1 e2 e3
    exact ⟨e0.symm, e1.symm, e2.symm, e3.symm⟩
  · rintro ⟨h0, h1, h2, h3⟩
    funext a
    match a with
    | ⟨0, _⟩ => exact Fin.ext (e0.trans h0)
    | ⟨1, _⟩ => exact Fin.ext (e1.trans h1)
    | ⟨2, _⟩ => exact Fin.ext (e2.trans h2)
    | ⟨3, _⟩ => exact Fin.ext (e3.trans h3)

/-- The indices that drop to a block, summed, are the block's offsets, summed. -/
theorem sum_filter_drop (hred : (T6 N C P b Q).ReducesTo [3, 5] (R4 N C P Q)) (v : (T6 N C P b Q).Idx → EReal)
    (n : Fin N) (c : Fin C) (p : Fin P) (q : Fin Q) :
    ∑ i ∈ Finset.univ.filter (fun i => hred.drop i = ix4 n c p q), v i
      = ∑ i' : Fin b, ∑ j' : Fin b, v (ix6 n c p i' q j') := by
  rw [← Fintype.sum_prod_type' (fun (i' : Fin b) (j' : Fin b) => v (ix6 n c p i' q j'))]
  refine Finset.sum_nbij' (fun i => ((i 3, i 5) : Fin b × Fin b)) (fun x => ix6 n c p x.1 q x.2) ?_ ?_ ?_ ?_ ?_
  · intro a _; exact Finset.mem_univ _
  · intro x _
    rw [Finset.mem_filter]
    exact ⟨Finset.mem_univ _, (drop_eq_iff hred _ n c p q).mpr ⟨rfl, rfl, rfl, rfl⟩⟩
  · intro a ha
    obtain ⟨h0, h1, h2, h4⟩ := (drop_eq_iff hred a n c p q).mp (Finset.mem_filter.mp ha).2
    funext g
    match g with
    | ⟨0, _⟩ => exact Fin.ext h0.symm
    | ⟨1, _⟩ => exact Fin.ext h1.symm
    | ⟨2, _⟩ => exact Fin.ext h2.symm
    | ⟨3, _⟩ => rfl
    | ⟨4, _⟩ => exact Fin.ext h4.symm
    | ⟨5, _⟩ => rfl
  · intro x _; rfl
  · intro a ha
    obtain ⟨h0, h1, h2, h4⟩ := (drop_eq_iff hred a n c p q).mp (Finset.mem_filter.mp ha).2
    refine congrArg v ?_
    funext g
    match g with
    | ⟨0, _⟩ => exact Fin.ext h0
    | ⟨1, _⟩ => exact Fin.ext h1
    | ⟨2, _⟩ => exact Fin.ext h2
    | ⟨3, _⟩ => rfl
    | ⟨4, _⟩ => exact Fin.ext h4
    | ⟨5, _⟩ => rfl

/-- The bit of a comparison, read as a float, is one where the comparison holds and zero elsewhere. -/
theorem ofBool_toNat_coe (pr : Prop) [Decidable pr] :
    (((BitVec.ofBool (decide pr)).toNat : ℝ) : EReal) = if pr then 1 else 0 := by
  by_cases h : pr
  · simp [h]
  · simp [h]

/-- The host's block sums, read at a block. -/
theorem reduce_at (v : FVec Ideal (T6 N C P b Q) .f32)
    (hred : (T6 N C P b Q).ReducesTo [3, 5] (R4 N C P Q)) (hS : 0 < (⟨0, ![]⟩ : Shape).numel)
    (n : Fin N) (c : Fin C) (p : Fin P) (q : Fin Q) :
    Host.reduceAdd v (constant (F := Ideal) (⟨0, ![]⟩ : Shape) .f32 0x00000000#32) hred hS (ix4 n c p q)
      = ∑ i' : Fin b, ∑ j' : Fin b, v (ix6 n c p i' q j') := by
  rw [hostReduceAdd_apply, constant_apply, Ideal.ofBits_zero_f32]
  unfold Ideal.hostReduceAdd
  rw [zero_add]
  exact sum_filter_drop hred v n c p q

/-- The bit the host computes for a block, as a float. -/
theorem bit_at (v : FVec Ideal (T6 N C P b Q) .f32) (w : BitVec 32) (r : ℝ) (hr : 0 < r)
    (hw : Ideal.ofBits .f32 w = (r : EReal))
    (hred : (T6 N C P b Q).ReducesTo [3, 5] (R4 N C P Q)) (hS : 0 < (⟨0, ![]⟩ : Shape).numel)
    (hb1 : (R4 N C P Q).BroadcastsInDim (U6 N C P Q) (![0, 1, 2, 4] : Fin 4 → Fin (U6 N C P Q).rank))
    (hb0 : (⟨0, ![]⟩ : Shape).BroadcastsInDim (U6 N C P Q) (![] : Fin 0 → Fin (U6 N C P Q).rank))
    (n : Fin N) (c : Fin C) (p : Fin P) (q : Fin Q) :
    (uitofp (F := Ideal) .f32 (cmpf .ogt
        (Host.divf (broadcastInDim (U6 N C P Q) ![0, 1, 2, 4] hb1
            (Host.reduceAdd v (constant (F := Ideal) (⟨0, ![]⟩ : Shape) .f32 0x00000000#32) hred hS))
          (broadcastInDim (U6 N C P Q) ![] hb0 (constant (F := Ideal) (⟨0, ![]⟩ : Shape) .f32 w)))
        (broadcastInDim (U6 N C P Q) ![] hb0 (constant (F := Ideal) (⟨0, ![]⟩ : Shape) .f32 0x00000000#32))))
      (ix6 n c p 0 q 0)
      = pos01 (∑ i' : Fin b, ∑ j' : Fin b, v (ix6 n c p i' q j')) := by
  have hA : broadcastInDim (U6 N C P Q) ![0, 1, 2, 4] hb1
      (Host.reduceAdd v (constant (F := Ideal) (⟨0, ![]⟩ : Shape) .f32 0x00000000#32) hred hS) (ix6 n c p 0 q 0)
      = ∑ i' : Fin b, ∑ j' : Fin b, v (ix6 n c p i' q j') := by
    refine (broadcastInDim_apply (s := R4 N C P Q) (t := U6 N C P Q) (![0, 1, 2, 4] : Fin 4 → Fin 6) hb1
      (Host.reduceAdd v (constant (F := Ideal) (⟨0, ![]⟩ : Shape) .f32 0x00000000#32) hred hS)
      (ix6 n c p (0 : Fin 1) q (0 : Fin 1)) (ix4 n c p q) ?_).trans (reduce_at v hred hS n c p q)
    intro a
    match a with
    | ⟨0, _⟩ => show n.val = if N = 1 then 0 else n.val; split_ifs with h <;> [(have := n.isLt; omega); rfl]
    | ⟨1, _⟩ => show c.val = if C = 1 then 0 else c.val; split_ifs with h <;> [(have := c.isLt; omega); rfl]
    | ⟨2, _⟩ => show p.val = if P = 1 then 0 else p.val; split_ifs with h <;> [(have := p.isLt; omega); rfl]
    | ⟨3, _⟩ => show q.val = if Q = 1 then 0 else q.val; split_ifs with h <;> [(have := q.isLt; omega); rfl]
  show (((Ideal.cmp .ogt (Ideal.div (broadcastInDim (U6 N C P Q) ![0, 1, 2, 4] hb1
            (Host.reduceAdd v (constant (F := Ideal) (⟨0, ![]⟩ : Shape) .f32 0x00000000#32) hred hS) (ix6 n c p 0 q 0))
          (broadcastInDim (U6 N C P Q) ![] hb0 (constant (F := Ideal) (⟨0, ![]⟩ : Shape) .f32 w) (ix6 n c p 0 q 0)))
        (broadcastInDim (U6 N C P Q) ![] hb0 (constant (F := Ideal) (⟨0, ![]⟩ : Shape) .f32 0x00000000#32) (ix6 n c p 0 q 0))).toNat : ℝ) : EReal)
      = pos01 (∑ i' : Fin b, ∑ j' : Fin b, v (ix6 n c p i' q j'))
  rw [hA, broadcastInDim_scalar_apply, broadcastInDim_scalar_apply, constant_apply, constant_apply,
    Ideal.ofBits_zero_f32, hw]
  unfold Ideal.cmp pos01
  rw [ofBool_toNat_coe]
  exact if_congr (div_pos_iff _ r hr) rfl rfl

/-- The host's chain, read at a pixel. -/
theorem host_chain_at (v : FVec Ideal (T6 N C P b Q) .f32) (w : BitVec 32) (r : ℝ) (hr : 0 < r)
    (hw : Ideal.ofBits .f32 w = (r : EReal))
    (hred : (T6 N C P b Q).ReducesTo [3, 5] (R4 N C P Q)) (hS : 0 < (⟨0, ![]⟩ : Shape).numel)
    (hb1 : (R4 N C P Q).BroadcastsInDim (U6 N C P Q) (![0, 1, 2, 4] : Fin 4 → Fin (U6 N C P Q).rank))
    (hb0 : (⟨0, ![]⟩ : Shape).BroadcastsInDim (U6 N C P Q) (![] : Fin 0 → Fin (U6 N C P Q).rank))
    (hbb : (U6 N C P Q).BroadcastsInDim (T6 N C P b Q) (![0, 1, 2, 3, 4, 5] : Fin 6 → Fin (T6 N C P b Q).rank))
    (n : Fin N) (c : Fin C) (p : Fin P) (i : Fin b) (q : Fin Q) (k : Fin b) :
    mulf v (broadcastInDim (T6 N C P b Q) ![0, 1, 2, 3, 4, 5] hbb
      (uitofp (F := Ideal) .f32 (cmpf .ogt
        (Host.divf (broadcastInDim (U6 N C P Q) ![0, 1, 2, 4] hb1
            (Host.reduceAdd v (constant (F := Ideal) (⟨0, ![]⟩ : Shape) .f32 0x00000000#32) hred hS))
          (broadcastInDim (U6 N C P Q) ![] hb0 (constant (F := Ideal) (⟨0, ![]⟩ : Shape) .f32 w)))
        (broadcastInDim (U6 N C P Q) ![] hb0 (constant (F := Ideal) (⟨0, ![]⟩ : Shape) .f32 0x00000000#32)))))
      (ix6 n c p i q k)
    = gate6 v (ix6 n c p i q k) := by
  rw [mulf_apply]
  show _ = v (ix6 n c p i q k) * pos01 (∑ i' : Fin b, ∑ j' : Fin b, v (ix6 n c p i' q j'))
  refine congrArg (v (ix6 n c p i q k) * ·) ?_
  refine (broadcastInDim_apply (s := U6 N C P Q) (t := T6 N C P b Q) (![0, 1, 2, 3, 4, 5] : Fin 6 → Fin 6) hbb _
    (ix6 n c p i q k) (ix6 n c p (0 : Fin 1) q (0 : Fin 1)) ?_).trans
    (bit_at v w r hr hw hred hS hb1 hb0 n c p q)
  intro a
  match a with
  | ⟨0, _⟩ => show n.val = if N = 1 then 0 else n.val; split_ifs with h <;> [(have := n.isLt; omega); rfl]
  | ⟨1, _⟩ => show c.val = if C = 1 then 0 else c.val; split_ifs with h <;> [(have := c.isLt; omega); rfl]
  | ⟨2, _⟩ => show p.val = if P = 1 then 0 else p.val; split_ifs with h <;> [(have := p.isLt; omega); rfl]
  | ⟨3, _⟩ => rfl
  | ⟨4, _⟩ => show q.val = if Q = 1 then 0 else q.val; split_ifs with h <;> [(have := q.isLt; omega); rfl]
  | ⟨5, _⟩ => rfl

/-- The host's chain for blocks of one pixel, read at a pixel. -/
theorem host_chain_unit_at (v : FVec Ideal (U6 N C P Q) .f32) (w : BitVec 32) (r : ℝ) (hr : 0 < r)
    (hw : Ideal.ofBits .f32 w = (r : EReal))
    (hred : (U6 N C P Q).ReducesTo [3, 5] (R4 N C P Q)) (hS : 0 < (⟨0, ![]⟩ : Shape).numel)
    (hb1 : (R4 N C P Q).BroadcastsInDim (U6 N C P Q) (![0, 1, 2, 4] : Fin 4 → Fin (U6 N C P Q).rank))
    (hb0 : (⟨0, ![]⟩ : Shape).BroadcastsInDim (U6 N C P Q) (![] : Fin 0 → Fin (U6 N C P Q).rank))
    (n : Fin N) (c : Fin C) (p : Fin P) (i : Fin 1) (q : Fin Q) (k : Fin 1) :
    mulf v
      (uitofp (F := Ideal) .f32 (cmpf .ogt
        (Host.divf (broadcastInDim (U6 N C P Q) ![0, 1, 2, 4] hb1
            (Host.reduceAdd v (constant (F := Ideal) (⟨0, ![]⟩ : Shape) .f32 0x00000000#32) hred hS))
          (broadcastInDim (U6 N C P Q) ![] hb0 (constant (F := Ideal) (⟨0, ![]⟩ : Shape) .f32 w)))
        (broadcastInDim (U6 N C P Q) ![] hb0 (constant (F := Ideal) (⟨0, ![]⟩ : Shape) .f32 0x00000000#32))))
      (ix6 n c p i q k)
    = gate6 (b := 1) v (ix6 n c p i q k) := by
  obtain rfl : i = 0 := Subsingleton.elim _ _
  obtain rfl : k = 0 := Subsingleton.elim _ _
  rw [mulf_apply]
  show _ = v (ix6 n c p (0 : Fin 1) q (0 : Fin 1)) * pos01 (∑ i' : Fin 1, ∑ j' : Fin 1, v (ix6 n c p i' q j'))
  exact congrArg (v (ix6 n c p (0 : Fin 1) q (0 : Fin 1)) * ·)
    (bit_at (b := 1) v w r hr hw hred hS hb1 hb0 n c p q)

/-- Summing each block (both block axes at once, from zero); broadcasting to unit axes; dividing by a positive
    constant; comparing with zero; converting the bit to a float; broadcasting over the block; multiplying: the gate.
    Dividing by a positive real does not change the sign of the sum. -/
theorem host_chain (v : FVec Ideal (T6 N C P b Q) .f32) (w : BitVec 32) (r : ℝ) (hr : 0 < r)
    (hw : Ideal.ofBits .f32 w = (r : EReal))
    (hred : (T6 N C P b Q).ReducesTo [3, 5] (R4 N C P Q)) (hS : 0 < (⟨0, ![]⟩ : Shape).numel)
    (hb1 : (R4 N C P Q).BroadcastsInDim (U6 N C P Q) (![0, 1, 2, 4] : Fin 4 → Fin (U6 N C P Q).rank))
    (hb0 : (⟨0, ![]⟩ : Shape).BroadcastsInDim (U6 N C P Q) (![] : Fin 0 → Fin (U6 N C P Q).rank))
    (hbb : (U6 N C P Q).BroadcastsInDim (T6 N C P b Q) (![0, 1, 2, 3, 4, 5] : Fin 6 → Fin (T6 N C P b Q).rank)) :
    mulf v (broadcastInDim (T6 N C P b Q) ![0, 1, 2, 3, 4, 5] hbb
      (uitofp (F := Ideal) .f32 (cmpf .ogt
        (Host.divf (broadcastInDim (U6 N C P Q) ![0, 1, 2, 4] hb1
            (Host.reduceAdd v (constant (F := Ideal) (⟨0, ![]⟩ : Shape) .f32 0x00000000#32) hred hS))
          (broadcastInDim (U6 N C P Q) ![] hb0 (constant (F := Ideal) (⟨0, ![]⟩ : Shape) .f32 w)))
        (broadcastInDim (U6 N C P Q) ![] hb0 (constant (F := Ideal) (⟨0, ![]⟩ : Shape) .f32 0x00000000#32)))))
    = gate6 v := by
  funext j
  rw [eq_ix6 j]
  exact host_chain_at v w r hr hw hred hS hb1 hb0 hbb (j 0) (j 1) (j 2) (j 3) (j 4) (j 5)

/-- The same for blocks of one pixel, where the host multiplies without a second broadcast. -/
theorem host_chain_unit (v : FVec Ideal (U6 N C P Q) .f32) (w : BitVec 32) (r : ℝ) (hr : 0 < r)
    (hw : Ideal.ofBits .f32 w = (r : EReal))
    (hred : (U6 N C P Q).ReducesTo [3, 5] (R4 N C P Q)) (hS : 0 < (⟨0, ![]⟩ : Shape).numel)
    (hb1 : (R4 N C P Q).BroadcastsInDim (U6 N C P Q) (![0, 1, 2, 4] : Fin 4 → Fin (U6 N C P Q).rank))
    (hb0 : (⟨0, ![]⟩ : Shape).BroadcastsInDim (U6 N C P Q) (![] : Fin 0 → Fin (U6 N C P Q).rank)) :
    mulf v
      (uitofp (F := Ideal) .f32 (cmpf .ogt
        (Host.divf (broadcastInDim (U6 N C P Q) ![0, 1, 2, 4] hb1
            (Host.reduceAdd v (constant (F := Ideal) (⟨0, ![]⟩ : Shape) .f32 0x00000000#32) hred hS))
          (broadcastInDim (U6 N C P Q) ![] hb0 (constant (F := Ideal) (⟨0, ![]⟩ : Shape) .f32 w)))
        (broadcastInDim (U6 N C P Q) ![] hb0 (constant (F := Ideal) (⟨0, ![]⟩ : Shape) .f32 0x00000000#32))))
    = gate6 (b := 1) v := by
  funext j
  rw [eq_ix6 j]
  exact host_chain_unit_at v w r hr hw hred hS hb1 hb0 (j 0) (j 1) (j 2) (j 3) (j 4) (j 5)

end Idealize.ShloMosaic.BlockGate

end
-- ==== Proof.Ref.lean ====
/-
  The reference's four groups of channels, each the block gate of its slice of the argument.
-/
import proofs.«175499_j1357209666244_1_alg».proof.Proof.Gen.ReferenceIdeal.Read
import proofs.«175499_j1357209666244_1_alg».proof.Proof.LibGate
import proofs.«175499_j1357209666244_1_alg».proof.Proof.LibGateHost
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.ShloMosaic.BlockGate

/-- The four divisors are the reals one, four, sixteen and sixty-four. -/
theorem ofBits_r1 : Ideal.ofBits .f32 0x3F800000#32 = ((1 : ℝ) : EReal) := by
  simp [Ideal.ofBits, Ideal.ieee, -EReal.coe_mul]; norm_num

theorem ofBits_r4 : Ideal.ofBits .f32 0x40800000#32 = ((4 : ℝ) : EReal) := by
  simp [Ideal.ofBits, Ideal.ieee, -EReal.coe_mul]; norm_num

theorem ofBits_r16 : Ideal.ofBits .f32 0x41800000#32 = ((16 : ℝ) : EReal) := by
  simp [Ideal.ofBits, Ideal.ieee, -EReal.coe_mul]; norm_num

theorem ofBits_r64 : Ideal.ofBits .f32 0x42800000#32 = ((64 : ℝ) : EReal) := by
  simp [Ideal.ofBits, Ideal.ieee, -EReal.coe_mul]; norm_num

/-- Channels 0 to 15, blocks of one pixel. -/
theorem grp0 (x0 : (⟨S16x64x192x192, .f32⟩ : BufTy).Contents (Elt Ideal))
    (h46 : (S4 16 16 192 192).ShapeCasts (T6 16 16 192 1 192)) (h64 : (T6 16 16 192 1 192).ShapeCasts (S4 16 16 192 192)) :
    val_main_v10 (F := Ideal) x0 = gate4 h46 h64 (val_main_v0 (F := Ideal) x0) := by
  unfold val_main_v10 val_main_v9 val_main_v8 val_main_v7 val_main_v5 val_main_v3 val_main_v2
    val_main_v4 val_main_v6 val_main_cst val_main_cst_0 val_main_cst_1 val_main_v1
  exact congrArg (fun z => shapeCast _ z _) (host_chain_unit _ _ 1 (by norm_num) ofBits_r1 _ _ _ _)

/-- Channels 16 to 31, blocks of 2 × 2 pixels. -/
theorem grp1 (x0 : (⟨S16x64x192x192, .f32⟩ : BufTy).Contents (Elt Ideal))
    (h46 : (S4 16 16 192 192).ShapeCasts (T6 16 16 96 2 96)) (h64 : (T6 16 16 96 2 96).ShapeCasts (S4 16 16 192 192)) :
    val_main_v24 (F := Ideal) x0 = gate4 h46 h64 (val_main_v13 (F := Ideal) x0) := by
  unfold val_main_v24 val_main_v23 val_main_v22 val_main_v21 val_main_v20 val_main_v18 val_main_v16 val_main_v15
    val_main_v17 val_main_v19 val_main_cst_2 val_main_cst_3 val_main_cst_4 val_main_v14
  exact congrArg (fun z => shapeCast _ z _) (host_chain _ _ 4 (by norm_num) ofBits_r4 _ _ _ _ _)

/-- Channels 32 to 47, blocks of 4 × 4 pixels. -/
theorem grp2 (x0 : (⟨S16x64x192x192, .f32⟩ : BufTy).Contents (Elt Ideal))
    (h46 : (S4 16 16 192 192).ShapeCasts (T6 16 16 48 4 48)) (h64 : (T6 16 16 48 4 48).ShapeCasts (S4 16 16 192 192)) :
    val_main_v38 (F := Ideal) x0 = gate4 h46 h64 (val_main_v27 (F := Ideal) x0) := by
  unfold val_main_v38 val_main_v37 val_main_v36 val_main_v35 val_main_v34 val_main_v32 val_main_v30 val_main_v29
    val_main_v31 val_main_v33 val_main_cst_6 val_main_cst_7 val_main_cst_8 val_main_v28
  exact congrArg (fun z => shapeCast _ z _) (host_chain _ _ 16 (by norm_num) ofBits_r16 _ _ _ _ _)

/-- Channels 48 to 55, blocks of 8 × 8 pixels. -/
theorem grp3 (x0 : (⟨S16x64x192x192, .f32⟩ : BufTy).Contents (Elt Ideal))
    (h46 : (S4 16 8 192 192).ShapeCasts (T6 16 8 24 8 24)) (h64 : (T6 16 8 24 8 24).ShapeCasts (S4 16 8 192 192)) :
    val_main_v52 (F := Ideal) x0 = gate4 h46 h64 (val_main_v41 (F := Ideal) x0) := by
  unfold val_main_v52 val_main_v51 val_main_v50 val_main_v49 val_main_v48 val_main_v46 val_main_v44 val_main_v43
    val_main_v45 val_main_v47 val_main_cst_10 val_main_cst_11 val_main_cst_12 val_main_v42
  exact congrArg (fun z => shapeCast _ z _) (host_chain _ _ 64 (by norm_num) ofBits_r64 _ _ _ _ _)

end Cert.ReferenceIdeal.RefValue

end
-- ==== Proof.LibScatterAt.lean ====
/-
  A scatter read at one element.

  The host's scatter is a left fold, over the update's indices in row-major order, of point updates: update `j`
  replaces the operand's element at its landing position by `f` of that element and the update's. When every update
  lands inside the operand, at positions `g j` that are pairwise distinct — a single scatter index, each window
  element on its own operand element —, the fold is read without running it: the element at `g j` is `f` of the
  operand's element there and update `j` (`scatter_hit`), and an element no update lands on is the operand's
  (`scatter_miss`). Stated for any shapes, any element type and any combining function; the fold's length stays
  abstract, so nothing here evaluates it.
-/
import Idealize.ShloMosaic.PureOps.Ideal

noncomputable section

namespace Idealize.ShloMosaic.ScatterAt

open Idealize.ShloMosaic

section Fold
variable {ι κ α : Type} [DecidableEq κ] (f : α → α → α) (g : ι → κ) (v : ι → α)

/-- A left fold of point updates leaves alone every position none of the updates lands on. -/
theorem foldl_point_miss : ∀ (L : List ι) (x : κ → α) (i : κ), (∀ n ∈ L, g n ≠ i) →
    L.foldl (fun r n => fun i' => if i' = g n then f (r (g n)) (v n) else r i') x i = x i
  | [], x, i, _ => rfl
  | a :: L, x, i, h => by
    rw [List.foldl_cons, foldl_point_miss L _ i (fun n hn => h n (List.mem_cons_of_mem _ hn))]
    exact if_neg (fun e => h a List.mem_cons_self e.symm)

/-- When the landing positions are pairwise distinct, the position update `n` lands on holds the
    start value there combined with that one update. -/
theorem foldl_point_hit (hg : Function.Injective g) : ∀ (L : List ι) (x : κ → α) (n : ι), L.Nodup → n ∈ L →
    L.foldl (fun r n => fun i' => if i' = g n then f (r (g n)) (v n) else r i') x (g n) = f (x (g n)) (v n)
  | [], x, n, _, hn => absurd hn List.not_mem_nil
  | a :: L, x, n, hnd, hn => by
    rw [List.foldl_cons]
    rcases List.mem_cons.1 hn with rfl | hn'
    · rw [foldl_point_miss f g v L _ (g n) (fun m hm e => (List.nodup_cons.1 hnd).1 (hg e ▸ hm))]
      exact if_pos rfl
    · rw [foldl_point_hit hg L _ n (List.nodup_cons.1 hnd).2 hn']
      have hne : g n ≠ g a := fun e => (List.nodup_cons.1 hnd).1 (hg e ▸ hn')
      rw [if_neg hne]
end Fold

section Scatter
variable {s si u : Shape} {w : Nat} {α : Type} (d : ScatterDims s si u) (f : α → α → α) (x : s.Idx → α)
  (idx : IVec si w) (upd : u.Idx → α) (g : u.Idx → s.Idx)

/-- The scatter's fold, when every update lands inside the operand at `g` of its index. -/
theorem scatter_eq_foldl (hres : ∀ j, d.resultIdx? j idx = some (g j)) :
    Host.scatter d f x idx upd = (List.finRange u.numel).foldl (fun r n => fun i' =>
      if i' = g (u.rowMajor.symm n) then f (r (g (u.rowMajor.symm n))) (upd (u.rowMajor.symm n)) else r i') x := by
  unfold Host.scatter
  simp only [hres]

/-- A scatter whose updates all land inside the operand, at pairwise distinct positions `g j`: the
    position `g j` holds the operand's element combined with update `j` … -/
theorem scatter_hit (hg : Function.Injective g) (hres : ∀ j, d.resultIdx? j idx = some (g j)) (j : u.Idx) :
    Host.scatter d f x idx upd (g j) = f (x (g j)) (upd j) := by
  rw [scatter_eq_foldl d f x idx upd g hres]
  have h := foldl_point_hit f (fun n => g (u.rowMajor.symm n)) (fun n => upd (u.rowMajor.symm n))
    (hg.comp u.rowMajor.symm.injective) (List.finRange u.numel) x (u.rowMajor j) (List.nodup_finRange _) (List.mem_finRange _)
  simpa using h

/-- … and a position no update lands on holds the operand's element. -/
theorem scatter_miss (hres : ∀ j, d.resultIdx? j idx = some (g j)) (i : s.Idx) (hi : ∀ j, g j ≠ i) :
    Host.scatter d f x idx upd i = x i := by
  rw [scatter_eq_foldl d f x idx upd g hres]
  exact foldl_point_miss f (fun n => g (u.rowMajor.symm n)) (fun n => upd (u.rowMajor.symm n)) _ x i (fun n _ => hi _)
end Scatter

end Idealize.ShloMosaic.ScatterAt

end
-- ==== Proof.Assemble.lean ====
/-
  Four whole-window scatters into the argument, at channel offsets 0, 16, 32 and 48, are the concatenation along the channel
  axis of the four updates and the argument's last eight channels.
-/
import proofs.«175499_j1357209666244_1_alg».proof.Proof.Gen.ReferenceIdeal.Read
import proofs.«175499_j1357209666244_1_alg».proof.Proof.LibScatterAt
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## Where an update element lands

On the axis the scatter-dims-to-operand-dims map names (the channel axis) the window starts at the index tensor's one
word, read signed; on the other axes it starts at 0. All four axes are window axes, in order, so the window coordinate
on an axis is the update index's coordinate there. -/

section Sixteen

/-- The window coordinate on an operand axis is the update index's coordinate on that axis. -/
theorem window16 (j : S16x16x192x192.Idx) (a : Fin 4) :
    scatter_S16x64x192x192_S1_S16x16x192x192_0123_n_1_0.window j a = (j a).val := by
  fin_cases a <;> rfl

/-- The window's start: the index tensor's word on the channel axis, 0 elsewhere. -/
theorem start16 (j : S16x16x192x192.Idx) (idx : IVec S1 32) (off : BitVec 32) (hidx : ∀ k, idx k = off) (a : Fin 4) :
    scatter_S16x64x192x192_S1_S16x16x192x192_0123_n_1_0.start j idx a = if a = 1 then off.toInt else 0 := by
  unfold ScatterDims.start
  simp only [hidx]
  fin_cases a <;> rfl

/-- Where update element `j` lands: the same position with the channel moved up by the offset. -/
abbrev land16 (o : Nat) (ho : o + 16 ≤ 64) (j : S16x16x192x192.Idx) : S16x64x192x192.Idx :=
  ix4 (⟨(j 0).val, (j 0).isLt⟩ : Fin 16) (⟨o + (j 1).val, by have h : (j 1).val < 16 := (j 1).isLt; omega⟩ : Fin 64)
    (⟨(j 2).val, (j 2).isLt⟩ : Fin 192) (⟨(j 3).val, (j 3).isLt⟩ : Fin 192)

/-- Every update element lands inside the operand, at `land16`. -/
theorem resultIdx16 (idx : IVec S1 32) (off : BitVec 32) (hidx : ∀ k, idx k = off) (o : Nat) (ho : o + 16 ≤ 64)
    (hoff : off.toInt = (o : Int)) (j : S16x16x192x192.Idx) :
    scatter_S16x64x192x192_S1_S16x16x192x192_0123_n_1_0.resultIdx? j idx = some (land16 o ho j) := by
  unfold ScatterDims.resultIdx?
  have hb : ∀ a : Fin 4, 0 ≤ scatter_S16x64x192x192_S1_S16x16x192x192_0123_n_1_0.start j idx a
        + scatter_S16x64x192x192_S1_S16x16x192x192_0123_n_1_0.window j a
      ∧ scatter_S16x64x192x192_S1_S16x16x192x192_0123_n_1_0.start j idx a
        + scatter_S16x64x192x192_S1_S16x16x192x192_0123_n_1_0.window j a < S16x64x192x192.size a := by
    intro a
    rw [start16 j idx off hidx a, window16 j a, hoff]
    have h0 : (j 0).val < 16 := (j 0).isLt
    have h1 : (j 1).val < 16 := (j 1).isLt
    have h2 : (j 2).val < 192 := (j 2).isLt
    have h3 : (j 3).val < 192 := (j 3).isLt
    fin_cases a <;> simp <;> omega
  rw [dif_pos hb]
  congr 1
  funext a
  apply Fin.ext
  show (scatter_S16x64x192x192_S1_S16x16x192x192_0123_n_1_0.start j idx a
    + scatter_S16x64x192x192_S1_S16x16x192x192_0123_n_1_0.window j a).toNat = _
  rw [start16 j idx off hidx a, window16 j a, hoff]
  fin_cases a <;> simp <;> omega

/-- Distinct update elements land on distinct operand elements. -/
theorem land16_injective (o : Nat) (ho : o + 16 ≤ 64) : Function.Injective (land16 o ho) := by
  intro j j' e
  have e0 : (j 0).val = (j' 0).val := congrArg Fin.val (congrFun e 0)
  have e1 : o + (j 1).val = o + (j' 1).val := congrArg Fin.val (congrFun e 1)
  have e2 : (j 2).val = (j' 2).val := congrArg Fin.val (congrFun e 2)
  have e3 : (j 3).val = (j' 3).val := congrArg Fin.val (congrFun e 3)
  funext a
  apply Fin.ext
  fin_cases a
  · exact e0
  · show (j 1).val = (j' 1).val; omega
  · exact e2
  · exact e3

/-- A whole-window scatter of sixteen channels at channel offset `o`, read at one element: inside the channel range
    `[o, o + 16)` it is the update at the channel less `o`, outside it the operand. -/
theorem scatter16_at {α : Type} (x : S16x64x192x192.Idx → α) (idx : IVec S1 32) (upd : S16x16x192x192.Idx → α)
    (off : BitVec 32) (hidx : ∀ k, idx k = off) (o : Nat) (ho : o + 16 ≤ 64) (hoff : off.toInt = (o : Int))
    (n : Fin 16) (ch : Fin 64) (h w : Fin 192) :
    Host.scatter scatter_S16x64x192x192_S1_S16x16x192x192_0123_n_1_0 (fun _ b => b) x idx upd (ix4 n ch h w)
      = if hc : o ≤ ch.val ∧ ch.val < o + 16 then upd (ix4 n (⟨ch.val - o, by omega⟩ : Fin 16) h w) else x (ix4 n ch h w) := by
  by_cases hc : o ≤ ch.val ∧ ch.val < o + 16
  · rw [dif_pos hc]
    have hland : ix4 n ch h w = land16 o ho (ix4 n (⟨ch.val - o, by omega⟩ : Fin 16) h w) := by
      funext a
      apply Fin.ext
      fin_cases a
      · rfl
      · show ch.val = o + (ch.val - o); omega
      · rfl
      · rfl
    rw [hland]
    exact ScatterAt.scatter_hit _ (fun _ b => b) x idx upd (land16 o ho) (land16_injective o ho)
      (resultIdx16 idx off hidx o ho hoff) _
  · rw [dif_neg hc]
    refine ScatterAt.scatter_miss _ (fun _ b => b) x idx upd (land16 o ho) (resultIdx16 idx off hidx o ho hoff) _ ?_
    intro j e
    have e1 : o + (j 1).val = ch.val := congrArg Fin.val (congrFun e 1)
    have h1 : (j 1).val < 16 := (j 1).isLt
    omega

end Sixteen
section Eight

/-- The window coordinate on an operand axis is the update index's coordinate on that axis. -/
theorem window8 (j : S16x8x192x192.Idx) (a : Fin 4) :
    scatter_S16x64x192x192_S1_S16x8x192x192_0123_n_1_0.window j a = (j a).val := by
  fin_cases a <;> rfl

/-- The window's start: the index tensor's word on the channel axis, 0 elsewhere. -/
theorem start8 (j : S16x8x192x192.Idx) (idx : IVec S1 32) (off : BitVec 32) (hidx : ∀ k, idx k = off) (a : Fin 4) :
    scatter_S16x64x192x192_S1_S16x8x192x192_0123_n_1_0.start j idx a = if a = 1 then off.toInt else 0 := by
  unfold ScatterDims.start
  simp only [hidx]
  fin_cases a <;> rfl

/-- Where update element `j` lands: the same position with the channel moved up by the offset. -/
abbrev land8 (o : Nat) (ho : o + 8 ≤ 64) (j : S16x8x192x192.Idx) : S16x64x192x192.Idx :=
  ix4 (⟨(j 0).val, (j 0).isLt⟩ : Fin 16) (⟨o + (j 1).val, by have h : (j 1).val < 8 := (j 1).isLt; omega⟩ : Fin 64)
    (⟨(j 2).val, (j 2).isLt⟩ : Fin 192) (⟨(j 3).val, (j 3).isLt⟩ : Fin 192)

/-- Every update element lands inside the operand, at `land8`. -/
theorem resultIdx8 (idx : IVec S1 32) (off : BitVec 32) (hidx : ∀ k, idx k = off) (o : Nat) (ho : o + 8 ≤ 64)
    (hoff : off.toInt = (o : Int)) (j : S16x8x192x192.Idx) :
    scatter_S16x64x192x192_S1_S16x8x192x192_0123_n_1_0.resultIdx? j idx = some (land8 o ho j) := by
  unfold ScatterDims.resultIdx?
  have hb : ∀ a : Fin 4, 0 ≤ scatter_S16x64x192x192_S1_S16x8x192x192_0123_n_1_0.start j idx a
        + scatter_S16x64x192x192_S1_S16x8x192x192_0123_n_1_0.window j a
      ∧ scatter_S16x64x192x192_S1_S16x8x192x192_0123_n_1_0.start j idx a
        + scatter_S16x64x192x192_S1_S16x8x192x192_0123_n_1_0.window j a < S16x64x192x192.size a := by
    intro a
    rw [start8 j idx off hidx a, window8 j a, hoff]
    have h0 : (j 0).val < 16 := (j 0).isLt
    have h1 : (j 1).val < 8 := (j 1).isLt
    have h2 : (j 2).val < 192 := (j 2).isLt
    have h3 : (j 3).val < 192 := (j 3).isLt
    fin_cases a <;> simp <;> omega
  rw [dif_pos hb]
  congr 1
  funext a
  apply Fin.ext
  show (scatter_S16x64x192x192_S1_S16x8x192x192_0123_n_1_0.start j idx a
    + scatter_S16x64x192x192_S1_S16x8x192x192_0123_n_1_0.window j a).toNat = _
  rw [start8 j idx off hidx a, window8 j a, hoff]
  fin_cases a <;> simp <;> omega

/-- Distinct update elements land on distinct operand elements. -/
theorem land8_injective (o : Nat) (ho : o + 8 ≤ 64) : Function.Injective (land8 o ho) := by
  intro j j' e
  have e0 : (j 0).val = (j' 0).val := congrArg Fin.val (congrFun e 0)
  have e1 : o + (j 1).val = o + (j' 1).val := congrArg Fin.val (congrFun e 1)
  have e2 : (j 2).val = (j' 2).val := congrArg Fin.val (congrFun e 2)
  have e3 : (j 3).val = (j' 3).val := congrArg Fin.val (congrFun e 3)
  funext a
  apply Fin.ext
  fin_cases a
  · exact e0
  · show (j 1).val = (j' 1).val; omega
  · exact e2
  · exact e3

/-- A whole-window scatter of eight channels at channel offset `o`, read at one element: inside the channel range
    `[o, o + 8)` it is the update at the channel less `o`, outside it the operand. -/
theorem scatter8_at {α : Type} (x : S16x64x192x192.Idx → α) (idx : IVec S1 32) (upd : S16x8x192x192.Idx → α)
    (off : BitVec 32) (hidx : ∀ k, idx k = off) (o : Nat) (ho : o + 8 ≤ 64) (hoff : off.toInt = (o : Int))
    (n : Fin 16) (ch : Fin 64) (h w : Fin 192) :
    Host.scatter scatter_S16x64x192x192_S1_S16x8x192x192_0123_n_1_0 (fun _ b => b) x idx upd (ix4 n ch h w)
      = if hc : o ≤ ch.val ∧ ch.val < o + 8 then upd (ix4 n (⟨ch.val - o, by omega⟩ : Fin 8) h w) else x (ix4 n ch h w) := by
  by_cases hc : o ≤ ch.val ∧ ch.val < o + 8
  · rw [dif_pos hc]
    have hland : ix4 n ch h w = land8 o ho (ix4 n (⟨ch.val - o, by omega⟩ : Fin 8) h w) := by
      funext a
      apply Fin.ext
      fin_cases a
      · rfl
      · show ch.val = o + (ch.val - o); omega
      · rfl
      · rfl
    rw [hland]
    exact ScatterAt.scatter_hit _ (fun _ b => b) x idx upd (land8 o ho) (land8_injective o ho)
      (resultIdx8 idx off hidx o ho hoff) _
  · rw [dif_neg hc]
    refine ScatterAt.scatter_miss _ (fun _ b => b) x idx upd (land8 o ho) (resultIdx8 idx off hidx o ho hoff) _ ?_
    intro j e
    have e1 : o + (j 1).val = ch.val := congrArg Fin.val (congrFun e 1)
    have h1 : (j 1).val < 8 := (j 1).isLt
    omega

end Eight

/-! ## The four scatters, channel by channel -/

/-- The index tensors hold the channel offsets 0, 16, 32 and 48. -/
theorem v11_word (k : S1.Idx) : val_main_v11 (F := Ideal) k = 0#32 := (val_main_v11_apply k).trans (val_main_c_apply _)
theorem v25_word (k : S1.Idx) : val_main_v25 (F := Ideal) k = 16#32 := (val_main_v25_apply k).trans (val_main_c_5_apply _)
theorem v39_word (k : S1.Idx) : val_main_v39 (F := Ideal) k = 32#32 := (val_main_v39_apply k).trans (val_main_c_9_apply _)
theorem v53_word (k : S1.Idx) : val_main_v53 (F := Ideal) k = 48#32 := (val_main_v53_apply k).trans (val_main_c_13_apply _)

/-- Each scatter overwrites its own range of channels and nothing else; the ranges are disjoint and leave channels 56 to 63
    as they were: channel by channel this is the concatenation. -/
theorem scatters_eq_concat (x0 : (⟨S16x64x192x192, .f32⟩ : BufTy).Contents (Elt Ideal))
    (a0 a1 a2 : (⟨S16x16x192x192, .f32⟩ : BufTy).Contents (Elt Ideal)) (a3 : (⟨S16x8x192x192, .f32⟩ : BufTy).Contents (Elt Ideal))
    (hs : S16x64x192x192.Slices ![0, 56, 0, 0] S16x8x192x192)
    (hc : Shape.Concatenates [S16x16x192x192, S16x16x192x192, S16x16x192x192, S16x8x192x192, S16x8x192x192] S16x64x192x192 1) :
    Host.scatter scatter_S16x64x192x192_S1_S16x8x192x192_0123_n_1_0 (fun _ b => b)
      (Host.scatter scatter_S16x64x192x192_S1_S16x16x192x192_0123_n_1_0 (fun _ b => b)
        (Host.scatter scatter_S16x64x192x192_S1_S16x16x192x192_0123_n_1_0 (fun _ b => b)
          (Host.scatter scatter_S16x64x192x192_S1_S16x16x192x192_0123_n_1_0 (fun _ b => b) x0 (val_main_v11 (F := Ideal)) a0)
          (val_main_v25 (F := Ideal)) a1)
        (val_main_v39 (F := Ideal)) a2)
      (val_main_v53 (F := Ideal)) a3
    = concatenate S16x64x192x192 1 [⟨S16x16x192x192, a0⟩, ⟨S16x16x192x192, a1⟩, ⟨S16x16x192x192, a2⟩, ⟨S16x8x192x192, a3⟩,
        ⟨S16x8x192x192, extractStridedSlice S16x8x192x192 ![0, 56, 0, 0] x0 hs⟩] hc := by
  funext i
  obtain ⟨n, ch, h, w, rfl⟩ : ∃ (n : Fin 16) (ch : Fin 64) (h w : Fin 192), i = ix4 n ch h w := ⟨_, _, _, _, eq_ix4 i⟩
  rw [scatter8_at _ _ a3 48#32 v53_word 48 (by omega) (by decide) n ch h w,
    scatter16_at _ _ a2 32#32 v39_word 32 (by omega) (by decide) n ch h w,
    scatter16_at _ _ a1 16#32 v25_word 16 (by omega) (by decide) n ch h w,
    scatter16_at x0 _ a0 0#32 v11_word 0 (by omega) (by decide) n ch h w]
  have hch : ch.val < 64 := ch.isLt
  by_cases c3 : 48 ≤ ch.val ∧ ch.val < 48 + 8
  · rw [dif_pos c3]
    refine Eq.symm (concatenate_apply_piece (1 : Fin 4) _ _ (ix4 n ch h w) 3 (by simp) S16x8x192x192 a3 rfl rfl 48 rfl
      (ix4 n (⟨ch.val - 48, by omega⟩ : Fin 8) h w)
      (fun b hb => by fin_cases b <;> first | rfl | exact absurd rfl hb)
      (by show 48 + (ch.val - 48) = ch.val; omega))
  rw [dif_neg c3]
  by_cases c2 : 32 ≤ ch.val ∧ ch.val < 32 + 16
  · rw [dif_pos c2]
    refine Eq.symm (concatenate_apply_piece (1 : Fin 4) _ _ (ix4 n ch h w) 2 (by simp) S16x16x192x192 a2 rfl rfl 32 rfl
      (ix4 n (⟨ch.val - 32, by omega⟩ : Fin 16) h w)
      (fun b hb => by fin_cases b <;> first | rfl | exact absurd rfl hb)
      (by show 32 + (ch.val - 32) = ch.val; omega))
  rw [dif_neg c2]
  by_cases c1 : 16 ≤ ch.val ∧ ch.val < 16 + 16
  · rw [dif_pos c1]
    refine Eq.symm (concatenate_apply_piece (1 : Fin 4) _ _ (ix4 n ch h w) 1 (by simp) S16x16x192x192 a1 rfl rfl 16 rfl
      (ix4 n (⟨ch.val - 16, by omega⟩ : Fin 16) h w)
      (fun b hb => by fin_cases b <;> first | rfl | exact absurd rfl hb)
      (by show 16 + (ch.val - 16) = ch.val; omega))
  rw [dif_neg c1]
  by_cases c0 : 0 ≤ ch.val ∧ ch.val < 0 + 16
  · rw [dif_pos c0]
    refine Eq.symm (concatenate_apply_piece (1 : Fin 4) _ _ (ix4 n ch h w) 0 (by simp) S16x16x192x192 a0 rfl rfl 0 rfl
      (ix4 n (⟨ch.val - 0, by omega⟩ : Fin 16) h w)
      (fun b hb => by fin_cases b <;> first | rfl | exact absurd rfl hb)
      (by show 0 + (ch.val - 0) = ch.val; omega))
  rw [dif_neg c0]
  have h56 : 56 ≤ ch.val := by omega
  refine Eq.trans ?_ (Eq.symm (concatenate_apply_piece (1 : Fin 4) _ _ (ix4 n ch h w) 4 (by simp) S16x8x192x192
      (extractStridedSlice S16x8x192x192 ![0, 56, 0, 0] x0 hs) rfl rfl 56 rfl
      (ix4 n (⟨ch.val - 56, by omega⟩ : Fin 8) h w)
      (fun b hb => by fin_cases b <;> first | rfl | exact absurd rfl hb)
      (by show 56 + (ch.val - 56) = ch.val; omega)))
  exact (extractStridedSlice_apply ![0, 56, 0, 0] x0 hs (ix4 n (⟨ch.val - 56, by omega⟩ : Fin 8) h w) (ix4 n ch h w) (fun a => by
    fin_cases a
    · show n.val = 0 + n.val; omega
    · show ch.val = 56 + (ch.val - 56); omega
    · show h.val = 0 + h.val; omega
    · show w.val = 0 + w.val; omega)).symm

end Cert.ReferenceIdeal.RefValue

end
-- ==== Proof.lean ====
/-
  The certificate. The kernel program slices the argument into five groups of channels, runs one pipelined kernel on each of
  the first four and concatenates the results with the untouched fifth. Each kernel multiplies every pixel by the indicator
  that the sum of the block of pixels around it is positive (blocks of 1, 2, 4 and 8 pixels a side; for blocks of one pixel
  that is the positive part, which is how the first kernel computes it). The reference computes, for the same four groups,
  the block MEAN — the sum divided by 1, 4, 16 or 64 —, multiplies by the indicator that the mean is positive, and writes each
  group back into the argument. A sum and its quotient by a positive number have the same sign, on every extended real; a sum
  over a block's rows of the sums over its columns is the sum over the block; and four writes into disjoint ranges of channels
  are a concatenation. So the two results agree entry by entry; no hypothesis on the input is used.
  The frames: every item of the kernel program runs to its end touching only its own buffers, at either float instance; the
  reference is a line of host operations.
-/
import proofs.«175499_j1357209666244_1_alg».proof.Defs
import proofs.«175499_j1357209666244_1_alg».proof.Proof.Gen.Kernel
import proofs.«175499_j1357209666244_1_alg».proof.Proof.Gen.KernelIdeal
import proofs.«175499_j1357209666244_1_alg».proof.Proof.Gen.ReferenceIdeal
import proofs.«175499_j1357209666244_1_alg».proof.Proof.Gen.Pre_finite_inputs
import proofs.«175499_j1357209666244_1_alg».proof.Proof.Gen.ReferenceIdeal.Run
import proofs.«175499_j1357209666244_1_alg».proof.Proof.Gen.ReferenceIdeal.Read
import proofs.«175499_j1357209666244_1_alg».proof.Proof.K.Out
import proofs.«175499_j1357209666244_1_alg».proof.Proof.KI.Out
import proofs.«175499_j1357209666244_1_alg».proof.Proof.KI.Val0
import proofs.«175499_j1357209666244_1_alg».proof.Proof.KI.Val1
import proofs.«175499_j1357209666244_1_alg».proof.Proof.KI.Val2
import proofs.«175499_j1357209666244_1_alg».proof.Proof.KI.Val3
import proofs.«175499_j1357209666244_1_alg».proof.Proof.Ref
import proofs.«175499_j1357209666244_1_alg».proof.Proof.Assemble
import Idealize.ShloMosaic.Adequacy
import Idealize.ShloMosaic.Init

noncomputable section

namespace Cert.Proof

open Idealize.ShloMosaic Idealize.ShloMosaic.TcCoe Idealize.SL.Sem Idealize.ShloMosaic.BlockGate

theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Hand.run_main (F := Bits) m ρ)

theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Hand.run_main (F := Ideal) m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

open Cert.ReferenceIdeal Cert.ReferenceIdeal.Read Cert.ReferenceIdeal.RefValue in
/-- The reference's result, as a function of the argument, is the concatenation of the four gated slices and the last slice. -/
theorem ref_value (x0 : (⟨Cert.ReferenceIdeal.S16x64x192x192, .f32⟩ : BufTy).Contents (Elt Ideal)) :
    val_main_v54 (F := Ideal) x0
      = concatenate Cert.ReferenceIdeal.S16x64x192x192 1
          [⟨S16x16x192x192, gate4 (P := 192) (b := 1) (Q := 192) Facts₀.shapeCasts_S16x16x192x192_S16x16x192x1x192x1 Facts₀.shapeCasts_S16x16x192x1x192x1_S16x16x192x192 (val_main_v0 (F := Ideal) x0)⟩,
           ⟨S16x16x192x192, gate4 (P := 96) (b := 2) (Q := 96) Facts₀.shapeCasts_S16x16x192x192_S16x16x96x2x96x2 Facts₀.shapeCasts_S16x16x96x2x96x2_S16x16x192x192 (val_main_v13 (F := Ideal) x0)⟩,
           ⟨S16x16x192x192, gate4 (P := 48) (b := 4) (Q := 48) Facts₀.shapeCasts_S16x16x192x192_S16x16x48x4x48x4 Facts₀.shapeCasts_S16x16x48x4x48x4_S16x16x192x192 (val_main_v27 (F := Ideal) x0)⟩,
           ⟨S16x8x192x192, gate4 (P := 24) (b := 8) (Q := 24) Facts₀.shapeCasts_S16x8x192x192_S16x8x24x8x24x8 Facts₀.shapeCasts_S16x8x24x8x24x8_S16x8x192x192 (val_main_v41 (F := Ideal) x0)⟩,
           ⟨S16x8x192x192, extractStridedSlice S16x8x192x192 ![0, 56, 0, 0] x0 Cert.KernelIdeal.Facts₀.slices_S16x64x192x192_S16x8x192x192_0_56_0_0⟩]
          Cert.KernelIdeal.Facts₀.concatenates_S16x16x192x192_S16x16x192x192_S16x16x192x192_S16x8x192x192_S16x8x192x192_S16x64x192x192_d1 := by
  unfold val_main_v54 val_main_v40 val_main_v26 val_main_v12
  rw [grp0 x0 Facts₀.shapeCasts_S16x16x192x192_S16x16x192x1x192x1 Facts₀.shapeCasts_S16x16x192x1x192x1_S16x16x192x192,
    grp1 x0 Facts₀.shapeCasts_S16x16x192x192_S16x16x96x2x96x2 Facts₀.shapeCasts_S16x16x96x2x96x2_S16x16x192x192,
    grp2 x0 Facts₀.shapeCasts_S16x16x192x192_S16x16x48x4x48x4 Facts₀.shapeCasts_S16x16x48x4x48x4_S16x16x192x192,
    grp3 x0 Facts₀.shapeCasts_S16x8x192x192_S16x8x24x8x24x8 Facts₀.shapeCasts_S16x8x24x8x24x8_S16x8x192x192]
  exact scatters_eq_concat x0 _ _ _ _ _ _

open Cert.KernelIdeal Cert.KernelIdeal.Gen Cert.KernelIdeal.Hand in
/-- The kernel program's result at the ideal instance: the same concatenation, of the regions' output arrays. -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    outArr (F := Ideal) m ρ c
      = Cert.ReferenceIdeal.Read.val_main_v54 (F := Ideal) (m ((c.tc : Thread Cert.KernelIdeal.nD Cert.KernelIdeal.τ).loc Cert.KernelIdeal.main_arg0)) := by
  rw [ref_value]
  unfold outArr
  rw [arr0 (Ent0 m ρ) c Cert.ReferenceIdeal.Facts₀.shapeCasts_S16x16x192x192_S16x16x192x1x192x1 Cert.ReferenceIdeal.Facts₀.shapeCasts_S16x16x192x1x192x1_S16x16x192x192,
    arr1 (Ent1 m ρ) c Cert.ReferenceIdeal.Facts₀.shapeCasts_S16x16x192x192_S16x16x96x2x96x2 Cert.ReferenceIdeal.Facts₀.shapeCasts_S16x16x96x2x96x2_S16x16x192x192,
    arr2 (Ent2 m ρ) c Cert.ReferenceIdeal.Facts₀.shapeCasts_S16x16x192x192_S16x16x48x4x48x4 Cert.ReferenceIdeal.Facts₀.shapeCasts_S16x16x48x4x48x4_S16x16x192x192,
    arr3 (Ent3 m ρ) c Cert.ReferenceIdeal.Facts₀.shapeCasts_S16x8x192x192_S16x8x24x8x24x8 Cert.ReferenceIdeal.Facts₀.shapeCasts_S16x8x24x8x24x8_S16x8x192x192,
    ent0_src, ent1_src, ent2_src, ent3_src]
  rfl

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.outArr (F := Ideal) m ρ c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, hagree c]
  exact (kernel_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
